-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x256x16 : Shape := ⟨4, ![16, 256, 256, 16]⟩
abbrev S128x48 : Shape := ⟨2, ![128, 48]⟩
abbrev S16x128 : Shape := ⟨2, ![16, 128]⟩
abbrev S_ : Shape := ⟨0, ![]⟩

class Facts : Prop where
  bcast_S_S16x256x256x16 : S_.BroadcastsInDim S16x256x256x16 (![] : Fin 0 → Fin S16x256x256x16.rank)
  reducesTo_S16x256x256x16_S_d0_1_2_3 : S16x256x256x16.ReducesTo [0, 1, 2, 3] S_
  h_S_ : 0 < S_.numel
  bcast_S_S128x48 : S_.BroadcastsInDim S128x48 (![] : Fin 0 → Fin S128x48.rank)
  reducesTo_S128x48_S_d0_1 : S128x48.ReducesTo [0, 1] S_
  bcast_S_S16x128 : S_.BroadcastsInDim S16x128 (![] : Fin 0 → Fin S16x128.rank)
  reducesTo_S16x128_S_d0_1 : S16x128.ReducesTo [0, 1] S_

variable [Facts]

def fn {F : FTy → Type} [FloatOps F] (main_arg0 : FVec F S16x256x256x16 .f32) (main_arg1 : FVec F S128x48 .f32) (main_arg2 : FVec F S16x128 .f32) : IVec S_ 1 :=
  let main_v0 : FVec F S16x256x256x16 .f32 := Host.absf main_arg0
  let main_cst : FVec F S_ .f32 := constant S_ .f32 0x7F800000#32
  let main_v1 : FVec F S16x256x256x16 .f32 := broadcastInDim S16x256x256x16 ![] bcast_S_S16x256x256x16 main_cst
  let main_v2 : IVec S16x256x256x16 1 := cmpf .olt main_v0 main_v1
  let main_c : IVec S_ 1 := constantI S_ 1 1#1
  let main_v3 : IVec S_ 1 := (fun x v => Host.reduce IntOp.andi x v reducesTo_S16x256x256x16_S_d0_1_2_3 h_S_) main_v2 main_c
  let main_v4 : FVec F S128x48 .f32 := Host.absf main_arg1
  let main_cst_0 : FVec F S_ .f32 := constant S_ .f32 0x7F800000#32
  let main_v5 : FVec F S128x48 .f32 := broadcastInDim S128x48 ![] bcast_S_S128x48 main_cst_0
  let main_v6 : IVec S128x48 1 := cmpf .olt main_v4 main_v5
  let main_c_1 : IVec S_ 1 := constantI S_ 1 1#1
  let main_v7 : IVec S_ 1 := (fun x v => Host.reduce IntOp.andi x v reducesTo_S128x48_S_d0_1 h_S_) main_v6 main_c_1
  let main_v8 : IVec S_ 1 := andi main_v3 main_v7
  let main_v9 : FVec F S16x128 .f32 := Host.absf main_arg2
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  main_v13
-- ==== Kernel.lean ====
abbrev S16x256x256x16 : Shape := ⟨4, ![16, 256, 256, 16]⟩
abbrev S128x48 : Shape := ⟨2, ![128, 48]⟩
abbrev S16x128 : Shape := ⟨2, ![16, 128]⟩
abbrev S48x128 : Shape := ⟨2, ![48, 128]⟩
abbrev S128x16 : Shape := ⟨2, ![128, 16]⟩
abbrev S1x32x256x16 : Shape := ⟨4, ![1, 32, 256, 16]⟩
abbrev S1x1x256x16 : Shape := ⟨4, ![1, 1, 256, 16]⟩
abbrev S32x256x16 : Shape := ⟨3, ![32, 256, 16]⟩
abbrev S1x256x16 : Shape := ⟨3, ![1, 256, 16]⟩
abbrev S31x256x16 : Shape := ⟨3, ![31, 256, 16]⟩
abbrev S32x256x48 : Shape := ⟨3, ![32, 256, 48]⟩
abbrev S8192x48 : Shape := ⟨2, ![8192, 48]⟩
abbrev S8192x128 : Shape := ⟨2, ![8192, 128]⟩
abbrev S8192x16 : Shape := ⟨2, ![8192, 16]⟩

abbrev nBuf : Space → Nat
  | .hbm => 8
  | .vmem => 10
  | .smem => 0
  | _ => 0

abbrev bufTy : (tb : Table) → Fin (tcTables nBuf tb) → BufTy
  | .hbm, ⟨0, _⟩ => ⟨S16x256x256x16, .f32⟩
  | .hbm, ⟨1, _⟩ => ⟨S128x48, .f32⟩
  | .hbm, ⟨2, _⟩ => ⟨S16x128, .f32⟩
  | .hbm, ⟨3, _⟩ => ⟨S48x128, .f32⟩
  | .hbm, ⟨4, _⟩ => ⟨S48x128, .bf16⟩
  | .hbm, ⟨5, _⟩ => ⟨S128x16, .f32⟩
  | .hbm, ⟨6, _⟩ => ⟨S128x16, .bf16⟩
  | .hbm, ⟨7, _⟩ => ⟨S16x256x256x16, .f32⟩
  | .local _ .vmem, ⟨0, _⟩ => ⟨S1x32x256x16, .f32⟩
  | .local _ .vmem, ⟨1, _⟩ => ⟨S1x32x256x16, .f32⟩
  | .local _ .vmem, ⟨2, _⟩ => ⟨S1x1x256x16, .f32⟩
  | .local _ .vmem, ⟨3, _⟩ => ⟨S1x1x256x16, .f32⟩
  | .local _ .vmem, ⟨4, _⟩ => ⟨S1x1x256x16, .f32⟩
  | .local _ .vmem, ⟨5, _⟩ => ⟨S1x1x256x16, .f32⟩
  | .local _ .vmem, ⟨6, _⟩ => ⟨S48x128, .bf16⟩
  | .local _ .vmem, ⟨7, _⟩ => ⟨S128x16, .bf16⟩
  | .local _ .vmem, ⟨8, _⟩ => ⟨S1x32x256x16, .f32⟩
  | .local _ .vmem, ⟨9, _⟩ => ⟨S1x32x256x16, .f32⟩
  | _, _ => ⟨S16x256x256x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c32_i32 : BitVec 32 := 32#32
  let v1 : BitVec 32 := Scalar.muli arg1 c32_i32
  let c1_i32 : BitVec 32 := 1#32
  let v2 : BitVec 32 := Scalar.subi v1 c1_i32
  let c255_i32 : BitVec 32 := 255#32
  let v3 : BitVec 32 := Scalar.select v0 c255_i32 v2
  let c0_i32_0 : BitVec 32 := 0#32
  let c0_i32_1 : BitVec 32 := 0#32
  let c0_i32_2 : BitVec 32 := 0#32
  ![arg0.toNat, v3.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg1 c7_i32
  let c1_i32 : BitVec 32 := 1#32
  let v1 : BitVec 32 := Scalar.addi arg1 c1_i32
  let c32_i32 : BitVec 32 := 32#32
  let v2 : BitVec 32 := Scalar.muli v1 c32_i32
  let c0_i32 : BitVec 32 := 0#32
  let v3 : BitVec 32 := Scalar.select v0 c0_i32 v2
  let c0_i32_0 : BitVec 32 := 0#32
  let c0_i32_1 : BitVec 32 := 0#32
  let c0_i32_2 : BitVec 32 := 0#32
  ![arg0.toNat, v3.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S48x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x32x256x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S128x48_S48x128_1_0 : S128x48.Transposes [1, 0] S48x128
  bitsLt_bf16_f32 : FTy.bits .bf16 < FTy.bits .f32
  transposes_S16x128_S128x16_1_0 : S16x128.Transposes [1, 0] S128x16
  inb_S1x32x256x16_S1x32x256x16_0_0_0_0 : ∀ a, (![0, 0, 0, 0] : Fin 4 → Nat) a + S1x32x256x16.size a ≤ S1x32x256x16.size a
  h_S1x32x256x16 : 0 < S1x32x256x16.numel
  shapeCasts_S1x32x256x16_S32x256x16 : S1x32x256x16.ShapeCasts S32x256x16
  inb_S1x1x256x16_S1x1x256x16_0_0_0_0 : ∀ a, (![0, 0, 0, 0] : Fin 4 → Nat) a + S1x1x256x16.size a ≤ S1x1x256x16.size a
  h_S1x1x256x16 : 0 < S1x1x256x16.numel
  shapeCasts_S1x1x256x16_S1x256x16 : S1x1x256x16.ShapeCasts S1x256x16
  slices_S32x256x16_o0_0_0_S31x256x16 : S32x256x16.Slices ![0, 0, 0] S31x256x16
  concatenates_S1x256x16_S31x256x16_S32x256x16_d0 : Shape.Concatenates [S1x256x16, S31x256x16] S32x256x16 0
  slices_S32x256x16_o1_0_0_S31x256x16 : S32x256x16.Slices ![1, 0, 0] S31x256x16
  concatenates_S31x256x16_S1x256x16_S32x256x16_d0 : Shape.Concatenates [S31x256x16, S1x256x16] S32x256x16 0
  rotates_S32x256x16_d1 : S32x256x16.Rotates 1 none
  concatenates_S32x256x16_S32x256x16_S32x256x16_S32x256x48_d2 : Shape.Concatenates [S32x256x16, S32x256x16, S32x256x16] S32x256x48 2
  shapeCasts_S32x256x48_S8192x48 : S32x256x48.ShapeCasts S8192x48
  inb_S48x128_S48x128_0_0 : ∀ a, (![0, 0] : Fin 2 → Nat) a + S48x128.size a ≤ S48x128.size a
  h_S48x128 : 0 < S48x128.numel
  shapeCasts_S48x128_S48x128 : S48x128.ShapeCasts S48x128
  inb_S128x16_S128x16_0_0 : ∀ a, (![0, 0] : Fin 2 → Nat) a + S128x16.size a ≤ S128x16.size a
  h_S128x16 : 0 < S128x16.numel
  shapeCasts_S128x16_S128x16 : S128x16.ShapeCasts S128x16
  shapeCasts_S8192x16_S32x256x16 : S8192x16.ShapeCasts S32x256x16
  shapeCasts_S32x256x16_S1x32x256x16 : S32x256x16.ShapeCasts S1x32x256x16
  dot_S8192x48_S48x128_S8192x128_1_0_0_1_n_n_wf : DotDims.WF S8192x48 S48x128 S8192x128 [1] [0] [0] [1] [] []
  dot_S8192x128_S128x16_S8192x16_1_0_0_1_n_n_wf : DotDims.WF S8192x128 S128x16 S8192x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x256x16.size a ≤ S16x256x256x16.size a
  hwx0_0 : ∀ i : grid0.Coords, EltTy.bits .f32 = 32 ∨ (Rect.block (s := S16x256x256x16) S1x32x256x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256x16.size a ≤ S16x256x256x16.size a
  hwx0_1 : ∀ i : grid0.Coords, EltTy.bits .f32 = 32 ∨ (Rect.block (s := S16x256x256x16) S1x1x256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256x16.size a ≤ S16x256x256x16.size a
  hwx0_2 : ∀ i : grid0.Coords, EltTy.bits .f32 = 32 ∨ (Rect.block (s := S16x256x256x16) S1x1x256x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S48x128.size a ≤ S48x128.size a
  hwx0_3 : ∀ i : grid0.Coords, EltTy.bits .bf16 = 32 ∨ (Rect.block (s := S48x128) S48x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x16.size a ≤ S128x16.size a
  hwx0_4 : ∀ i : grid0.Coords, EltTy.bits .bf16 = 32 ∨ (Rect.block (s := S128x16) S128x16.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x256x16.size a ≤ S16x256x256x16.size a
  hwx0_5 : ∀ i : grid0.Coords, EltTy.bits .f32 = 32 ∨ (Rect.block (s := S16x256x256x16) S1x32x256x16.size (cc0_transform_5 i) (hinb0_5 i)).WholeWords (EltTy.packing .f32)

variable [Facts₀]

def dot_S8192x48_S48x128_S8192x128_1_0_0_1_n_n : DotDims S8192x48 S48x128 S8192x128 where
  lhsContracting := [1]
  rhsContracting := [0]
  lhsNonContracting := [0]
  rhsNonContracting := [1]
  lhsBatch := []
  rhsBatch := []
  wf := dot_S8192x48_S48x128_S8192x128_1_0_0_1_n_n_wf
def dot_S8192x128_S128x16_S8192x16_1_0_0_1_n_n : DotDims S8192x128 S128x16 S8192x16 where
  lhsContracting := [1]
  rhsContracting := [0]
  lhsNonContracting := [0]
  rhsNonContracting := [1]
  lhsBatch := []
  rhsBatch := []
  wf := dot_S8192x128_S128x16_S8192x16_1_0_0_1_n_n_wf

abbrev win0_0 : Pipeline.Window sig grid0 :=
  Pipeline.Window.ofSpec (Memref.whole main_arg0) S1x32x256x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1x256x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1x256x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S48x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x32x256x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x256x256x16 : Shape := ⟨4, ![16, 256, 256, 16]⟩
abbrev S128x48 : Shape := ⟨2, ![128, 48]⟩
abbrev S16x128 : Shape := ⟨2, ![16, 128]⟩
abbrev S16x1x256x16 : Shape := ⟨4, ![16, 1, 256, 16]⟩
abbrev S16x255x256x16 : Shape := ⟨4, ![16, 255, 256, 16]⟩
abbrev S16x256x255x16 : Shape := ⟨4, ![16, 256, 255, 16]⟩
abbrev S16x256x1x16 : Shape := ⟨4, ![16, 256, 1, 16]⟩
abbrev S16x0x256x16 : Shape := ⟨4, ![16, 0, 256, 16]⟩
abbrev S_ : Shape := ⟨0, ![]⟩
abbrev S16x256x0x16 : Shape := ⟨4, ![16, 256, 0, 16]⟩
abbrev S16x256x256x48 : Shape := ⟨4, ![16, 256, 256, 48]⟩
abbrev S16x256x256x128 : Shape := ⟨4, ![16, 256, 256, 128]⟩

abbrev nBuf : Space → Nat
  | .hbm => 97
  | .vmem => 0
  | .smem => 0
  | _ => 0

abbrev bufTy : (tb : Table) → Fin (tcTables nBuf tb) → BufTy
  | .hbm, ⟨0, _⟩ => ⟨S16x256x256x16, .f32⟩
  | .hbm, ⟨1, _⟩ => ⟨S128x48, .f32⟩
  | .hbm, ⟨2, _⟩ => ⟨S16x128, .f32⟩
  | .hbm, ⟨3, _⟩ => ⟨S16x1x256x16, .f32⟩
  | .hbm, ⟨4, _⟩ => ⟨S16x255x256x16, .f32⟩
  | .hbm, ⟨5, _⟩ => ⟨S16x256x256x16, .f32⟩
  | .hbm, ⟨6, _⟩ => ⟨S16x256x255x16, .f32⟩
  | .hbm, ⟨7, _⟩ => ⟨S16x256x1x16, .f32⟩
  | .hbm, ⟨8, _⟩ => ⟨S16x256x256x16, .f32⟩
  | .hbm, ⟨9, _⟩ => ⟨S16x1x256x16, .f32⟩
  | .hbm, ⟨10, _⟩ => ⟨S16x255x256x16, .f32⟩
  | .hbm, ⟨11, _⟩ => ⟨S16x256x256x16, .f32⟩
  | .hbm, ⟨12, _⟩ => ⟨S16x256x1x16, .f32⟩
  | .hbm, ⟨13, _⟩ => ⟨S16x256x255x16, .f32⟩
  | .hbm, ⟨14, _⟩ => ⟨S16x256x256x16, .f32⟩
  | .hbm, ⟨15, _⟩ => ⟨S16x256x256x16, .f32⟩
  | .hbm, ⟨16, _⟩ => ⟨S16x256x256x16, .f32⟩
  | .hbm, ⟨17, _⟩ => ⟨S16x0x256x16, .f32⟩
  | .hbm, ⟨18, _⟩ => ⟨S16x256x256x16, .f32⟩
  | .hbm, ⟨19, _⟩ => ⟨S16x256x255x16, .f32⟩
  | .hbm, ⟨20, _⟩ => ⟨S16x256x1x16, .f32⟩
  | .hbm, ⟨21, _⟩ => ⟨S16x256x256x16, .f32⟩
  | .hbm, ⟨22, _⟩ => ⟨S16x256x256x16, .f32⟩
  | .hbm, ⟨23, _⟩ => ⟨S16x0x256x16, .f32⟩
  | .hbm, ⟨24, _⟩ => ⟨S16x256x256x16, .f32⟩
  | .hbm, ⟨25, _⟩ => ⟨S16x256x1x16, .f32⟩
  | .hbm, ⟨26, _⟩ => ⟨S16x256x255x16, .f32⟩
  | .hbm, ⟨27, _⟩ => ⟨S16x256x256x16, .f32⟩
  | .hbm, ⟨28, _⟩ => ⟨S16x256x256x16, .f32⟩
  | .hbm, ⟨29, _⟩ => ⟨S_, .f32⟩
  | .hbm, ⟨30, _⟩ => ⟨S16x256x256x16, .f32⟩
  | .hbm, ⟨31, _⟩ => ⟨S16x256x256x16, .f32⟩
  | .hbm, ⟨32, _⟩ => ⟨S16x256x256x16, .f32⟩
  | .hbm, ⟨33, _⟩ => ⟨S16x255x256x16, .f32⟩
  | .hbm, ⟨34, _⟩ => ⟨S16x1x256x16, .f32⟩
  | .hbm, ⟨35, _⟩ => ⟨S16x256x256x16, .f32⟩
  | .hbm, ⟨36, _⟩ => ⟨S16x256x255x16, .f32⟩
  | .hbm, ⟨37, _⟩ => ⟨S16x256x1x16, .f32⟩
  | .hbm, ⟨38, _⟩ => ⟨S16x256x256x16, .f32⟩
  | .hbm, ⟨39, _⟩ => ⟨S16x255x256x16, .f32⟩
  | .hbm, ⟨40, _⟩ => ⟨S16x1x256x16, .f32⟩
  | .hbm, ⟨41, _⟩ => ⟨S16x256x256x16, .f32⟩
  | .hbm, ⟨42, _⟩ => ⟨S16x256x1x16, .f32⟩
  | .hbm, ⟨43, _⟩ => ⟨S16x256x255x16, .f32⟩
  | .hbm, ⟨44, _⟩ => ⟨S16x256x256x16, .f32⟩
  | .hbm, ⟨45, _⟩ => ⟨S16x256x256x16, .f32⟩
  | .hbm, ⟨46, _⟩ => ⟨S16x256x256x16, .f32⟩
  | .hbm, ⟨47, _⟩ => ⟨S16x255x256x16, .f32⟩
  | .hbm, ⟨48, _⟩ => ⟨S16x1x256x16, .f32⟩
  | .hbm, ⟨49, _⟩ => ⟨S16x256x256x16, .f32⟩
  | .hbm, ⟨50, _⟩ => ⟨S16x256x1x16, .f32⟩
  | .hbm, ⟨51, _⟩ => ⟨S16x256x255x16, .f32⟩
  | .hbm, ⟨52, _⟩ => ⟨S16x256x256x16, .f32⟩
  | .hbm, ⟨53, _⟩ => ⟨S16x1x256x16, .f32⟩
  | .hbm, ⟨54, _⟩ => ⟨S16x255x256x16, .f32⟩
  | .hbm, ⟨55, _⟩ => ⟨S16x256x256x16, .f32⟩
  | .hbm, ⟨56, _⟩ => ⟨S16x256x1x16, .f32⟩
  | .hbm, ⟨57, _⟩ => ⟨S16x256x255x16, .f32⟩
  | .hbm, ⟨58, _⟩ => ⟨S16x256x256x16, .f32⟩
  | .hbm, ⟨59, _⟩ => ⟨S16x256x256x16, .f32⟩
  | .hbm, ⟨60, _⟩ => ⟨S16x255x256x16, .f32⟩
  | .hbm, ⟨61, _⟩ => ⟨S16x1x256x16, .f32⟩
  | .hbm, ⟨62, _⟩ => ⟨S16x256x256x16, .f32⟩
  | .hbm, ⟨63, _⟩ => ⟨S16x256x256x16, .f32⟩
  | .hbm, ⟨64, _⟩ => ⟨S16x256x0x16, .f32⟩
  | .hbm, ⟨65, _⟩ => ⟨S16x256x256x16, .f32⟩
  | .hbm, ⟨66, _⟩ => ⟨S16x1x256x16, .f32⟩
  | .hbm, ⟨67, _⟩ => ⟨S16x255x256x16, .f32⟩
  | .hbm, ⟨68, _⟩ => ⟨S16x256x256x16, .f32⟩
  | .hbm, ⟨69, _⟩ => ⟨S16x256x256x16, .f32⟩
  | .hbm, ⟨70, _⟩ => ⟨S16x256x0x16, .f32⟩
  | .hbm, ⟨71, _⟩ => ⟨S16x256x256x16, .f32⟩
  | .hbm, ⟨72, _⟩ => ⟨S16x256x256x16, .f32⟩
  | .hbm, ⟨73, _⟩ => ⟨S_, .f32⟩
  | .hbm, ⟨74, _⟩ => ⟨S16x256x256x16, .f32⟩
  | .hbm, ⟨75, _⟩ => ⟨S16x256x256x16, .f32⟩
  | .hbm, ⟨76, _⟩ => ⟨S16x256x256x16, .f32⟩
  | .hbm, ⟨77, _⟩ => ⟨S16x255x256x16, .f32⟩
  | .hbm, ⟨78, _⟩ => ⟨S16x1x256x16, .f32⟩
  | .hbm, ⟨79, _⟩ => ⟨S16x256x256x16, .f32⟩
  | .hbm, ⟨80, _⟩ => ⟨S16x256x255x16, .f32⟩
  | .hbm, ⟨81, _⟩ => ⟨S16x256x1x16, .f32⟩
  | .hbm, ⟨82, _⟩ => ⟨S16x256x256x16, .f32⟩
  | .hbm, ⟨83, _⟩ => ⟨S16x1x256x16, .f32⟩
  | .hbm, ⟨84, _⟩ => ⟨S16x255x256x16, .f32⟩
  | .hbm, ⟨85, _⟩ => ⟨S16x256x256x16, .f32⟩
  | .hbm, ⟨86, _⟩ => ⟨S16x256x255x16, .f32⟩
  | .hbm, ⟨87, _⟩ => ⟨S16x256x1x16, .f32⟩
  | .hbm, ⟨88, _⟩ => ⟨S16x256x256x16, .f32⟩
  | .hbm, ⟨89, _⟩ => ⟨S16x256x256x16, .f32⟩
  | .hbm, ⟨90, _⟩ => ⟨S16x256x256x16, .f32⟩
  | .hbm, ⟨91, _⟩ => ⟨S16x256x256x48, .f32⟩
  | .hbm, ⟨92, _⟩ => ⟨S16x256x256x128, .f32⟩
  | .hbm, ⟨93, _⟩ => ⟨S_, .f32⟩
  | .hbm, ⟨94, _⟩ => ⟨S16x256x256x128, .f32⟩
  | .hbm, ⟨95, _⟩ => ⟨S16x256x256x128, .f32⟩
  | .hbm, ⟨96, _⟩ => ⟨S16x256x256x16, .f32⟩
  | _, _ => ⟨S16x256x256x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_v1 : Ref sig .tc := ⟨.hbm, 14, rfl⟩
abbrev main_v2 : Ref sig .tc := ⟨.hbm, 15, rfl⟩
abbrev main_call2_v0 : Ref sig .tc := ⟨.hbm, 16, rfl⟩
abbrev main_call2_v1 : Ref sig .tc := ⟨.hbm, 17, rfl⟩
abbrev main_call2_v2 : Ref sig .tc := ⟨.hbm, 18, rfl⟩
abbrev main_call2_v3 : Ref sig .tc := ⟨.hbm, 19, rfl⟩
abbrev main_call2_v4 : Ref sig .tc := ⟨.hbm, 20, rfl⟩
abbrev main_v3 : Ref sig .tc := ⟨.hbm, 21, rfl⟩
abbrev main_call3_v0 : Ref sig .tc := ⟨.hbm, 22, rfl⟩
abbrev main_call3_v1 : Ref sig .tc := ⟨.hbm, 23, rfl⟩
abbrev main_call3_v2 : Ref sig .tc := ⟨.hbm, 24, rfl⟩
abbrev main_call3_v3 : Ref sig .tc := ⟨.hbm, 25, rfl⟩
abbrev main_call3_v4 : Ref sig .tc := ⟨.hbm, 26, rfl⟩
abbrev main_v4 : Ref sig .tc := ⟨.hbm, 27, rfl⟩
abbrev main_v5 : Ref sig .tc := ⟨.hbm, 28, rfl⟩
abbrev main_cst : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_call4_v0 : Ref sig .tc := ⟨.hbm, 33, rfl⟩
abbrev main_call4_v1 : Ref sig .tc := ⟨.hbm, 34, rfl⟩
abbrev main_call4_v2 : Ref sig .tc := ⟨.hbm, 35, rfl⟩
abbrev main_call4_v3 : Ref sig .tc := ⟨.hbm, 36, rfl⟩
abbrev main_call4_v4 : Ref sig .tc := ⟨.hbm, 37, rfl⟩
abbrev main_v9 : Ref sig .tc := ⟨.hbm, 38, rfl⟩
abbrev main_call5_v0 : Ref sig .tc := ⟨.hbm, 39, rfl⟩
abbrev main_call5_v1 : Ref sig .tc := ⟨.hbm, 40, rfl⟩
abbrev main_call5_v2 : Ref sig .tc := ⟨.hbm, 41, rfl⟩
abbrev main_call5_v3 : Ref sig .tc := ⟨.hbm, 42, rfl⟩
abbrev main_call5_v4 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_call6_v0 : Ref sig .tc := ⟨.hbm, 47, rfl⟩
abbrev main_call6_v1 : Ref sig .tc := ⟨.hbm, 48, rfl⟩
abbrev main_call6_v2 : Ref sig .tc := ⟨.hbm, 49, rfl⟩
abbrev main_call6_v3 : Ref sig .tc := ⟨.hbm, 50, rfl⟩
abbrev main_call6_v4 : Ref sig .tc := ⟨.hbm, 51, rfl⟩
abbrev main_v13 : Ref sig .tc := ⟨.hbm, 52, rfl⟩
abbrev main_call7_v0 : Ref sig .tc := ⟨.hbm, 53, rfl⟩
abbrev main_call7_v1 : Ref sig .tc := ⟨.hbm, 54, rfl⟩
abbrev main_call7_v2 : Ref sig .tc := ⟨.hbm, 55, rfl⟩
abbrev main_call7_v3 : Ref sig .tc := ⟨.hbm, 56, rfl⟩
abbrev main_call7_v4 : Ref sig .tc := ⟨.hbm, 57, rfl⟩
abbrev main_v14 : Ref sig .tc := ⟨.hbm, 58, rfl⟩
abbrev main_v15 : Ref sig .tc := ⟨.hbm, 59, rfl⟩
abbrev main_call8_v0 : Ref sig .tc := ⟨.hbm, 60, rfl⟩
abbrev main_call8_v1 : Ref sig .tc := ⟨.hbm, 61, rfl⟩
abbrev main_call8_v2 : Ref sig .tc := ⟨.hbm, 62, rfl⟩
abbrev main_call8_v3 : Ref sig .tc := ⟨.hbm, 63, rfl⟩
abbrev main_call8_v4 : Ref sig .tc := ⟨.hbm, 64, rfl⟩
abbrev main_v16 : Ref sig .tc := ⟨.hbm, 65, rfl⟩
abbrev main_call9_v0 : Ref sig .tc := ⟨.hbm, 66, rfl⟩
abbrev main_call9_v1 : Ref sig .tc := ⟨.hbm, 67, rfl⟩
abbrev main_call9_v2 : Ref sig .tc := ⟨.hbm, 68, rfl⟩
abbrev main_call9_v3 : Ref sig .tc := ⟨.hbm, 69, rfl⟩
abbrev main_call9_v4 : Ref sig .tc := ⟨.hbm, 70, rfl⟩
abbrev main_v17 : Ref sig .tc := ⟨.hbm, 71, rfl⟩
abbrev main_v18 : Ref sig .tc := ⟨.hbm, 72, rfl⟩
abbrev main_cst_0 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_call10_v0 : Ref sig .tc := ⟨.hbm, 77, rfl⟩
abbrev main_call10_v1 : Ref sig .tc := ⟨.hbm, 78, rfl⟩
abbrev main_call10_v2 : Ref sig .tc := ⟨.hbm, 79, rfl⟩
abbrev main_call10_v3 : Ref sig .tc := ⟨.hbm, 80, rfl⟩
abbrev main_call10_v4 : Ref sig .tc := ⟨.hbm, 81, rfl⟩
abbrev main_v22 : Ref sig .tc := ⟨.hbm, 82, rfl⟩
abbrev main_call11_v0 : Ref sig .tc := ⟨.hbm, 83, rfl⟩
abbrev main_call11_v1 : Ref sig .tc := ⟨.hbm, 84, rfl⟩
abbrev main_call11_v2 : Ref sig .tc := ⟨.hbm, 85, rfl⟩
abbrev main_call11_v3 : Ref sig .tc := ⟨.hbm, 86, rfl⟩
abbrev main_call11_v4 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_call12_cst : Ref sig .tc := ⟨.hbm, 93, rfl⟩
abbrev main_call12_v0 : Ref sig .tc := ⟨.hbm, 94, rfl⟩
abbrev main_v28 : Ref sig .tc := ⟨.hbm, 95, rfl⟩
abbrev main_v29 : Ref sig .tc := ⟨.hbm, 96, rfl⟩

abbrev nD : Nat := 1
abbrev τ : Topo := Topo.v7x

variable {F : FTy → Type} [FloatOps F]

class Facts₀ : Prop where
  slices_S16x256x256x16_S16x1x256x16_0_255_0_0 : S16x256x256x16.Slices ![0, 255, 0, 0] S16x1x256x16
  slices_S16x256x256x16_S16x255x256x16_0_0_0_0 : S16x256x256x16.Slices ![0, 0, 0, 0] S16x255x256x16
  concatenates_S16x1x256x16_S16x255x256x16_S16x256x256x16_d1 : Shape.Concatenates [S16x1x256x16, S16x255x256x16] S16x256x256x16 1
  slices_S16x256x256x16_S16x256x255x16_0_0_1_0 : S16x256x256x16.Slices ![0, 0, 1, 0] S16x256x255x16
  slices_S16x256x256x16_S16x256x1x16_0_0_0_0 : S16x256x256x16.Slices ![0, 0, 0, 0] S16x256x1x16
  concatenates_S16x256x255x16_S16x256x1x16_S16x256x256x16_d2 : Shape.Concatenates [S16x256x255x16, S16x256x1x16] S16x256x256x16 2
  slices_S16x256x256x16_S16x256x1x16_0_0_255_0 : S16x256x256x16.Slices ![0, 0, 255, 0] S16x256x1x16
  slices_S16x256x256x16_S16x256x255x16_0_0_0_0 : S16x256x256x16.Slices ![0, 0, 0, 0] S16x256x255x16
  concatenates_S16x256x1x16_S16x256x255x16_S16x256x256x16_d2 : Shape.Concatenates [S16x256x1x16, S16x256x255x16] S16x256x256x16 2
  slices_S16x256x256x16_S16x256x256x16_0_0_0_0 : S16x256x256x16.Slices ![0, 0, 0, 0] S16x256x256x16
  slices_S16x256x256x16_S16x0x256x16_0_0_0_0 : S16x256x256x16.Slices ![0, 0, 0, 0] S16x0x256x16
  concatenates_S16x256x256x16_S16x0x256x16_S16x256x256x16_d1 : Shape.Concatenates [S16x256x256x16, S16x0x256x16] S16x256x256x16 1
  bcast_S_S16x256x256x16 : S_.BroadcastsInDim S16x256x256x16 (![] : Fin 0 → Fin S16x256x256x16.rank)
  slices_S16x256x256x16_S16x255x256x16_0_1_0_0 : S16x256x256x16.Slices ![0, 1, 0, 0] S16x255x256x16
  slices_S16x256x256x16_S16x1x256x16_0_0_0_0 : S16x256x256x16.Slices ![0, 0, 0, 0] S16x1x256x16
  concatenates_S16x255x256x16_S16x1x256x16_S16x256x256x16_d1 : Shape.Concatenates [S16x255x256x16, S16x1x256x16] S16x256x256x16 1
  slices_S16x256x256x16_S16x256x0x16_0_0_0_0 : S16x256x256x16.Slices ![0, 0, 0, 0] S16x256x0x16
  concatenates_S16x256x256x16_S16x256x0x16_S16x256x256x16_d2 : Shape.Concatenates [S16x256x256x16, S16x256x0x16] S16x256x256x16 2
  concatenates_S16x256x256x16_S16x256x256x16_S16x256x256x16_S16x256x256x48_d3 : Shape.Concatenates [S16x256x256x16, S16x256x256x16, S16x256x256x16] S16x256x256x48 3
  bcast_S_S16x256x256x128 : S_.BroadcastsInDim S16x256x256x128 (![] : Fin 0 → Fin S16x256x256x128.rank)
  dot_S16x256x256x48_S128x48_S16x256x256x128_3_1_012_0_n_n_wf : DotDims.WF S16x256x256x48 S128x48 S16x256x256x128 [3] [1] [0, 1, 2] [0] [] []
  dot_S16x256x256x128_S16x128_S16x256x256x16_3_1_012_0_n_n_wf : DotDims.WF S16x256x256x128 S16x128 S16x256x256x16 [3] [1] [0, 1, 2] [0] [] []

variable [Facts₀]

def dot_S16x256x256x48_S128x48_S16x256x256x128_3_1_012_0_n_n : DotDims S16x256x256x48 S128x48 S16x256x256x128 where
  lhsContracting := [3]
  rhsContracting := [1]
  lhsNonContracting := [0, 1, 2]
  rhsNonContracting := [0]
  lhsBatch := []
  rhsBatch := []
  wf := dot_S16x256x256x48_S128x48_S16x256x256x128_3_1_012_0_n_n_wf
def dot_S16x256x256x128_S16x128_S16x256x256x16_3_1_012_0_n_n : DotDims S16x256x256x128 S16x128 S16x256x256x16 where
  lhsContracting := [3]
  rhsContracting := [1]
  lhsNonContracting := [0, 1, 2]
  rhsNonContracting := [0]
  lhsBatch := []
  rhsBatch := []
  wf := dot_S16x256x256x128_S16x128_S16x256x256x16_3_1_012_0_n_n_wf

class Facts : Prop extends Facts₀ where

variable [Facts]
-- ==== Proof.K.Body.lean ====
/-
  The frame of `Kernel`: one kernel region on a 16 × 8 grid after four host operations (two transposes, each then
  narrowed to bf16). Three of the region's input windows read ONE array, the state grid: the 32-row tile
  of a point, the single row above it and the single row below it (both wrapping around the 256 rows).
  The array is therefore lent to the pipeline in three parts of its full share, one per window; nothing
  writes it, and the three parts are the whole again when the region ends.

  At a point the body loads the five input blocks whole, computes, and stores the output block whole:
  what it leaves in the output window is one function of the five blocks (`tileOut`), and every input
  window keeps its block. The proof data say exactly that; the body's triple is the symbolic run of the
  printed function; the launch is the library's for a region whose windows may share arrays.
-/
import proofs.«110376_j15324443312135_1_alg».proof.Proof.Gen.Kernel.Launch
import proofs.«110376_j15324443312135_1_alg».proof.Proof.Gen.Kernel.Skeleton
import proofs.«110376_j15324443312135_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffers after the four host operations: the two weights transposed and narrowed. -/
abbrev atEntry (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the four host operations, then the region. -/
theorem main_prefix (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- None of the host operations writes an argument. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))

/-! ## A window's block at a point -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! ## What the body leaves in the output window -/

abbrev rTile : Rect S1x32x256x16 := Rect.unit (s := S1x32x256x16) ![0, 0, 0, 0] S1x32x256x16.size inb_S1x32x256x16_S1x32x256x16_0_0_0_0
abbrev rRow : Rect S1x1x256x16 := Rect.unit (s := S1x1x256x16) ![0, 0, 0, 0] S1x1x256x16.size inb_S1x1x256x16_S1x1x256x16_0_0_0_0
abbrev rWh : Rect S48x128 := Rect.unit (s := S48x128) ![0, 0] S48x128.size inb_S48x128_S48x128_0_0
abbrev rWo : Rect S128x16 := Rect.unit (s := S128x16) ![0, 0] S128x16.size inb_S128x16_S128x16_0_0

/-- The output block from the five input blocks: the one store's payload over the whole block. -/
def tileOut (x0 : Vec F S1x32x256x16 .f32) (x1 x2 : Vec F S1x1x256x16 .f32) (x3 : Vec F S48x128 .bf16) (x4 : Vec F S128x16 .bf16) :
    Vec F S1x32x256x16 .f32 :=
  View.canon [⟨rTile, k0_pay1 (k0_pay2 (View.ld x0 rTile) (View.ld x1 rRow) (View.ld x2 rRow)) (k0_pay3 (View.ld x3 rWh))
    (constant S8192x128 .f32 0x00000000#32) (View.ld x4 rWo)⟩]

/-- The one store covers the block. -/
theorem tile_cover (p0 : Vec F S1x32x256x16 .f32) (y : S1x32x256x16.Idx) :
    ∃ pc ∈ ([⟨rTile, p0⟩] : List (View.Piece (Elt F) S1x32x256x16 .f32)), y ∈ pc.1.set :=
  View.cover_of_tiled [⟨rTile, p0⟩] S1x32x256x16.size (by rfl) y

/-! ## The body's triple -/

set_option maxHeartbeats 1000000 in
/-- On whole staging memrefs, the inputs' reading `x0 … x4` and the output's anything, the body runs to the
    inputs' as they were and the output's at `tileOut` of them. -/
theorem body_run (c : Dev nD) (E : Set ℕ) (i : grid0.Coords)
    (arg2 : Memref sig .tc .vmem S1x32x256x16 .f32) (harg2 : arg2.IsWhole) (arg3 : Memref sig .tc .vmem S1x1x256x16 .f32) (harg3 : arg3.IsWhole)
    (arg4 : Memref sig .tc .vmem S1x1x256x16 .f32) (harg4 : arg4.IsWhole) (arg5 : Memref sig .tc .vmem S48x128 .bf16) (harg5 : arg5.IsWhole)
    (arg6 : Memref sig .tc .vmem S128x16 .bf16) (harg6 : arg6.IsWhole) (arg7 : Memref sig .tc .vmem S1x32x256x16 .f32) (harg7 : arg7.IsWhole)
    (x0 : Vec F S1x32x256x16 .f32) (x1 x2 : Vec F S1x1x256x16 .f32) (x3 : Vec F S48x128 .bf16) (x4 : Vec F S128x16 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (tileOut x0 x1 x2 x3 x4)) -∗ K ⟨⟩))
      ⊢ wp frame (wpE (defs₀ (F := F)) Variants.none c none) E (cc0__dense_cnn_kernel i arg2 harg2 arg3 harg3 arg4 harg4 arg5 harg5 arg6 harg6 arg7 harg7) K := by
  simp only [cc0__dense_cnn_kernel_eq_skeleton]; unfold cc0__dense_cnn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (tile_cover _)

end Cert.Kernel.Hand

end
-- ==== Proof.K.Data.lean ====
/-
  The proof data, the body obligation and the launch of `Kernel`'s one region, and from them its frame.

  The state grid is read by three input windows. It is lent to them as the left half of its full share
  (the 32-row tile), and the two halves of the right half (the row above, the row below); the two
  weights and the result are held outright. No window writes the state grid, so after the last point the
  three parts still hold the entry contents.
-/
import proofs.«110376_j15324443312135_1_alg».proof.Proof.K.Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body every input window still holds its block
    and the output window the tile computed from the five blocks; between points the kernel keeps nothing
    (the core's scoped buffers besides the staging buffers: none); the state grid lent in three parts. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => tileOut (blockAt m c 0 t) (blockAt m c 1 t) (blockAt m c 2 t) (blockAt m c 3 t) (blockAt m c 4 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq (c : Dev nD) (w : Fin cfg0.W) : (dats m 0 c).A w = atEntry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t
    = tileOut (blockAt m c 0 t) (blockAt m c 1 t) (blockAt m c 2 t) (blockAt m c 3 t) (blockAt m c 4 t) := by dsimp only [dats]

/-- An input window's current buffer holds its block at every point: fetched there, or (the two weights after
    the first point) left there by the point before, the block index not having moved. -/
theorem found_0 (c : Dev nD) (t : Fin cfg0.N) (d) : (dats m 0 c).before 0 t d = blockAt m c 0 t :=
  ((dats m 0 c).before_in_eq_fetched 0 rfl (fun _ => rfl) (fun _ _ _ => rfl)
    (fun t => by rw [after_0]; unfold Dat.blockOf blockAt; rw [A_eq]; try rfl) t d).trans
    (by unfold Dat.fetched Dat.blockOf blockAt; rw [A_eq]; try rfl)
theorem found_1 (c : Dev nD) (t : Fin cfg0.N) (d) : (dats m 0 c).before 1 t d = blockAt m c 1 t :=
  ((dats m 0 c).before_in_eq_fetched 1 rfl (fun _ => rfl) (fun _ _ _ => rfl)
    (fun t => by rw [after_1]; unfold Dat.blockOf blockAt; rw [A_eq]; try rfl) t d).trans
    (by unfold Dat.fetched Dat.blockOf blockAt; rw [A_eq]; try rfl)
theorem found_2 (c : Dev nD) (t : Fin cfg0.N) (d) : (dats m 0 c).before 2 t d = blockAt m c 2 t :=
  ((dats m 0 c).before_in_eq_fetched 2 rfl (fun _ => rfl) (fun _ _ _ => rfl)
    (fun t => by rw [after_2]; unfold Dat.blockOf blockAt; rw [A_eq]; try rfl) t d).trans
    (by unfold Dat.fetched Dat.blockOf blockAt; rw [A_eq]; try rfl)
theorem found_3 (c : Dev nD) (t : Fin cfg0.N) (d) : (dats m 0 c).before 3 t d = blockAt m c 3 t :=
  ((dats m 0 c).before_in_eq_fetched 3 rfl (fun _ => rfl) (fun _ _ _ => rfl)
    (fun t => by rw [after_3]; unfold Dat.blockOf blockAt; rw [A_eq]; try rfl) t d).trans
    (by unfold Dat.fetched Dat.blockOf blockAt; rw [A_eq]; try rfl)
theorem found_4 (c : Dev nD) (t : Fin cfg0.N) (d) : (dats m 0 c).before 4 t d = blockAt m c 4 t :=
  ((dats m 0 c).before_in_eq_fetched 4 rfl (fun _ => rfl) (fun _ _ _ => rfl)
    (fun t => by rw [after_4]; unfold Dat.blockOf blockAt; rw [A_eq]; try rfl) t d).trans
    (by unfold Dat.fetched Dat.blockOf blockAt; rw [A_eq]; try rfl)

/-! ## The body obligation -/

/-- What the body is called with at point `t`, the windows one by one, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem point_run (c : Dev nD) (t : Fin cfg0.N) :
    pointPre m c t ⊢ wp frame (wpE (defs₀ (F := F)) Variants.none c none) Set.univ (bodyAt0 t) (fun _ => pointPost m c t) := by
  unfold pointPre pointPost bodyAt0
  simp only [found_0, found_1, found_2, found_3, found_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_run c Set.univ (grid0.coords t) _ _ _ _ _ _ _ _ _ _ _ _
    (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact point_run m c t

end Cert.Kernel.Hand

end
-- ==== Proof.K.Launch.lean ====
/-
  The launch of `Kernel`'s region and its frame.

  When the region is entered the core holds every unscoped buffer whole. The state grid's buffer is cut
  into the three parts its three windows are lent (left half; left and right halves of the right half),
  the two narrowed weights and the result go to their windows whole, and the remaining four buffers (the two
  weight arguments and their transposes) bypass the region and are read back unchanged at the end.
-/
import proofs.«110376_j15324443312135_1_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays dealt to the windows -/

theorem share_0 (c : Dev nD) : (dats m 0 c).share 0 = fullShare.left := rfl
theorem share_1 (c : Dev nD) : (dats m 0 c).share 1 = fullShare.right.left := rfl
theorem share_2 (c : Dev nD) : (dats m 0 c).share 2 = fullShare.right.right := rfl
theorem share_3 (c : Dev nD) : (dats m 0 c).share 3 = fullShare := rfl
theorem share_4 (c : Dev nD) : (dats m 0 c).share 4 = fullShare := rfl
theorem share_5 (c : Dev nD) : (dats m 0 c).share 5 = fullShare := rfl

/-- The four buffers behind the six windows, each whole at its entry contents, make the windows' arrays: the
    state grid's in three parts of its share, the others whole. -/
theorem arrBufs_listed (c : Dev nD) :
    (Pipeline.arrBufs (Ix := Unit) (Name := ℕ) (U := UR sig nD τ) (Lvl := ℕ) spec0 c (atEntry m c) : sProp 𝕄)
      = iprop((((c : Thread nD τ).loc main_arg0) ↦{fullShare} atEntry m c main_arg0) ∗ (((c : Thread nD τ).loc main_v1) ↦{fullShare} atEntry m c main_v1)
          ∗ (((c : Thread nD τ).loc main_v3) ↦{fullShare} atEntry m c main_v3) ∗ (((c : Thread nD τ).loc main_v4) ↦{fullShare} atEntry m c main_v4)) := by
  unfold Pipeline.arrBufs
  exact Idealize.SL.BI.bigSep_eq_bigSepL_of_eq [main_arg0, main_v1, main_v3, main_v4] (by decide) (by decide) _

theorem arrays_listed (c : Dev nD) :
    ((dats m 0 c).arrays ((dats m 0 c).arrAt · 0) : sProp 𝕄)
      = iprop((((c : Thread nD τ).loc main_arg0) ↦{fullShare.left} atEntry m c main_arg0)
          ∗ (((c : Thread nD τ).loc main_arg0) ↦{fullShare.right.left} atEntry m c main_arg0)
          ∗ (((c : Thread nD τ).loc main_arg0) ↦{fullShare.right.right} atEntry m c main_arg0)
          ∗ (((c : Thread nD τ).loc main_v1) ↦{fullShare} atEntry m c main_v1)
          ∗ (((c : Thread nD τ).loc main_v3) ↦{fullShare} atEntry m c main_v3)
          ∗ (((c : Thread nD τ).loc main_v4) ↦{fullShare} atEntry m c main_v4)) := by
  unfold Dat.arrays
  rw [bigSep_W0, (arr_whole0 0).set_eq_univ, (arr_whole0 3).set_eq_univ, (arr_whole0 4).set_eq_univ, (arr_whole0 5).set_eq_univ,
    share_0, share_1, share_2, share_3, share_4, share_5]
  rfl

theorem lend_arrays (c : Dev nD) :
    (Pipeline.arrBufs (Ix := Unit) (Name := ℕ) (U := UR sig nD τ) (Lvl := ℕ) spec0 c (atEntry m c) : sProp 𝕄)
      ⊢ (dats m 0 c).arrays ((dats m 0 c).arrAt · 0) := by
  rw [arrBufs_listed, arrays_listed]
  iintro ⟨Hx, Hh, Ho, Hr⟩
  ihave Hx := ((pointsTo_share (PosShare.mem_left_op_right fullShare)).1) $$ Hx
  icases Hx with ⟨Hl, Hx⟩
  ihave Hx := ((pointsTo_share (PosShare.mem_left_op_right fullShare.right)).1) $$ Hx
  icases Hx with ⟨Hrl, Hrr⟩
  isplitl [Hl]; · iexact Hl
  isplitl [Hrl]; · iexact Hrl
  isplitl [Hrr]; · iexact Hrr
  isplitl [Hh]; · iexact Hh
  isplitl [Ho]; · iexact Ho
  iexact Hr

/-! ## The run -/

/-- The staging cells' launch element: each cell's owner at round 0, a duty token per transfer of the pipeline. -/
def launchElt : UR sig nD τ := initOf (Pipeline.cells cfgs cellOf_inj) (Pipeline.launchToks cfgs cellOf_inj)

set_option backward.isDefEq.respectTransparency.types false in
/-- From any memory with zero counters every weakly fair execution of @main ends, faulting nowhere, with every
    window's array at what the proof data compute (an input's: its entry contents; the result's: every tile
    written back) and every other unscoped buffer as the region found it. -/
theorem run_main : θ_run defs (onTc (τ := τ) (main (F := F))) (s₀ m ρ) (Pipeline.FramePost cfgs (dats m) 0 (atEntry m)) :=
  Pipeline.θ_run_region_noSem_shared cfgs (dats m) () cellOf_inj (0 : Fin 1) winFacts₀0
    (emb₁ : Emb (UR sig nD τ) (MT nD τ sig Unit (Elt F) ℕ (UR sig nD τ) ℕ)) defs₀ Variants.none m ρ main
    (hbody := fun c => (body_obligation m c).loose)
    (hne := block_pos0) (harr := arr_whole0) (hstage := stage_whole0)
    (howed := fun _ _ => rfl)
    (u₀ := launchElt) (hu₀ := BI.Entails.refl _)
    (V := atEntry m)
    (hmain := main_prefix m Variants.none)
    (hsplit := lend_arrays m)
    (X := fun _ => iprop(emp)) (Y := fun _ => iprop(emp))
    (Z := fun c => Pipeline.unscopedRest (Ix := Unit) (Name := ℕ) (U := UR sig nD τ) (Lvl := ℕ) spec0 c (atEntry m c))
    (hX := fun c => by iintro H; isplitr; · iempintro
                       iexact H)
    (hin := fun c => show iprop(emp ∗ Pipeline.scopedRest spec0 c) ⊢ Pipeline.scopedRest spec0 c from by iintro ⟨-, H⟩; iexact H)
    (hout := fun c => show Pipeline.scopedRest spec0 c ⊢ iprop(emp ∗ Pipeline.scopedRest spec0 c) from by
      iintro H; isplitr; · iempintro
      iexact H)
    (QY := fun c s => ∀ b ∈ Pipeline.restRefs sig spec0, s.mem ((c.tc : Thread nD τ).loc b) = atEntry m c b)
    (hY := fun c s' => by
      iintro ⟨-, HU, HSI⟩
      unfold Pipeline.unscopedRest
      imodintro
      iapply (pointsTo_read_all (Pipeline.restRefs sig spec0) (fun b => (c.tc : Thread nD τ).loc b) (atEntry m c) s')
      isplitl [HU] <;> iassumption)
    (hQ := fun s h c => ⟨(h c).1, (h c).2⟩)

/-! ## The frame -/

/-- @main runs to the end, faults nowhere, and leaves its three arguments as they were: the state grid is an input
    of three windows and never written; the two weights bypass the region; no host operation writes any of them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (atEntry_arg0 m c))),
      ((h c).2 main_arg1 (Pipeline.mem_restRefs_of main_arg1 (by decide) (by decide))).trans (atEntry_arg1 m c),
      ((h c).2 main_arg2 (Pipeline.mem_restRefs_of main_arg2 (by decide) (by decide))).trans (atEntry_arg2 m c)⟩) (run_main m ρ)

end Cert.Kernel.Hand

end
-- ==== Proof.KI.Body.lean ====
/-
  The frame of `KernelIdeal`: one kernel region on a 16 × 8 grid after four host operations (two transposes, each then
  narrowed to bf16). Three of the region's input windows read ONE array, the state grid: the 32-row tile
  of a point, the single row above it and the single row below it (both wrapping around the 256 rows).
  The array is therefore lent to the pipeline in three parts of its full share, one per window; nothing
  writes it, and the three parts are the whole again when the region ends.

  At a point the body loads the five input blocks whole, computes, and stores the output block whole:
  what it leaves in the output window is one function of the five blocks (`tileOut`), and every input
  window keeps its block. The proof data say exactly that; the body's triple is the symbolic run of the
  printed function; the launch is the library's for a region whose windows may share arrays.
-/
import proofs.«110376_j15324443312135_1_alg».proof.Proof.Gen.KernelIdeal.Launch
import proofs.«110376_j15324443312135_1_alg».proof.Proof.Gen.KernelIdeal.Skeleton
import proofs.«110376_j15324443312135_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffers after the four host operations: the two weights transposed and narrowed. -/
abbrev atEntry (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the four host operations, then the region. -/
theorem main_prefix (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- None of the host operations writes an argument. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))

/-! ## A window's block at a point -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! ## What the body leaves in the output window -/

abbrev rTile : Rect S1x32x256x16 := Rect.unit (s := S1x32x256x16) ![0, 0, 0, 0] S1x32x256x16.size inb_S1x32x256x16_S1x32x256x16_0_0_0_0
abbrev rRow : Rect S1x1x256x16 := Rect.unit (s := S1x1x256x16) ![0, 0, 0, 0] S1x1x256x16.size inb_S1x1x256x16_S1x1x256x16_0_0_0_0
abbrev rWh : Rect S48x128 := Rect.unit (s := S48x128) ![0, 0] S48x128.size inb_S48x128_S48x128_0_0
abbrev rWo : Rect S128x16 := Rect.unit (s := S128x16) ![0, 0] S128x16.size inb_S128x16_S128x16_0_0

/-- The output block from the five input blocks: the one store's payload over the whole block. -/
def tileOut (x0 : Vec F S1x32x256x16 .f32) (x1 x2 : Vec F S1x1x256x16 .f32) (x3 : Vec F S48x128 .bf16) (x4 : Vec F S128x16 .bf16) :
    Vec F S1x32x256x16 .f32 :=
  View.canon [⟨rTile, k0_pay1 (k0_pay2 (View.ld x0 rTile) (View.ld x1 rRow) (View.ld x2 rRow)) (k0_pay3 (View.ld x3 rWh))
    (constant S8192x128 .f32 0x00000000#32) (View.ld x4 rWo)⟩]

/-- The one store covers the block. -/
theorem tile_cover (p0 : Vec F S1x32x256x16 .f32) (y : S1x32x256x16.Idx) :
    ∃ pc ∈ ([⟨rTile, p0⟩] : List (View.Piece (Elt F) S1x32x256x16 .f32)), y ∈ pc.1.set :=
  View.cover_of_tiled [⟨rTile, p0⟩] S1x32x256x16.size (by rfl) y

/-! ## The body's triple -/

set_option maxHeartbeats 1000000 in
/-- On whole staging memrefs, the inputs' reading `x0 … x4` and the output's anything, the body runs to the
    inputs' as they were and the output's at `tileOut` of them. -/
theorem body_run (c : Dev nD) (E : Set ℕ) (i : grid0.Coords)
    (arg2 : Memref sig .tc .vmem S1x32x256x16 .f32) (harg2 : arg2.IsWhole) (arg3 : Memref sig .tc .vmem S1x1x256x16 .f32) (harg3 : arg3.IsWhole)
    (arg4 : Memref sig .tc .vmem S1x1x256x16 .f32) (harg4 : arg4.IsWhole) (arg5 : Memref sig .tc .vmem S48x128 .bf16) (harg5 : arg5.IsWhole)
    (arg6 : Memref sig .tc .vmem S128x16 .bf16) (harg6 : arg6.IsWhole) (arg7 : Memref sig .tc .vmem S1x32x256x16 .f32) (harg7 : arg7.IsWhole)
    (x0 : Vec F S1x32x256x16 .f32) (x1 x2 : Vec F S1x1x256x16 .f32) (x3 : Vec F S48x128 .bf16) (x4 : Vec F S128x16 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (tileOut x0 x1 x2 x3 x4)) -∗ K ⟨⟩))
      ⊢ wp frame (wpE (defs₀ (F := F)) Variants.none c none) E (cc0__dense_cnn_kernel i arg2 harg2 arg3 harg3 arg4 harg4 arg5 harg5 arg6 harg6 arg7 harg7) K := by
  simp only [cc0__dense_cnn_kernel_eq_skeleton]; unfold cc0__dense_cnn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (tile_cover _)

end Cert.KernelIdeal.Hand

end
-- ==== Proof.KI.Data.lean ====
/-
  The proof data, the body obligation and the launch of `KernelIdeal`'s one region, and from them its frame.

  The state grid is read by three input windows. It is lent to them as the left half of its full share
  (the 32-row tile), and the two halves of the right half (the row above, the row below); the two
  weights and the result are held outright. No window writes the state grid, so after the last point the
  three parts still hold the entry contents.
-/
import proofs.«110376_j15324443312135_1_alg».proof.Proof.KI.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body every input window still holds its block
    and the output window the tile computed from the five blocks; between points the kernel keeps nothing
    (the core's scoped buffers besides the staging buffers: none); the state grid lent in three parts. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => tileOut (blockAt m c 0 t) (blockAt m c 1 t) (blockAt m c 2 t) (blockAt m c 3 t) (blockAt m c 4 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq (c : Dev nD) (w : Fin cfg0.W) : (dats m 0 c).A w = atEntry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t
    = tileOut (blockAt m c 0 t) (blockAt m c 1 t) (blockAt m c 2 t) (blockAt m c 3 t) (blockAt m c 4 t) := by dsimp only [dats]

/-- An input window's current buffer holds its block at every point: fetched there, or (the two weights after
    the first point) left there by the point before, the block index not having moved. -/
theorem found_0 (c : Dev nD) (t : Fin cfg0.N) (d) : (dats m 0 c).before 0 t d = blockAt m c 0 t :=
  ((dats m 0 c).before_in_eq_fetched 0 rfl (fun _ => rfl) (fun _ _ _ => rfl)
    (fun t => by rw [after_0]; unfold Dat.blockOf blockAt; rw [A_eq]; try rfl) t d).trans
    (by unfold Dat.fetched Dat.blockOf blockAt; rw [A_eq]; try rfl)
theorem found_1 (c : Dev nD) (t : Fin cfg0.N) (d) : (dats m 0 c).before 1 t d = blockAt m c 1 t :=
  ((dats m 0 c).before_in_eq_fetched 1 rfl (fun _ => rfl) (fun _ _ _ => rfl)
    (fun t => by rw [after_1]; unfold Dat.blockOf blockAt; rw [A_eq]; try rfl) t d).trans
    (by unfold Dat.fetched Dat.blockOf blockAt; rw [A_eq]; try rfl)
theorem found_2 (c : Dev nD) (t : Fin cfg0.N) (d) : (dats m 0 c).before 2 t d = blockAt m c 2 t :=
  ((dats m 0 c).before_in_eq_fetched 2 rfl (fun _ => rfl) (fun _ _ _ => rfl)
    (fun t => by rw [after_2]; unfold Dat.blockOf blockAt; rw [A_eq]; try rfl) t d).trans
    (by unfold Dat.fetched Dat.blockOf blockAt; rw [A_eq]; try rfl)
theorem found_3 (c : Dev nD) (t : Fin cfg0.N) (d) : (dats m 0 c).before 3 t d = blockAt m c 3 t :=
  ((dats m 0 c).before_in_eq_fetched 3 rfl (fun _ => rfl) (fun _ _ _ => rfl)
    (fun t => by rw [after_3]; unfold Dat.blockOf blockAt; rw [A_eq]; try rfl) t d).trans
    (by unfold Dat.fetched Dat.blockOf blockAt; rw [A_eq]; try rfl)
theorem found_4 (c : Dev nD) (t : Fin cfg0.N) (d) : (dats m 0 c).before 4 t d = blockAt m c 4 t :=
  ((dats m 0 c).before_in_eq_fetched 4 rfl (fun _ => rfl) (fun _ _ _ => rfl)
    (fun t => by rw [after_4]; unfold Dat.blockOf blockAt; rw [A_eq]; try rfl) t d).trans
    (by unfold Dat.fetched Dat.blockOf blockAt; rw [A_eq]; try rfl)

/-! ## The body obligation -/

/-- What the body is called with at point `t`, the windows one by one, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem point_run (c : Dev nD) (t : Fin cfg0.N) :
    pointPre m c t ⊢ wp frame (wpE (defs₀ (F := F)) Variants.none c none) Set.univ (bodyAt0 t) (fun _ => pointPost m c t) := by
  unfold pointPre pointPost bodyAt0
  simp only [found_0, found_1, found_2, found_3, found_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_run c Set.univ (grid0.coords t) _ _ _ _ _ _ _ _ _ _ _ _
    (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact point_run m c t

end Cert.KernelIdeal.Hand

end
-- ==== Proof.KI.Launch.lean ====
/-
  The launch of `KernelIdeal`'s region and its frame.

  When the region is entered the core holds every unscoped buffer whole. The state grid's buffer is cut
  into the three parts its three windows are lent (left half; left and right halves of the right half),
  the two narrowed weights and the result go to their windows whole, and the remaining four buffers (the two
  weight arguments and their transposes) bypass the region and are read back unchanged at the end.
-/
import proofs.«110376_j15324443312135_1_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays dealt to the windows -/

theorem share_0 (c : Dev nD) : (dats m 0 c).share 0 = fullShare.left := rfl
theorem share_1 (c : Dev nD) : (dats m 0 c).share 1 = fullShare.right.left := rfl
theorem share_2 (c : Dev nD) : (dats m 0 c).share 2 = fullShare.right.right := rfl
theorem share_3 (c : Dev nD) : (dats m 0 c).share 3 = fullShare := rfl
theorem share_4 (c : Dev nD) : (dats m 0 c).share 4 = fullShare := rfl
theorem share_5 (c : Dev nD) : (dats m 0 c).share 5 = fullShare := rfl

/-- The four buffers behind the six windows, each whole at its entry contents, make the windows' arrays: the
    state grid's in three parts of its share, the others whole. -/
theorem arrBufs_listed (c : Dev nD) :
    (Pipeline.arrBufs (Ix := Unit) (Name := ℕ) (U := UR sig nD τ) (Lvl := ℕ) spec0 c (atEntry m c) : sProp 𝕄)
      = iprop((((c : Thread nD τ).loc main_arg0) ↦{fullShare} atEntry m c main_arg0) ∗ (((c : Thread nD τ).loc main_v1) ↦{fullShare} atEntry m c main_v1)
          ∗ (((c : Thread nD τ).loc main_v3) ↦{fullShare} atEntry m c main_v3) ∗ (((c : Thread nD τ).loc main_v4) ↦{fullShare} atEntry m c main_v4)) := by
  unfold Pipeline.arrBufs
  exact Idealize.SL.BI.bigSep_eq_bigSepL_of_eq [main_arg0, main_v1, main_v3, main_v4] (by decide) (by decide) _

theorem arrays_listed (c : Dev nD) :
    ((dats m 0 c).arrays ((dats m 0 c).arrAt · 0) : sProp 𝕄)
      = iprop((((c : Thread nD τ).loc main_arg0) ↦{fullShare.left} atEntry m c main_arg0)
          ∗ (((c : Thread nD τ).loc main_arg0) ↦{fullShare.right.left} atEntry m c main_arg0)
          ∗ (((c : Thread nD τ).loc main_arg0) ↦{fullShare.right.right} atEntry m c main_arg0)
          ∗ (((c : Thread nD τ).loc main_v1) ↦{fullShare} atEntry m c main_v1)
          ∗ (((c : Thread nD τ).loc main_v3) ↦{fullShare} atEntry m c main_v3)
          ∗ (((c : Thread nD τ).loc main_v4) ↦{fullShare} atEntry m c main_v4)) := by
  unfold Dat.arrays
  rw [bigSep_W0, (arr_whole0 0).set_eq_univ, (arr_whole0 3).set_eq_univ, (arr_whole0 4).set_eq_univ, (arr_whole0 5).set_eq_univ,
    share_0, share_1, share_2, share_3, share_4, share_5]
  rfl

theorem lend_arrays (c : Dev nD) :
    (Pipeline.arrBufs (Ix := Unit) (Name := ℕ) (U := UR sig nD τ) (Lvl := ℕ) spec0 c (atEntry m c) : sProp 𝕄)
      ⊢ (dats m 0 c).arrays ((dats m 0 c).arrAt · 0) := by
  rw [arrBufs_listed, arrays_listed]
  iintro ⟨Hx, Hh, Ho, Hr⟩
  ihave Hx := ((pointsTo_share (PosShare.mem_left_op_right fullShare)).1) $$ Hx
  icases Hx with ⟨Hl, Hx⟩
  ihave Hx := ((pointsTo_share (PosShare.mem_left_op_right fullShare.right)).1) $$ Hx
  icases Hx with ⟨Hrl, Hrr⟩
  isplitl [Hl]; · iexact Hl
  isplitl [Hrl]; · iexact Hrl
  isplitl [Hrr]; · iexact Hrr
  isplitl [Hh]; · iexact Hh
  isplitl [Ho]; · iexact Ho
  iexact Hr

/-! ## The run -/

/-- The staging cells' launch element: each cell's owner at round 0, a duty token per transfer of the pipeline. -/
def launchElt : UR sig nD τ := initOf (Pipeline.cells cfgs cellOf_inj) (Pipeline.launchToks cfgs cellOf_inj)

set_option backward.isDefEq.respectTransparency.types false in
/-- From any memory with zero counters every weakly fair execution of @main ends, faulting nowhere, with every
    window's array at what the proof data compute (an input's: its entry contents; the result's: every tile
    written back) and every other unscoped buffer as the region found it. -/
theorem run_main : θ_run defs (onTc (τ := τ) (main (F := F))) (s₀ m ρ) (Pipeline.FramePost cfgs (dats m) 0 (atEntry m)) :=
  Pipeline.θ_run_region_noSem_shared cfgs (dats m) () cellOf_inj (0 : Fin 1) winFacts₀0
    (emb₁ : Emb (UR sig nD τ) (MT nD τ sig Unit (Elt F) ℕ (UR sig nD τ) ℕ)) defs₀ Variants.none m ρ main
    (hbody := fun c => (body_obligation m c).loose)
    (hne := block_pos0) (harr := arr_whole0) (hstage := stage_whole0)
    (howed := fun _ _ => rfl)
    (u₀ := launchElt) (hu₀ := BI.Entails.refl _)
    (V := atEntry m)
    (hmain := main_prefix m Variants.none)
    (hsplit := lend_arrays m)
    (X := fun _ => iprop(emp)) (Y := fun _ => iprop(emp))
    (Z := fun c => Pipeline.unscopedRest (Ix := Unit) (Name := ℕ) (U := UR sig nD τ) (Lvl := ℕ) spec0 c (atEntry m c))
    (hX := fun c => by iintro H; isplitr; · iempintro
                       iexact H)
    (hin := fun c => show iprop(emp ∗ Pipeline.scopedRest spec0 c) ⊢ Pipeline.scopedRest spec0 c from by iintro ⟨-, H⟩; iexact H)
    (hout := fun c => show Pipeline.scopedRest spec0 c ⊢ iprop(emp ∗ Pipeline.scopedRest spec0 c) from by
      iintro H; isplitr; · iempintro
      iexact H)
    (QY := fun c s => ∀ b ∈ Pipeline.restRefs sig spec0, s.mem ((c.tc : Thread nD τ).loc b) = atEntry m c b)
    (hY := fun c s' => by
      iintro ⟨-, HU, HSI⟩
      unfold Pipeline.unscopedRest
      imodintro
      iapply (pointsTo_read_all (Pipeline.restRefs sig spec0) (fun b => (c.tc : Thread nD τ).loc b) (atEntry m c) s')
      isplitl [HU] <;> iassumption)
    (hQ := fun s h c => ⟨(h c).1, (h c).2⟩)

/-! ## The frame -/

/-- @main runs to the end, faults nowhere, and leaves its three arguments as they were: the state grid is an input
    of three windows and never written; the two weights bypass the region; no host operation writes any of them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (atEntry_arg0 m c))),
      ((h c).2 main_arg1 (Pipeline.mem_restRefs_of main_arg1 (by decide) (by decide))).trans (atEntry_arg1 m c),
      ((h c).2 main_arg2 (Pipeline.mem_restRefs_of main_arg2 (by decide) (by decide))).trans (atEntry_arg2 m c)⟩) (run_main m ρ)

end Cert.KernelIdeal.Hand

end
-- ==== Proof.Spec.lean ====
/-
  What both programs compute, as one function of the three argument arrays over the extended reals.

  The state grid x has shape [16, 256, 256, 16] (image, row, column, channel); rows and columns wrap
  around. At a pixel (h, w) the two Sobel responses of a channel are

      sx = (x[h-1, w+1] - x[h-1, w-1]) + 2 (x[h, w+1] - x[h, w-1]) + (x[h+1, w+1] - x[h+1, w-1])
      sy = (x[h+1, w-1] - x[h-1, w-1]) + 2 (x[h+1, w] - x[h-1, w]) + (x[h+1, w+1] - x[h-1, w+1])

  and the pixel's 48 features are the 16 sx, the 16 sy and the 16 channels themselves. A hidden unit k is
  max (Σⱼ featureⱼ · W_hidden[k, j], 0) and output channel c is Σₖ hiddenₖ · W_out[c, k].
  Every difference, product and sum is the extended reals' own, grouped as written above: nothing is
  rearranged, so no finiteness is needed anywhere.
-/
import Idealize.ShloMosaic.PureOps.Ideal
import Idealize.ShloMosaic.Lib.ValueIdx

noncomputable section

namespace Cert.Spec

open Idealize.ShloMosaic Idealize.ShloMosaic.ValueIdx

abbrev SGrid : Shape := ⟨4, ![16, 256, 256, 16]⟩
abbrev SHidW : Shape := ⟨2, ![128, 48]⟩
abbrev SOutW : Shape := ⟨2, ![16, 128]⟩

/-- The neighbour before, around the circle of 256. -/
def prev (h : Fin 256) : Fin 256 := ⟨(h.val + 255) % 256, Nat.mod_lt _ (by decide)⟩
/-- The neighbour after, around the circle of 256. -/
def next (h : Fin 256) : Fin 256 := ⟨(h.val + 1) % 256, Nat.mod_lt _ (by decide)⟩

/-- The literal 2 of both programs, kept as its word. -/
abbrev two : EReal := Ideal.ofBits .f32 0x40000000#32

section
variable (x : SGrid.Idx → EReal) (wh : SHidW.Idx → EReal) (wo : SOutW.Idx → EReal)

/-- The horizontal Sobel response. -/
def sx (b : Fin 16) (h w : Fin 256) (c : Fin 16) : EReal :=
  (x (ix4 b (prev h) (next w) c) - x (ix4 b (prev h) (prev w) c))
    + two * (x (ix4 b h (next w) c) - x (ix4 b h (prev w) c))
    + (x (ix4 b (next h) (next w) c) - x (ix4 b (next h) (prev w) c))

/-- The vertical Sobel response. -/
def sy (b : Fin 16) (h w : Fin 256) (c : Fin 16) : EReal :=
  (x (ix4 b (next h) (prev w) c) - x (ix4 b (prev h) (prev w) c))
    + two * (x (ix4 b (next h) w c) - x (ix4 b (prev h) w c))
    + (x (ix4 b (next h) (next w) c) - x (ix4 b (prev h) (next w) c))

/-- A pixel's 48 features: sx, sy, then the channels. -/
def feature (b : Fin 16) (h w : Fin 256) (j : Fin 48) : EReal :=
  if h0 : j.val < 16 then sx x b h w ⟨j.val, h0⟩
  else if h1 : j.val < 32 then sy x b h w ⟨j.val - 16, by omega⟩
  else x (ix4 b h w (⟨j.val - 32, by omega⟩ : Fin 16))

/-- A hidden unit: the rectified product with a row of `W_hidden`. -/
def hidden (b : Fin 16) (h w : Fin 256) (k : Fin 128) : EReal :=
  max (∑ j : Fin 48, feature x b h w j * wh (ix2 k j)) (Ideal.ofBits .f32 0x00000000#32)

/-- An output channel: the product with a row of `W_out`. -/
def outAt (b : Fin 16) (h w : Fin 256) (c : Fin 16) : EReal :=
  ∑ k : Fin 128, hidden x wh b h w k * wo (ix2 c k)

/-- The result array. -/
def G : SGrid.Idx → EReal := fun i => outAt x wh wo (i 0) (i 1) (i 2) (i 3)

theorem G_apply (b : Fin 16) (h w : Fin 256) (c : Fin 16) : G x wh wo (ix4 b h w c) = outAt x wh wo b h w c := rfl

end

end Cert.Spec

end
-- ==== Proof.SpecTile.lean ====
/-
  The same function seen from one tile of the kernel's grid: a tile is 32 consecutive rows of one image with
  the row just above and the row just below it (around the circle), and the two weights transposed.
  From these alone the tile's 32 × 256 × 16 outputs are computed by the formulas of `Spec.lean`; where the
  tile, its two halo rows and the transposed weights are read off the whole arrays, the result is the
  whole-array function `G` on the tile's rows.
-/
import proofs.«110376_j15324443312135_1_alg».proof.Proof.Spec

noncomputable section

namespace Cert.Spec

open Idealize.ShloMosaic Idealize.ShloMosaic.ValueIdx

abbrev STile : Shape := ⟨4, ![1, 32, 256, 16]⟩
abbrev SHalo : Shape := ⟨4, ![1, 1, 256, 16]⟩
abbrev SHidWT : Shape := ⟨2, ![48, 128]⟩
abbrev SOutWT : Shape := ⟨2, ![128, 16]⟩

section
variable (t : STile.Idx → EReal) (a z : SHalo.Idx → EReal) (wht : SHidWT.Idx → EReal) (wot : SOutWT.Idx → EReal)

/-- The row above row `i` of the tile: the upper halo row for the first, else the tile's own. -/
def rowUp (i : Fin 32) (w : Fin 256) (c : Fin 16) : EReal :=
  if h : i.val = 0 then a (ix4 (0 : Fin 1) (0 : Fin 1) w c) else t (ix4 (0 : Fin 1) (⟨i.val - 1, by omega⟩ : Fin 32) w c)

/-- The row below row `i` of the tile: the lower halo row for the last, else the tile's own. -/
def rowDn (i : Fin 32) (w : Fin 256) (c : Fin 16) : EReal :=
  if h : i.val = 31 then z (ix4 (0 : Fin 1) (0 : Fin 1) w c) else t (ix4 (0 : Fin 1) (⟨i.val + 1, by omega⟩ : Fin 32) w c)

def tileSx (i : Fin 32) (w : Fin 256) (c : Fin 16) : EReal :=
  (rowUp t a i (next w) c - rowUp t a i (prev w) c)
    + two * (t (ix4 (0 : Fin 1) i (next w) c) - t (ix4 (0 : Fin 1) i (prev w) c))
    + (rowDn t z i (next w) c - rowDn t z i (prev w) c)

def tileSy (i : Fin 32) (w : Fin 256) (c : Fin 16) : EReal :=
  (rowDn t z i (prev w) c - rowUp t a i (prev w) c)
    + two * (rowDn t z i w c - rowUp t a i w c)
    + (rowDn t z i (next w) c - rowUp t a i (next w) c)

def tileFeature (i : Fin 32) (w : Fin 256) (j : Fin 48) : EReal :=
  if h0 : j.val < 16 then tileSx t a z i w ⟨j.val, h0⟩
  else if h1 : j.val < 32 then tileSy t a z i w ⟨j.val - 16, by omega⟩
  else t (ix4 (0 : Fin 1) i w (⟨j.val - 32, by omega⟩ : Fin 16))

def tileHidden (i : Fin 32) (w : Fin 256) (k : Fin 128) : EReal :=
  max (∑ j : Fin 48, tileFeature t a z i w j * wht (ix2 j k)) (Ideal.ofBits .f32 0x00000000#32)

def tileOutAt (i : Fin 32) (w : Fin 256) (c : Fin 16) : EReal :=
  ∑ k : Fin 128, tileHidden t a z wht i w k * wot (ix2 k c)

end

/-- Row `i` of tile `hb` as a row of the image. -/
def tileRow (hb : Fin 8) (i : Fin 32) : Fin 256 := ⟨hb.val * 32 + i.val, by omega⟩

/-- Inside a tile the row above row `i ≥ 1` is the tile's row `i - 1`: no wrap occurs, since
`hb * 32 + i ≥ 1` and `hb * 32 + i + 255 = (hb * 32 + i - 1) + 256`. -/
private theorem prev_tileRow (hb : Fin 8) (i : Fin 32) (h : ¬ i.val = 0) :
    prev (tileRow hb i) = tileRow hb (⟨i.val - 1, by omega⟩ : Fin 32) := by
  apply Fin.ext
  simp only [prev, tileRow]
  omega

/-- Inside a tile the row below row `i ≤ 30` is the tile's row `i + 1`: `hb * 32 + i + 1 < 256`. -/
private theorem next_tileRow (hb : Fin 8) (i : Fin 32) (h : ¬ i.val = 31) :
    next (tileRow hb i) = tileRow hb (⟨i.val + 1, by omega⟩ : Fin 32) := by
  apply Fin.ext
  simp only [next, tileRow]
  omega

section
variable (x : SGrid.Idx → EReal) (t : STile.Idx → EReal) (a z : SHalo.Idx → EReal) (b : Fin 16) (hb : Fin 8)

/-- The row above row `i` of the tile is the image's row `prev (tileRow hb i)`: for `i = 0` this is what the
upper halo row holds, otherwise it is the tile's row `i - 1`. -/
private theorem rowUp_eq
    (ht : ∀ (i : Fin 32) (w : Fin 256) (c : Fin 16), t (ix4 (0 : Fin 1) i w c) = x (ix4 b (tileRow hb i) w c))
    (ha : ∀ (w : Fin 256) (c : Fin 16), a (ix4 (0 : Fin 1) (0 : Fin 1) w c) = x (ix4 b (prev (tileRow hb 0)) w c))
    (i : Fin 32) (w : Fin 256) (c : Fin 16) :
    rowUp t a i w c = x (ix4 b (prev (tileRow hb i)) w c) := by
  unfold rowUp
  by_cases h : i.val = 0
  · have hi : i = 0 := Fin.ext h
    subst hi
    rw [dif_pos h]
    exact ha w c
  · rw [dif_neg h, ht, prev_tileRow hb i h]

/-- The row below row `i` of the tile is the image's row `next (tileRow hb i)`: for `i = 31` this is what the
lower halo row holds, otherwise it is the tile's row `i + 1`. -/
private theorem rowDn_eq
    (ht : ∀ (i : Fin 32) (w : Fin 256) (c : Fin 16), t (ix4 (0 : Fin 1) i w c) = x (ix4 b (tileRow hb i) w c))
    (hz : ∀ (w : Fin 256) (c : Fin 16), z (ix4 (0 : Fin 1) (0 : Fin 1) w c) = x (ix4 b (next (tileRow hb 31)) w c))
    (i : Fin 32) (w : Fin 256) (c : Fin 16) :
    rowDn t z i w c = x (ix4 b (next (tileRow hb i)) w c) := by
  unfold rowDn
  by_cases h : i.val = 31
  · have hi : i = 31 := Fin.ext h
    subst hi
    rw [dif_pos h]
    exact hz w c
  · rw [dif_neg h, ht, next_tileRow hb i h]

end

/-- A tile read off the whole arrays computes `G` on its rows. -/
theorem tileOutAt_eq (x : SGrid.Idx → EReal) (wh : SHidW.Idx → EReal) (wo : SOutW.Idx → EReal)
    (t : STile.Idx → EReal) (a z : SHalo.Idx → EReal) (wht : SHidWT.Idx → EReal) (wot : SOutWT.Idx → EReal)
    (b : Fin 16) (hb : Fin 8)
    (ht : ∀ (i : Fin 32) (w : Fin 256) (c : Fin 16), t (ix4 (0 : Fin 1) i w c) = x (ix4 b (tileRow hb i) w c))
    (ha : ∀ (w : Fin 256) (c : Fin 16), a (ix4 (0 : Fin 1) (0 : Fin 1) w c) = x (ix4 b (prev (tileRow hb 0)) w c))
    (hz : ∀ (w : Fin 256) (c : Fin 16), z (ix4 (0 : Fin 1) (0 : Fin 1) w c) = x (ix4 b (next (tileRow hb 31)) w c))
    (hwh : ∀ (j : Fin 48) (k : Fin 128), wht (ix2 j k) = wh (ix2 k j))
    (hwo : ∀ (k : Fin 128) (c : Fin 16), wot (ix2 k c) = wo (ix2 c k))
    (i : Fin 32) (w : Fin 256) (c : Fin 16) :
    tileOutAt t a z wht wot i w c = G x wh wo (ix4 b (tileRow hb i) w c) := by
  -- the three rows a pixel of the tile looks at are the image's rows prev h, h, next h with h = tileRow hb i
  have hup : ∀ (w : Fin 256) (c : Fin 16), rowUp t a i w c = x (ix4 b (prev (tileRow hb i)) w c) :=
    rowUp_eq x t a b hb ht ha i
  have hdn : ∀ (w : Fin 256) (c : Fin 16), rowDn t z i w c = x (ix4 b (next (tileRow hb i)) w c) :=
    rowDn_eq x t z b hb ht hz i
  -- hence the two Sobel responses agree, each difference being the same difference of entries of x
  have hsx : ∀ (c : Fin 16), tileSx t a z i w c = sx x b (tileRow hb i) w c := by
    intro c
    unfold tileSx sx
    rw [hup, hup, hdn, hdn, ht, ht]
  have hsy : ∀ (c : Fin 16), tileSy t a z i w c = sy x b (tileRow hb i) w c := by
    intro c
    unfold tileSy sy
    rw [hdn, hdn, hdn, hup, hup, hup]
  -- so do the 48 features, by the same three cases on j
  have hfeat : ∀ (j : Fin 48), tileFeature t a z i w j = feature x b (tileRow hb i) w j := by
    intro j
    unfold tileFeature feature
    by_cases h0 : j.val < 16
    · rw [dif_pos h0, dif_pos h0, hsx]
    · rw [dif_neg h0, dif_neg h0]
      by_cases h1 : j.val < 32
      · rw [dif_pos h1, dif_pos h1, hsy]
      · rw [dif_neg h1, dif_neg h1, ht]
  -- the hidden units: the same sum term by term, the transposed weight read at (j, k) being the weight at (k, j)
  have hhid : ∀ (k : Fin 128), tileHidden t a z wht i w k = hidden x wh b (tileRow hb i) w k := by
    intro k
    unfold tileHidden hidden
    congr 1
    refine Finset.sum_congr rfl fun j _ => ?_
    rw [hfeat, hwh]
  -- the output: again the same sum term by term
  rw [G_apply]
  unfold tileOutAt outAt
  refine Finset.sum_congr rfl fun k _ => ?_
  rw [hhid, hwo]

end Cert.Spec

end
-- ==== Proof.KI.Tile.lean ====
/-
  The kernel's output tile read at an index. The body's one store holds, at row i, column w, channel c of
  the tile, the product of the rectified hidden units with column c of the narrowed output weight; a hidden
  unit is the rectified product of the pixel's 48 features with a column of the narrowed hidden weight; the
  features are the two Sobel responses, made of the tile's rows shifted by one (the halo rows standing in at
  the tile's first and last row) and rotated by one column either way, and the tile's own channels.
-/
import proofs.«110376_j15324443312135_1_alg».proof.Proof.KI.Body
import proofs.«110376_j15324443312135_1_alg».proof.Proof.SpecTile
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- Row `i`, column `w` of the tile as a row of the 8192-row matrix the two products work on. -/
private def rowOf (i : Fin 32) (w : Fin 256) : Fin 8192 := ⟨i.val * 256 + w.val, by omega⟩

/-! ## The two products at an index -/

private theorem lhs_hid_0 (i : S8192x128.Idx) (q : dot_S8192x48_S48x128_S8192x128_1_0_0_1_n_n.contr.Idx) :
    (dot_S8192x48_S48x128_S8192x128_1_0_0_1_n_n.lhsIdx i q 0).val = (i 0).val := by
  unfold DotDims.lhsIdx
  rw [dif_neg (show ¬(0 : Fin S8192x48.rank) ∈ dot_S8192x48_S48x128_S8192x128_1_0_0_1_n_n.lhsBatch by decide), dif_pos (show (0 : Fin S8192x48.rank) ∈ dot_S8192x48_S48x128_S8192x128_1_0_0_1_n_n.lhsNonContracting by decide)]
  rfl
private theorem lhs_hid_1 (i : S8192x128.Idx) (q : dot_S8192x48_S48x128_S8192x128_1_0_0_1_n_n.contr.Idx) :
    (dot_S8192x48_S48x128_S8192x128_1_0_0_1_n_n.lhsIdx i q 1).val = (q ⟨0, by decide⟩).val :=
  dot_S8192x48_S48x128_S8192x128_1_0_0_1_n_n.lhsIdx_val_of_single rfl i q
private theorem rhs_hid_0 (i : S8192x128.Idx) (q : dot_S8192x48_S48x128_S8192x128_1_0_0_1_n_n.contr.Idx) :
    (dot_S8192x48_S48x128_S8192x128_1_0_0_1_n_n.rhsIdx i q 0).val = (q ⟨0, by decide⟩).val :=
  dot_S8192x48_S48x128_S8192x128_1_0_0_1_n_n.rhsIdx_val_of_single rfl i q
private theorem rhs_hid_1 (i : S8192x128.Idx) (q : dot_S8192x48_S48x128_S8192x128_1_0_0_1_n_n.contr.Idx) :
    (dot_S8192x48_S48x128_S8192x128_1_0_0_1_n_n.rhsIdx i q 1).val = (i 1).val := by
  unfold DotDims.rhsIdx
  rw [dif_neg (show ¬(1 : Fin S48x128.rank) ∈ dot_S8192x48_S48x128_S8192x128_1_0_0_1_n_n.rhsBatch by decide), dif_pos (show (1 : Fin S48x128.rank) ∈ dot_S8192x48_S48x128_S8192x128_1_0_0_1_n_n.rhsNonContracting by decide)]
  rfl

/-- The first product into the zero block: row `r`, column `k` is the sum over the 48 features. -/
private theorem matmul_hid_apply (A : FVec Ideal S8192x48 .bf16) (B : FVec Ideal S48x128 .bf16) (r : Fin 8192) (k : Fin 128) :
    matmul dot_S8192x48_S48x128_S8192x128_1_0_0_1_n_n none A B (constant S8192x128 .f32 0x00000000#32) (ix2 r k)
      = ∑ j : Fin 48, A (ix2 r j) * B (ix2 j k) := by
  simp only [matmul]
  rw [Ideal.matmul_constant_zero_apply, ← Equiv.sum_comp (contrEquiv1 dot_S8192x48_S48x128_S8192x128_1_0_0_1_n_n 48 rfl rfl).symm]
  refine Finset.sum_congr rfl fun j _ => ?_
  have hk := contrEquiv1_symm_val dot_S8192x48_S48x128_S8192x128_1_0_0_1_n_n 48 rfl rfl j
  have el : dot_S8192x48_S48x128_S8192x128_1_0_0_1_n_n.lhsIdx (ix2 r k) ((contrEquiv1 dot_S8192x48_S48x128_S8192x128_1_0_0_1_n_n 48 rfl rfl).symm j) = ix2 r j := funext fun a => Fin.ext (by
    match a with
    | ⟨0, _⟩ => exact lhs_hid_0 _ _
    | ⟨1, _⟩ => exact (lhs_hid_1 _ _).trans hk)
  have er : dot_S8192x48_S48x128_S8192x128_1_0_0_1_n_n.rhsIdx (ix2 r k) ((contrEquiv1 dot_S8192x48_S48x128_S8192x128_1_0_0_1_n_n 48 rfl rfl).symm j) = ix2 j k := funext fun a => Fin.ext (by
    match a with
    | ⟨0, _⟩ => exact (rhs_hid_0 _ _).trans hk
    | ⟨1, _⟩ => exact rhs_hid_1 _ _)
  rw [el, er]

private theorem lhs_out_0 (i : S8192x16.Idx) (q : dot_S8192x128_S128x16_S8192x16_1_0_0_1_n_n.contr.Idx) :
    (dot_S8192x128_S128x16_S8192x16_1_0_0_1_n_n.lhsIdx i q 0).val = (i 0).val := by
  unfold DotDims.lhsIdx
  rw [dif_neg (show ¬(0 : Fin S8192x128.rank) ∈ dot_S8192x128_S128x16_S8192x16_1_0_0_1_n_n.lhsBatch by decide), dif_pos (show (0 : Fin S8192x128.rank) ∈ dot_S8192x128_S128x16_S8192x16_1_0_0_1_n_n.lhsNonContracting by decide)]
  rfl
private theorem lhs_out_1 (i : S8192x16.Idx) (q : dot_S8192x128_S128x16_S8192x16_1_0_0_1_n_n.contr.Idx) :
    (dot_S8192x128_S128x16_S8192x16_1_0_0_1_n_n.lhsIdx i q 1).val = (q ⟨0, by decide⟩).val :=
  dot_S8192x128_S128x16_S8192x16_1_0_0_1_n_n.lhsIdx_val_of_single rfl i q
private theorem rhs_out_0 (i : S8192x16.Idx) (q : dot_S8192x128_S128x16_S8192x16_1_0_0_1_n_n.contr.Idx) :
    (dot_S8192x128_S128x16_S8192x16_1_0_0_1_n_n.rhsIdx i q 0).val = (q ⟨0, by decide⟩).val :=
  dot_S8192x128_S128x16_S8192x16_1_0_0_1_n_n.rhsIdx_val_of_single rfl i q
private theorem rhs_out_1 (i : S8192x16.Idx) (q : dot_S8192x128_S128x16_S8192x16_1_0_0_1_n_n.contr.Idx) :
    (dot_S8192x128_S128x16_S8192x16_1_0_0_1_n_n.rhsIdx i q 1).val = (i 1).val := by
  unfold DotDims.rhsIdx
  rw [dif_neg (show ¬(1 : Fin S128x16.rank) ∈ dot_S8192x128_S128x16_S8192x16_1_0_0_1_n_n.rhsBatch by decide), dif_pos (show (1 : Fin S128x16.rank) ∈ dot_S8192x128_S128x16_S8192x16_1_0_0_1_n_n.rhsNonContracting by decide)]
  rfl

/-- The second product into the zero block: row `r`, column `c` is the sum over the 128 hidden units. -/
private theorem matmul_out_apply (A : FVec Ideal S8192x128 .bf16) (B : FVec Ideal S128x16 .bf16) (r : Fin 8192) (c : Fin 16) :
    matmul dot_S8192x128_S128x16_S8192x16_1_0_0_1_n_n none A B (constant S8192x16 .f32 0x00000000#32) (ix2 r c)
      = ∑ k : Fin 128, A (ix2 r k) * B (ix2 k c) := by
  simp only [matmul]
  rw [Ideal.matmul_constant_zero_apply, ← Equiv.sum_comp (contrEquiv1 dot_S8192x128_S128x16_S8192x16_1_0_0_1_n_n 128 rfl rfl).symm]
  refine Finset.sum_congr rfl fun k _ => ?_
  have hk := contrEquiv1_symm_val dot_S8192x128_S128x16_S8192x16_1_0_0_1_n_n 128 rfl rfl k
  have el : dot_S8192x128_S128x16_S8192x16_1_0_0_1_n_n.lhsIdx (ix2 r c) ((contrEquiv1 dot_S8192x128_S128x16_S8192x16_1_0_0_1_n_n 128 rfl rfl).symm k) = ix2 r k := funext fun a => Fin.ext (by
    match a with
    | ⟨0, _⟩ => exact lhs_out_0 _ _
    | ⟨1, _⟩ => exact (lhs_out_1 _ _).trans hk)
  have er : dot_S8192x128_S128x16_S8192x16_1_0_0_1_n_n.rhsIdx (ix2 r c) ((contrEquiv1 dot_S8192x128_S128x16_S8192x16_1_0_0_1_n_n 128 rfl rfl).symm k) = ix2 k c := funext fun a => Fin.ext (by
    match a with
    | ⟨0, _⟩ => exact (rhs_out_0 _ _).trans hk
    | ⟨1, _⟩ => exact rhs_out_1 _ _)
  rw [el, er]

/-! ## The store's payload at an index, from the feature matrix and the two weights -/

private theorem pay1_apply (A : FVec Ideal S8192x48 .bf16) (B : FVec Ideal S48x128 .bf16) (C : Vec Ideal S128x16 .bf16)
    (i : Fin 32) (w : Fin 256) (c : Fin 16) :
    k0_pay1 A B (constant S8192x128 .f32 0x00000000#32) C (ix4 (0 : Fin 1) i w c)
      = ∑ k : Fin 128, max (∑ j : Fin 48, A (ix2 (rowOf i w) j) * B (ix2 j k)) (Ideal.ofBits .f32 0x00000000#32) * C (ix2 k c) := by
  unfold k0_pay1
  refine (shapeCast_abc_1abc_apply _ _ (0 : Fin 1) i w c).trans ?_
  refine (shapeCast_apply _ _ (ix3 i w c) (ix2 (rowOf i w) c) ?_).trans ?_
  · rw [Shape.rowMajor_val_two, Shape.rowMajor_val_three]; rfl
  refine (matmul_out_apply _ _ (rowOf i w) c).trans ?_
  refine Finset.sum_congr rfl fun k _ => ?_
  rw [shapeCast_self]
  show max (matmul dot_S8192x48_S48x128_S8192x128_1_0_0_1_n_n none A B (constant S8192x128 .f32 0x00000000#32) (ix2 (rowOf i w) k)) (Ideal.ofBits .f32 0x00000000#32) * C (ix2 k c) = _
  rw [matmul_hid_apply]

/-! ## The feature matrix: the tile, the rows above and below it, the Sobel responses -/

section Features
variable (x0 : Vec Ideal S1x32x256x16 .f32) (x1 x2 : Vec Ideal S1x1x256x16 .f32)

/-- The tile without its leading unit axis. -/
private def tile3 : FVec Ideal S32x256x16 .f32 := shapeCast S32x256x16 x0 shapeCasts_S1x32x256x16_S32x256x16

/-- The upper halo row on top of the tile's rows 0 … 30: entry `i` is the row above row `i`. -/
private def up3 : FVec Ideal S32x256x16 .f32 :=
  concatenate S32x256x16 0 [⟨S1x256x16, shapeCast S1x256x16 x1 shapeCasts_S1x1x256x16_S1x256x16⟩,
    ⟨S31x256x16, extractStridedSlice S31x256x16 ![0, 0, 0] (tile3 x0) slices_S32x256x16_o0_0_0_S31x256x16⟩]
    concatenates_S1x256x16_S31x256x16_S32x256x16_d0

/-- The tile's rows 1 … 31 on top of the lower halo row: entry `i` is the row below row `i`. -/
private def dn3 : FVec Ideal S32x256x16 .f32 :=
  concatenate S32x256x16 0 [⟨S31x256x16, extractStridedSlice S31x256x16 ![1, 0, 0] (tile3 x0) slices_S32x256x16_o1_0_0_S31x256x16⟩,
    ⟨S1x256x16, shapeCast S1x256x16 x2 shapeCasts_S1x1x256x16_S1x256x16⟩]
    concatenates_S31x256x16_S1x256x16_S32x256x16_d0

private theorem tile3_apply (i : Fin 32) (w : Fin 256) (c : Fin 16) : tile3 x0 (ix3 i w c) = x0 (ix4 (0 : Fin 1) i w c) :=
  shapeCast_1abc_abc_apply _ _ i w c

private theorem up3_apply (i : Fin 32) (w : Fin 256) (c : Fin 16) : up3 x0 x1 (ix3 i w c) = Cert.Spec.rowUp x0 x1 i w c := by
  unfold up3 Cert.Spec.rowUp
  by_cases h : i.val = 0
  · rw [dif_pos h]
    refine (concatenate_pair_apply_left (t := S32x256x16) (s₁ := S1x256x16) (s₂ := S31x256x16) (0 : Fin S32x256x16.rank) _ _ _ (ix3 i w c) rfl (ix3 (0 : Fin 1) w c) fun b => ?_).trans ?_
    · match b with
      | ⟨0, _⟩ => exact h.symm
      | ⟨1, _⟩ => rfl
      | ⟨2, _⟩ => rfl
    · exact shapeCast_1abc_abc_apply _ _ (0 : Fin 1) w c
  · rw [dif_neg h]
    refine (concatenate_pair_apply_right (t := S32x256x16) (s₁ := S1x256x16) (s₂ := S31x256x16) (0 : Fin S32x256x16.rank) _ _ _ (ix3 i w c) rfl rfl
      (ix3 (⟨i.val - 1, by omega⟩ : Fin 31) w c) (fun b hb => ?_) ?_).trans ?_
    · match b with
      | ⟨0, _⟩ => exact absurd rfl hb
      | ⟨1, _⟩ => rfl
      | ⟨2, _⟩ => rfl
    · show i.val - 1 + 1 = i.val
      omega
    · refine (extractStridedSlice_apply _ _ _ _ (ix3 (⟨i.val - 1, by omega⟩ : Fin 32) w c) fun a => ?_).trans (tile3_apply x0 _ w c)
      match a with
      | ⟨0, _⟩ => exact (Nat.zero_add _).symm
      | ⟨1, _⟩ => exact (Nat.zero_add _).symm
      | ⟨2, _⟩ => exact (Nat.zero_add _).symm

private theorem dn3_apply (i : Fin 32) (w : Fin 256) (c : Fin 16) : dn3 x0 x2 (ix3 i w c) = Cert.Spec.rowDn x0 x2 i w c := by
  unfold dn3 Cert.Spec.rowDn
  by_cases h : i.val = 31
  · rw [dif_pos h]
    refine (concatenate_pair_apply_right (t := S32x256x16) (s₁ := S31x256x16) (s₂ := S1x256x16) (0 : Fin S32x256x16.rank) _ _ _ (ix3 i w c) rfl rfl
      (ix3 (0 : Fin 1) w c) (fun b hb => ?_) ?_).trans ?_
    · match b with
      | ⟨0, _⟩ => exact absurd rfl hb
      | ⟨1, _⟩ => rfl
      | ⟨2, _⟩ => rfl
    · show 0 + 31 = i.val
      omega
    · exact shapeCast_1abc_abc_apply _ _ (0 : Fin 1) w c
  · rw [dif_neg h]
    have hi : i.val < 31 := by omega
    refine (concatenate_pair_apply_left (t := S32x256x16) (s₁ := S31x256x16) (s₂ := S1x256x16) (0 : Fin S32x256x16.rank) _ _ _ (ix3 i w c) rfl (ix3 (⟨i.val, hi⟩ : Fin 31) w c) fun b => ?_).trans ?_
    · match b with
      | ⟨0, _⟩ => rfl
      | ⟨1, _⟩ => rfl
      | ⟨2, _⟩ => rfl
    · refine (extractStridedSlice_apply _ _ _ _ (ix3 (⟨i.val + 1, by omega⟩ : Fin 32) w c) fun a => ?_).trans (tile3_apply x0 _ w c)
      match a with
      | ⟨0, _⟩ => exact Nat.add_comm _ _
      | ⟨1, _⟩ => exact (Nat.zero_add _).symm
      | ⟨2, _⟩ => exact (Nat.zero_add _).symm

end Features

/-! ## The rotations along the 256 columns -/

/-- A rotation by one reads the column before, around the circle. -/
private theorem rot1_apply (x : FVec Ideal S32x256x16 .f32) (i : Fin 32) (w : Fin 256) (c : Fin 16) :
    dynamicRotate 1 1#32 none x rotates_S32x256x16_d1 (ix3 i w c) = x (ix3 i (Cert.Spec.prev w) c) := by
  refine dynamicRotate_apply _ _ _ _ _ _ fun b => ?_
  match b with
  | ⟨0, _⟩ => rfl
  | ⟨1, _⟩ =>
    show (w.val + 255) % 256 = (w.val + 256 - 1 % 256) % 256
    omega
  | ⟨2, _⟩ => rfl

/-- A rotation by 255 reads the column after, around the circle. -/
private theorem rot255_apply (x : FVec Ideal S32x256x16 .f32) (i : Fin 32) (w : Fin 256) (c : Fin 16) :
    dynamicRotate 1 255#32 none x rotates_S32x256x16_d1 (ix3 i w c) = x (ix3 i (Cert.Spec.next w) c) := by
  refine dynamicRotate_apply _ _ _ _ _ _ fun b => ?_
  match b with
  | ⟨0, _⟩ => rfl
  | ⟨1, _⟩ =>
    show (w.val + 1) % 256 = (w.val + 256 - 255 % 256) % 256
    omega
  | ⟨2, _⟩ => rfl

/-! ## The two Sobel responses and the feature matrix -/

section Sobel
variable (x0 : Vec Ideal S1x32x256x16 .f32) (x1 x2 : Vec Ideal S1x1x256x16 .f32)

/-- The horizontal response: the column after less the column before, of the row above, twice the row itself,
    and the row below. -/
private def sx3 : FVec Ideal S32x256x16 .f32 :=
  addf (addf (subf (dynamicRotate 1 255#32 none (up3 x0 x1) rotates_S32x256x16_d1) (dynamicRotate 1 1#32 none (up3 x0 x1) rotates_S32x256x16_d1))
      (mulf (broadcast S32x256x16 (Scalar.ofBits .f32 0x40000000#32 : Ideal .f32))
        (subf (dynamicRotate 1 255#32 none (tile3 x0) rotates_S32x256x16_d1) (dynamicRotate 1 1#32 none (tile3 x0) rotates_S32x256x16_d1))))
    (subf (dynamicRotate 1 255#32 none (dn3 x0 x2) rotates_S32x256x16_d1) (dynamicRotate 1 1#32 none (dn3 x0 x2) rotates_S32x256x16_d1))

/-- The vertical response: the row below less the row above, at the column before, twice the column itself,
    and the column after. -/
private def sy3 : FVec Ideal S32x256x16 .f32 :=
  addf (addf (subf (dynamicRotate 1 1#32 none (dn3 x0 x2) rotates_S32x256x16_d1) (dynamicRotate 1 1#32 none (up3 x0 x1) rotates_S32x256x16_d1))
      (mulf (broadcast S32x256x16 (Scalar.ofBits .f32 0x40000000#32 : Ideal .f32)) (subf (dn3 x0 x2) (up3 x0 x1))))
    (subf (dynamicRotate 1 255#32 none (dn3 x0 x2) rotates_S32x256x16_d1) (dynamicRotate 1 255#32 none (up3 x0 x1) rotates_S32x256x16_d1))

/-- The body's feature matrix is the three 16-channel groups side by side, flattened to 8192 rows. -/
private theorem pay2_eq : k0_pay2 x0 x1 x2 = truncf .bf16 (shapeCast S8192x48
    (concatenate S32x256x48 2 [⟨S32x256x16, sx3 x0 x1 x2⟩, ⟨S32x256x16, sy3 x0 x1 x2⟩, ⟨S32x256x16, tile3 x0⟩]
      concatenates_S32x256x16_S32x256x16_S32x256x16_S32x256x48_d2) shapeCasts_S32x256x48_S8192x48) bitsLt_bf16_f32 := rfl

private theorem sx3_apply (i : Fin 32) (w : Fin 256) (c : Fin 16) : sx3 x0 x1 x2 (ix3 i w c) = Cert.Spec.tileSx x0 x1 x2 i w c := by
  unfold sx3 Cert.Spec.tileSx
  simp only [addf_apply, subf_apply, mulf_apply, broadcast_apply]
  rw [rot1_apply, rot1_apply, rot1_apply, rot255_apply, rot255_apply, rot255_apply]
  simp only [up3_apply, dn3_apply, tile3_apply]
  rfl

private theorem sy3_apply (i : Fin 32) (w : Fin 256) (c : Fin 16) : sy3 x0 x1 x2 (ix3 i w c) = Cert.Spec.tileSy x0 x1 x2 i w c := by
  unfold sy3 Cert.Spec.tileSy
  simp only [addf_apply, subf_apply, mulf_apply, broadcast_apply]
  rw [rot1_apply, rot1_apply, rot255_apply, rot255_apply]
  simp only [up3_apply, dn3_apply]
  rfl

/-- The feature matrix at row `i * 256 + w`, column `j` is feature `j` of the pixel. -/
private theorem pay2_apply (i : Fin 32) (w : Fin 256) (j : Fin 48) :
    k0_pay2 x0 x1 x2 (ix2 (rowOf i w) j) = Cert.Spec.tileFeature x0 x1 x2 i w j := by
  rw [pay2_eq]
  refine (truncf_apply (ψ := .bf16) _ bitsLt_bf16_f32 _).trans ?_
  refine (shapeCast_apply _ _ (ix2 (rowOf i w) j) (ix3 i w j) ?_).trans ?_
  · rw [Shape.rowMajor_val_three, Shape.rowMajor_val_two]; rfl
  unfold Cert.Spec.tileFeature
  by_cases h0 : j.val < 16
  · rw [dif_pos h0]
    refine (concatenate_apply_piece (t := S32x256x48) (2 : Fin S32x256x48.rank) _ _ (ix3 i w j) 0 (by show (0 : Nat) < 3; decide) S32x256x16 (sx3 x0 x1 x2) rfl rfl 0 rfl
      (ix3 i w (⟨j.val, h0⟩ : Fin 16)) (fun b hb => ?_) ?_).trans (sx3_apply x0 x1 x2 i w _)
    · match b with
      | ⟨0, _⟩ => rfl
      | ⟨1, _⟩ => rfl
      | ⟨2, _⟩ => exact absurd rfl hb
    · exact Nat.zero_add _
  · rw [dif_neg h0]
    by_cases h1 : j.val < 32
    · rw [dif_pos h1]
      refine (concatenate_apply_piece (t := S32x256x48) (2 : Fin S32x256x48.rank) _ _ (ix3 i w j) 1 (by show (1 : Nat) < 3; decide) S32x256x16 (sy3 x0 x1 x2) rfl rfl 16 rfl
        (ix3 i w (⟨j.val - 16, by omega⟩ : Fin 16)) (fun b hb => ?_) ?_).trans (sy3_apply x0 x1 x2 i w _)
      · match b with
        | ⟨0, _⟩ => rfl
        | ⟨1, _⟩ => rfl
        | ⟨2, _⟩ => exact absurd rfl hb
      · show 16 + (j.val - 16) = j.val
        omega
    · rw [dif_neg h1]
      have hj := j.isLt
      refine (concatenate_apply_piece (t := S32x256x48) (2 : Fin S32x256x48.rank) _ _ (ix3 i w j) 2 (by show (2 : Nat) < 3; decide) S32x256x16 (tile3 x0) rfl rfl 32 rfl
        (ix3 i w (⟨j.val - 32, by omega⟩ : Fin 16)) (fun b hb => ?_) ?_).trans (tile3_apply x0 i w _)
      · match b with
        | ⟨0, _⟩ => rfl
        | ⟨1, _⟩ => rfl
        | ⟨2, _⟩ => exact absurd rfl hb
      · show 32 + (j.val - 32) = j.val
        omega

end Sobel

/-- The hidden weight's shape cast is to its own shape. -/
private theorem pay3_eq (x3 : Vec Ideal S48x128 .bf16) : k0_pay3 x3 = x3 := shapeCast_self _ _

/-- The output tile at an index, over the extended reals, is the tile-level function of `SpecTile.lean` of the
    five input blocks. -/
theorem tileOut_apply (x0 : Vec Ideal S1x32x256x16 .f32) (x1 x2 : Vec Ideal S1x1x256x16 .f32)
    (x3 : Vec Ideal S48x128 .bf16) (x4 : Vec Ideal S128x16 .bf16) (i : Fin 32) (w : Fin 256) (c : Fin 16) :
    tileOut (F := Ideal) x0 x1 x2 x3 x4 (ix4 (0 : Fin 1) i w c) = Cert.Spec.tileOutAt x0 x1 x2 x3 x4 i w c := by
  have hz4 : (![0, 0, 0, 0] : Fin 4 → Nat) = fun _ => 0 := by funext a; fin_cases a <;> rfl
  have hz2 : (![0, 0] : Fin 2 → Nat) = fun _ => 0 := by funext a; fin_cases a <;> rfl
  unfold tileOut
  rw [View.canon_unit_zero hz4]
  simp only [View.ld_unit_zero (S := S1x32x256x16) hz4, View.ld_unit_zero (S := S1x1x256x16) hz4,
    View.ld_unit_zero (S := S48x128) hz2, View.ld_unit_zero (S := S128x16) hz2]
  rw [pay1_apply, pay3_eq]
  unfold Cert.Spec.tileOutAt Cert.Spec.tileHidden
  refine Finset.sum_congr rfl fun k _ => ?_
  congr 2
  exact Finset.sum_congr rfl fun j _ => by rw [pay2_apply]

end Cert.KernelIdeal.Hand

end
-- ==== Proof.KI.Blocks.lean ====
/-
  The five input blocks of a grid point read at an index, over the extended reals. Point t is image b = t / 8,
  tile hb = t % 8. The first window's block is rows 32·hb … 32·hb + 31 of image b; the second's is the one
  row before them and the third's the one row after them, around the circle of 256 rows (the index maps
  choose row 255 before tile 0 and row 0 after tile 7); the fourth and fifth are the whole transposed
  weights, whose narrowing to bf16 changes nothing over the extended reals.
-/
import proofs.«110376_j15324443312135_1_alg».proof.Proof.KI.Data
import proofs.«110376_j15324443312135_1_alg».proof.Proof.SpecTile
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-! ## The index maps over the grid -/

/-- The first window's block index at point t is (image, tile, 0, 0). -/
private theorem idx0_facts : ∀ t : Fin cfg0.N, win0_0.index t (0 : Fin 4) = (grid0.coords t 0).val
    ∧ win0_0.index t (1 : Fin 4) = (grid0.coords t 1).val
    ∧ win0_0.index t (2 : Fin 4) = 0 ∧ win0_0.index t (3 : Fin 4) = 0 :=
  (by decide +kernel : ∀ t : Fin grid0.N, _)

/-- The second window's block index at point t is (image, the row before the tile around the circle, 0, 0):
    row 255 before tile 0, else row 32·tile − 1 (on the grid the 32-bit arithmetic of the index map never wraps). -/
private theorem idx1_facts : ∀ t : Fin cfg0.N, win0_1.index t (0 : Fin 4) = (grid0.coords t 0).val
    ∧ win0_1.index t (1 : Fin 4) = (if (grid0.coords t 1).val = 0 then 255 else 32 * (grid0.coords t 1).val - 1)
    ∧ win0_1.index t (2 : Fin 4) = 0 ∧ win0_1.index t (3 : Fin 4) = 0 :=
  (by decide +kernel : ∀ t : Fin grid0.N, _)

/-- The third window's block index at point t is (image, the row after the tile around the circle, 0, 0):
    row 0 after tile 7, else row 32·(tile + 1). -/
private theorem idx2_facts : ∀ t : Fin cfg0.N, win0_2.index t (0 : Fin 4) = (grid0.coords t 0).val
    ∧ win0_2.index t (1 : Fin 4) = (if (grid0.coords t 1).val = 7 then 0 else 32 * ((grid0.coords t 1).val + 1))
    ∧ win0_2.index t (2 : Fin 4) = 0 ∧ win0_2.index t (3 : Fin 4) = 0 :=
  (by decide +kernel : ∀ t : Fin grid0.N, _)

/-- The fourth and fifth windows' block index is (0, 0) at every point: the block is the whole array. -/
private theorem idx3_facts : ∀ t : Fin cfg0.N, win0_3.index t (0 : Fin 2) = 0 ∧ win0_3.index t (1 : Fin 2) = 0 :=
  (by decide +kernel : ∀ t : Fin grid0.N, _)
private theorem idx4_facts : ∀ t : Fin cfg0.N, win0_4.index t (0 : Fin 2) = 0 ∧ win0_4.index t (1 : Fin 2) = 0 :=
  (by decide +kernel : ∀ t : Fin grid0.N, _)

/-! ## The two weights when the region is entered -/

/-- The first weight as the region finds it: transposed, then narrowed, and over the extended reals the
    narrowing is the identity; so entry (j, k) is the argument's entry (k, j). -/
private theorem entry_v1_apply (c : Dev nD) (j : Fin 48) (k : Fin 128) :
    atEntry m c main_v1 (ix2 j k) = m ((c : Thread nD τ).loc main_arg1) (ix2 k j) := by
  dsimp only [atEntry, hostOps0]
  after_results
  exact transpose_ix2_apply _ _ j k

/-- The second weight likewise: entry (k, ch) is the argument's entry (ch, k). -/
private theorem entry_v3_apply (c : Dev nD) (k : Fin 128) (ch : Fin 16) :
    atEntry m c main_v3 (ix2 k ch) = m ((c : Thread nD τ).loc main_arg2) (ix2 ch k) := by
  dsimp only [atEntry, hostOps0]
  after_results
  exact transpose_ix2_apply _ _ k ch

/-! ## The blocks

A block's entry y is the array's entry at (block index × block size + y) on every axis. -/

theorem block0_apply (c : Dev nD) (t : Fin cfg0.N) (b : Fin 16) (hb : Fin 8)
    (h0 : (grid0.coords t 0).val = b.val) (h1 : (grid0.coords t 1).val = hb.val) (i : Fin 32) (w : Fin 256) (ch : Fin 16) :
    blockAt m c 0 t (ix4 (0 : Fin 1) i w ch) = m ((c : Thread nD τ).loc main_arg0) (ix4 b (Cert.Spec.tileRow hb i) w ch) := by
  unfold blockAt
  show atEntry m c main_arg0 (((cfg0.win 0).blk t).view.emb (ix4 (0 : Fin 1) i w ch)) = _
  rw [atEntry_arg0]
  obtain ⟨e0, e1, e2, e3⟩ := idx0_facts t
  congr 1
  funext a; apply Fin.ext
  match a with
  | ⟨0, _⟩ => show win0_0.index t (0 : Fin 4) * 1 + 1 * 0 = b.val; omega
  | ⟨1, _⟩ => show win0_0.index t (1 : Fin 4) * 32 + 1 * i.val = hb.val * 32 + i.val; omega
  | ⟨2, _⟩ => show win0_0.index t (2 : Fin 4) * 256 + 1 * w.val = w.val; omega
  | ⟨3, _⟩ => show win0_0.index t (3 : Fin 4) * 16 + 1 * ch.val = ch.val; omega

theorem block1_apply (c : Dev nD) (t : Fin cfg0.N) (b : Fin 16) (hb : Fin 8)
    (h0 : (grid0.coords t 0).val = b.val) (h1 : (grid0.coords t 1).val = hb.val) (w : Fin 256) (ch : Fin 16) :
    blockAt m c 1 t (ix4 (0 : Fin 1) (0 : Fin 1) w ch)
      = m ((c : Thread nD τ).loc main_arg0) (ix4 b (Cert.Spec.prev (Cert.Spec.tileRow hb 0)) w ch) := by
  unfold blockAt
  show atEntry m c main_arg0 (((cfg0.win 1).blk t).view.emb (ix4 (0 : Fin 1) (0 : Fin 1) w ch)) = _
  rw [atEntry_arg0]
  obtain ⟨e0, e1, e2, e3⟩ := idx1_facts t
  have hhb : hb.val < 8 := hb.isLt
  congr 1
  funext a; apply Fin.ext
  match a with
  | ⟨0, _⟩ => show win0_1.index t (0 : Fin 4) * 1 + 1 * 0 = b.val; omega
  | ⟨1, _⟩ =>
    -- the row before row 32·hb around the circle: (32·hb + 255) mod 256
    show win0_1.index t (1 : Fin 4) * 1 + 1 * 0 = (hb.val * 32 + 0 + 255) % 256
    rw [e1, h1]; split <;> omega
  | ⟨2, _⟩ => show win0_1.index t (2 : Fin 4) * 256 + 1 * w.val = w.val; omega
  | ⟨3, _⟩ => show win0_1.index t (3 : Fin 4) * 16 + 1 * ch.val = ch.val; omega

theorem block2_apply (c : Dev nD) (t : Fin cfg0.N) (b : Fin 16) (hb : Fin 8)
    (h0 : (grid0.coords t 0).val = b.val) (h1 : (grid0.coords t 1).val = hb.val) (w : Fin 256) (ch : Fin 16) :
    blockAt m c 2 t (ix4 (0 : Fin 1) (0 : Fin 1) w ch)
      = m ((c : Thread nD τ).loc main_arg0) (ix4 b (Cert.Spec.next (Cert.Spec.tileRow hb 31)) w ch) := by
  unfold blockAt
  show atEntry m c main_arg0 (((cfg0.win 2).blk t).view.emb (ix4 (0 : Fin 1) (0 : Fin 1) w ch)) = _
  rw [atEntry_arg0]
  obtain ⟨e0, e1, e2, e3⟩ := idx2_facts t
  have hhb : hb.val < 8 := hb.isLt
  congr 1
  funext a; apply Fin.ext
  match a with
  | ⟨0, _⟩ => show win0_2.index t (0 : Fin 4) * 1 + 1 * 0 = b.val; omega
  | ⟨1, _⟩ =>
    -- the row after row 32·hb + 31 around the circle: (32·hb + 32) mod 256
    show win0_2.index t (1 : Fin 4) * 1 + 1 * 0 = (hb.val * 32 + 31 + 1) % 256
    rw [e1, h1]; split <;> omega
  | ⟨2, _⟩ => show win0_2.index t (2 : Fin 4) * 256 + 1 * w.val = w.val; omega
  | ⟨3, _⟩ => show win0_2.index t (3 : Fin 4) * 16 + 1 * ch.val = ch.val; omega

theorem block3_apply (c : Dev nD) (t : Fin cfg0.N) (j : Fin 48) (k : Fin 128) :
    blockAt m c 3 t (ix2 j k) = m ((c : Thread nD τ).loc main_arg1) (ix2 k j) := by
  unfold blockAt
  show atEntry m c main_v1 (((cfg0.win 3).blk t).view.emb (ix2 j k)) = _
  obtain ⟨e0, e1⟩ := idx3_facts t
  have hidx : ((cfg0.win 3).blk t).view.emb (ix2 j k) = (ix2 j k : S48x128.Idx) := by
    funext a; apply Fin.ext
    match a with
    | ⟨0, _⟩ => show win0_3.index t (0 : Fin 2) * 48 + 1 * j.val = j.val; omega
    | ⟨1, _⟩ => show win0_3.index t (1 : Fin 2) * 128 + 1 * k.val = k.val; omega
  rw [hidx]
  exact entry_v1_apply m c j k

theorem block4_apply (c : Dev nD) (t : Fin cfg0.N) (k : Fin 128) (ch : Fin 16) :
    blockAt m c 4 t (ix2 k ch) = m ((c : Thread nD τ).loc main_arg2) (ix2 ch k) := by
  unfold blockAt
  show atEntry m c main_v3 (((cfg0.win 4).blk t).view.emb (ix2 k ch)) = _
  obtain ⟨e0, e1⟩ := idx4_facts t
  have hidx : ((cfg0.win 4).blk t).view.emb (ix2 k ch) = (ix2 k ch : S128x16.Idx) := by
    funext a; apply Fin.ext
    match a with
    | ⟨0, _⟩ => show win0_4.index t (0 : Fin 2) * 128 + 1 * k.val = k.val; omega
    | ⟨1, _⟩ => show win0_4.index t (1 : Fin 2) * 16 + 1 * ch.val = ch.val; omega
  rw [hidx]
  exact entry_v3_apply m c k ch

end Cert.KernelIdeal.Hand

end
-- ==== Proof.KI.Final.lean ====
/-
  The result array of the idealized kernel after the run: the function `G` of the three argument arrays.

  Point t = (b, hb) writes back, into rows 32·hb … 32·hb + 31 of image b, the tile computed from its five
  input blocks. Those blocks are the rows of the state grid around the tile and the transposed weights, so
  the tile is `G` on its rows; the 16 × 8 tiles cover the whole array; hence the array ends at `G`.
-/
import proofs.«110376_j15324443312135_1_alg».proof.Proof.KI.Launch
import proofs.«110376_j15324443312135_1_alg».proof.Proof.KI.Tile
import proofs.«110376_j15324443312135_1_alg».proof.Proof.KI.Blocks

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- `G` of core `c`'s three argument arrays, as contents of the result buffer. -/
abbrev resultOf (c : Dev nD) : S16x256x256x16.Idx → EReal :=
  Cert.Spec.G (m ((c : Thread nD τ).loc main_arg0)) (m ((c : Thread nD τ).loc main_arg1)) (m ((c : Thread nD τ).loc main_arg2))

/-- The output window's block index at a point is the point's own coordinates. -/
theorem out_index : ∀ t : Fin cfg0.N, win0_5.index t (0 : Fin 4) = (grid0.coords t 0).val
    ∧ win0_5.index t (1 : Fin 4) = (grid0.coords t 1).val
    ∧ win0_5.index t (2 : Fin 4) = 0 ∧ win0_5.index t (3 : Fin 4) = 0 :=
  (by decide +kernel : ∀ t : Fin grid0.N, _)

/-- Every (image, tile) pair is some point's. -/
theorem out_onto : ∀ (q0 : Fin 16) (q1 : Fin 8), ∃ t : Fin cfg0.N, win0_5.index t = ![q0.val, q1.val, 0, 0] :=
  (by decide +kernel : ∀ (q0 : Fin 16) (q1 : Fin 8), ∃ t : Fin grid0.N, win0_5.index t = ![q0.val, q1.val, 0, 0])

/-- WHAT POINT `t` WRITES BACK is block `t` of `G` of the argument arrays. -/
theorem written_eq (c : Dev nD) (t : Fin cfg0.N) :
    (dats m 0 c).flushed 5 t = ((cfg0.win 5).blk t).view.read (Elt Ideal) (resultOf m c) := by
  show (cfg0.win 5).cut (grid0.coords t) ((dats m 0 c).after 5 t) = _
  rw [after_5]
  obtain ⟨e0, e1, e2, e3⟩ := out_index t
  have hb0 : (grid0.coords t 0).val < 16 := (grid0.coords t 0).isLt
  have hb1 : (grid0.coords t 1).val < 8 := (grid0.coords t 1).isLt
  funext y
  obtain ⟨z, i, w, ch, rfl⟩ : ∃ (z : Fin 1) (i : Fin 32) (w : Fin 256) (ch : Fin 16), y = ix4 z i w ch := ⟨y 0, y 1, y 2, y 3, eq_ix4 y⟩
  obtain rfl : z = 0 := Subsingleton.elim _ _
  show tileOut (F := Ideal) (blockAt m c 0 t) (blockAt m c 1 t) (blockAt m c 2 t) (blockAt m c 3 t) (blockAt m c 4 t) (ix4 (0 : Fin 1) i w ch)
    = resultOf m c (((cfg0.win 5).blk t).view.emb (ix4 (0 : Fin 1) i w ch))
  rw [tileOut_apply,
    Cert.Spec.tileOutAt_eq (m ((c : Thread nD τ).loc main_arg0)) (m ((c : Thread nD τ).loc main_arg1)) (m ((c : Thread nD τ).loc main_arg2))
      _ _ _ _ _ ⟨(grid0.coords t 0).val, hb0⟩ ⟨(grid0.coords t 1).val, hb1⟩
      (fun i w ch => block0_apply m c t _ _ rfl rfl i w ch) (fun w ch => block1_apply m c t _ _ rfl rfl w ch)
      (fun w ch => block2_apply m c t _ _ rfl rfl w ch) (fun j k => block3_apply m c t j k) (fun k ch => block4_apply m c t k ch)]
  refine congrArg (resultOf m c) ?_
  funext a; apply Fin.ext
  match a with
  | ⟨0, _⟩ => show (grid0.coords t 0).val = win0_5.index t (0 : Fin 4) * 1 + 1 * 0; omega
  | ⟨1, _⟩ => show (grid0.coords t 1).val * 32 + i.val = win0_5.index t (1 : Fin 4) * 32 + 1 * i.val; omega
  | ⟨2, _⟩ => show w.val = win0_5.index t (2 : Fin 4) * 256 + 1 * w.val; omega
  | ⟨3, _⟩ => show ch.val = win0_5.index t (3 : Fin 4) * 16 + 1 * ch.val; omega

/-- An index of the array is in point `t`'s block iff each coordinate is in the block's range on its axis. -/
theorem mem_out_block (t : Fin cfg0.N) (i : S16x256x256x16.Idx) :
    i ∈ ((cfg0.win 5).blk t).view.set ↔ ∀ a : Fin 4, win0_5.index t a * S1x32x256x16.size a ≤ (i a).val ∧ (i a).val < win0_5.index t a * S1x32x256x16.size a + S1x32x256x16.size a := by
  show i ∈ ((View.whole main_v4).slice (win0_5.rect t)).set ↔ _
  rw [View.set_slice_whole, Rect.mem_set_unit]
  exact Iff.rfl

/-- Every index of the result array lies in some point's block: the tiles cover it. -/
theorem out_cover (i : S16x256x256x16.Idx) :
    ∃ t : Fin cfg0.N, (cfg0.win 5).flush t = true ∧ i ∈ ((cfg0.win 5).blk t).view.set := by
  have hi0 : (i 0).val < 16 := (i 0).isLt
  have hi1 : (i 1).val < 256 := (i 1).isLt
  have hi2 : (i 2).val < 256 := (i 2).isLt
  have hi3 : (i 3).val < 16 := (i 3).isLt
  obtain ⟨t, ht⟩ := out_onto ⟨(i 0).val, hi0⟩ ⟨(i 1).val / 32, by omega⟩
  have q0 : win0_5.index t (0 : Fin 4) = (i 0).val := congrFun ht 0
  have q1 : win0_5.index t (1 : Fin 4) = (i 1).val / 32 := congrFun ht 1
  have q2 : win0_5.index t (2 : Fin 4) = 0 := congrFun ht 2
  have q3 : win0_5.index t (3 : Fin 4) = 0 := congrFun ht 3
  refine ⟨t, flush0_5 t, ?_⟩
  rw [mem_out_block]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 32 ≤ (i 1).val ∧ (i 1).val < win0_5.index t (1 : Fin 4) * 32 + 32; omega
  | ⟨2, _⟩ => show win0_5.index t (2 : Fin 4) * 256 ≤ (i 2).val ∧ (i 2).val < win0_5.index t (2 : Fin 4) * 256 + 256; omega
  | ⟨3, _⟩ => show win0_5.index t (3 : Fin 4) * 16 ≤ (i 3).val ∧ (i 3).val < win0_5.index t (3 : Fin 4) * 16 + 16; omega

/-- THE RESULT ARRAY after the run is `G` of the argument arrays. -/
theorem result_eq (c : Dev nD) : (dats m 0 c).arrAt 5 cfg0.N = resultOf m c :=
  (dats m 0 c).arrAt_eq_of_cover 5 (resultOf m c) (fun t _ => written_eq m c t) (out_cover)

/-- The run, read: the result buffer ends at `G` of the arguments, the arguments unchanged. -/
theorem run_value : θ_run defs (onTc (τ := τ) (main (F := Ideal))) ⟨m, fun _ => 0, ρ⟩ (fun r => ∀ c : Dev nD,
      r.2.mem ((c.tc : Thread nD τ).loc main_v4) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 5).trans (result_eq m c),
      ((h c).1 0).trans (((dats m 0 c).arrAt_in 0 rfl _).trans ((A_eq m c 0).trans (atEntry_arg0 m c))),
      ((h c).2 main_arg1 (Pipeline.mem_restRefs_of main_arg1 (by decide) (by decide))).trans (atEntry_arg1 m c),
      ((h c).2 main_arg2 (Pipeline.mem_restRefs_of main_arg2 (by decide) (by decide))).trans (atEntry_arg2 m c)⟩) (run_main m ρ)

end Cert.KernelIdeal.Hand

end
-- ==== Proof.RefRun.lean ====
/-
  The reference's run, written by hand: @main is 94 host operations in a straight line (twelve shifted copies of
  the state grid of six operations each, the arithmetic of the two Sobel responses, the join of the 48 features,
  two contractions and a maximum with zero between them). Every weakly fair execution ends, faulting nowhere,
  with the result buffer at the last stage's value of the three arguments and the arguments unchanged.
  The operations are taken a stretch at a time: after a stretch, each buffer it wrote holds its stage (the
  functions `val_…` of the stages module) of the argument arrays, and no argument is written.
-/
import proofs.«110376_j15324443312135_1_alg».proof.Proof.RefRead

noncomputable section

namespace Cert.RefRun

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-! ## The operations, a stretch at a time

Each stretch is a literal list of operations (a called function's operations stand in its call's place, over the call's
buffers), with the facts the run asks of every operation: it touches TensorCore references only, and it determines
its results. -/

set_option maxHeartbeats 1000000 in
abbrev opsA : List (HloOp τ sig (Elt F)) :=
  [ TRef.unary (TRef.of (T := ⟨S16x256x256x16, .f32⟩) main_arg0) (TRef.of (T := ⟨S16x1x256x16, .f32⟩) main_call0_v0) (extractStridedSlice S16x1x256x16 ![0, 255, 0, 0] · slices_S16x256x256x16_S16x1x256x16_0_255_0_0),
    TRef.unary (TRef.of (T := ⟨S16x256x256x16, .f32⟩) main_arg0) (TRef.of (T := ⟨S16x255x256x16, .f32⟩) main_call0_v1) (extractStridedSlice S16x255x256x16 ![0, 0, 0, 0] · slices_S16x256x256x16_S16x255x256x16_0_0_0_0),
    TRef.binary (TRef.of (T := ⟨S16x1x256x16, .f32⟩) main_call0_v0) (TRef.of (T := ⟨S16x255x256x16, .f32⟩) main_call0_v1) (TRef.of (T := ⟨S16x256x256x16, .f32⟩) main_call0_v2) (fun a b => concatenate S16x256x256x16 1 [⟨S16x1x256x16, a⟩, ⟨S16x255x256x16, b⟩] concatenates_S16x1x256x16_S16x255x256x16_S16x256x256x16_d1),
    TRef.unary (TRef.of (T := ⟨S16x256x256x16, .f32⟩) main_call0_v2) (TRef.of (T := ⟨S16x256x255x16, .f32⟩) main_call0_v3) (extractStridedSlice S16x256x255x16 ![0, 0, 1, 0] · slices_S16x256x256x16_S16x256x255x16_0_0_1_0),
    TRef.unary (TRef.of (T := ⟨S16x256x256x16, .f32⟩) main_call0_v2) (TRef.of (T := ⟨S16x256x1x16, .f32⟩) main_call0_v4) (extractStridedSlice S16x256x1x16 ![0, 0, 0, 0] · slices_S16x256x256x16_S16x256x1x16_0_0_0_0),
    TRef.binary (TRef.of (T := ⟨S16x256x255x16, .f32⟩) main_call0_v3) (TRef.of (T := ⟨S16x256x1x16, .f32⟩) main_call0_v4) (TRef.of (T := ⟨S16x256x256x16, .f32⟩) main_v0) (fun a b => concatenate S16x256x256x16 2 [⟨S16x256x255x16, a⟩, ⟨S16x256x1x16, b⟩] concatenates_S16x256x255x16_S16x256x1x16_S16x256x256x16_d2),
    TRef.unary (TRef.of (T := ⟨S16x256x256x16, .f32⟩) main_arg0) (TRef.of (T := ⟨S16x1x256x16, .f32⟩) main_call1_v0) (extractStridedSlice S16x1x256x16 ![0, 255, 0, 0] · slices_S16x256x256x16_S16x1x256x16_0_255_0_0),
    TRef.unary (TRef.of (T := ⟨S16x256x256x16, .f32⟩) main_arg0) (TRef.of (T := ⟨S16x255x256x16, .f32⟩) main_call1_v1) (extractStridedSlice S16x255x256x16 ![0, 0, 0, 0] · slices_S16x256x256x16_S16x255x256x16_0_0_0_0),
    TRef.binary (TRef.of (T := ⟨S16x1x256x16, .f32⟩) main_call1_v0) (TRef.of (T := ⟨S16x255x256x16, .f32⟩) main_call1_v1) (TRef.of (T := ⟨S16x256x256x16, .f32⟩) main_call1_v2) (fun a b => concatenate S16x256x256x16 1 [⟨S16x1x256x16, a⟩, ⟨S16x255x256x16, b⟩] concatenates_S16x1x256x16_S16x255x256x16_S16x256x256x16_d1),
    TRef.unary (TRef.of (T := ⟨S16x256x256x16, .f32⟩) main_call1_v2) (TRef.of (T := ⟨S16x256x1x16, .f32⟩) main_call1_v3) (extractStridedSlice S16x256x1x16 ![0, 0, 255, 0] · slices_S16x256x256x16_S16x256x1x16_0_0_255_0),
    TRef.unary (TRef.of (T := ⟨S16x256x256x16, .f32⟩) main_call1_v2) (TRef.of (T := ⟨S16x256x255x16, .f32⟩) main_call1_v4) (extractStridedSlice S16x256x255x16 ![0, 0, 0, 0] · slices_S16x256x256x16_S16x256x255x16_0_0_0_0),
    TRef.binary (TRef.of (T := ⟨S16x256x1x16, .f32⟩) main_call1_v3) (TRef.of (T := ⟨S16x256x255x16, .f32⟩) main_call1_v4) (TRef.of (T := ⟨S16x256x256x16, .f32⟩) main_v1) (fun a b => concatenate S16x256x256x16 2 [⟨S16x256x1x16, a⟩, ⟨S16x256x255x16, b⟩] concatenates_S16x256x1x16_S16x256x255x16_S16x256x256x16_d2),
    binary main_v0 main_v1 main_v2 (subf : (⟨S16x256x256x16, .f32⟩ : BufTy).Contents (Elt F) → (⟨S16x256x256x16, .f32⟩ : BufTy).Contents (Elt F) → (⟨S16x256x256x16, .f32⟩ : BufTy).Contents (Elt F)) ]

theorem opsA_sub : (opsA : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub ..⟩

theorem opsA_fresh : ∀ op ∈ (opsA : List (HloOp τ sig (Elt F))), op.fresh = ∅ := by
  intro _ h; (repeat (cases h with | head => rfl | tail _ h => ?_)); exact nomatch h

set_option maxHeartbeats 1000000 in
abbrev opsB : List (HloOp τ sig (Elt F)) :=
  [ TRef.unary (TRef.of (T := ⟨S16x256x256x16, .f32⟩) main_arg0) (TRef.of (T := ⟨S16x256x256x16, .f32⟩) main_call2_v0) (extractStridedSlice S16x256x256x16 ![0, 0, 0, 0] · slices_S16x256x256x16_S16x256x256x16_0_0_0_0),
    TRef.unary (TRef.of (T := ⟨S16x256x256x16, .f32⟩) main_arg0) (TRef.of (T := ⟨S16x0x256x16, .f32⟩) main_call2_v1) (extractStridedSlice S16x0x256x16 ![0, 0, 0, 0] · slices_S16x256x256x16_S16x0x256x16_0_0_0_0),
    TRef.binary (TRef.of (T := ⟨S16x256x256x16, .f32⟩) main_call2_v0) (TRef.of (T := ⟨S16x0x256x16, .f32⟩) main_call2_v1) (TRef.of (T := ⟨S16x256x256x16, .f32⟩) main_call2_v2) (fun a b => concatenate S16x256x256x16 1 [⟨S16x256x256x16, a⟩, ⟨S16x0x256x16, b⟩] concatenates_S16x256x256x16_S16x0x256x16_S16x256x256x16_d1),
    TRef.unary (TRef.of (T := ⟨S16x256x256x16, .f32⟩) main_call2_v2) (TRef.of (T := ⟨S16x256x255x16, .f32⟩) main_call2_v3) (extractStridedSlice S16x256x255x16 ![0, 0, 1, 0] · slices_S16x256x256x16_S16x256x255x16_0_0_1_0),
    TRef.unary (TRef.of (T := ⟨S16x256x256x16, .f32⟩) main_call2_v2) (TRef.of (T := ⟨S16x256x1x16, .f32⟩) main_call2_v4) (extractStridedSlice S16x256x1x16 ![0, 0, 0, 0] · slices_S16x256x256x16_S16x256x1x16_0_0_0_0),
    TRef.binary (TRef.of (T := ⟨S16x256x255x16, .f32⟩) main_call2_v3) (TRef.of (T := ⟨S16x256x1x16, .f32⟩) main_call2_v4) (TRef.of (T := ⟨S16x256x256x16, .f32⟩) main_v3) (fun a b => concatenate S16x256x256x16 2 [⟨S16x256x255x16, a⟩, ⟨S16x256x1x16, b⟩] concatenates_S16x256x255x16_S16x256x1x16_S16x256x256x16_d2),
    TRef.unary (TRef.of (T := ⟨S16x256x256x16, .f32⟩) main_arg0) (TRef.of (T := ⟨S16x256x256x16, .f32⟩) main_call3_v0) (extractStridedSlice S16x256x256x16 ![0, 0, 0, 0] · slices_S16x256x256x16_S16x256x256x16_0_0_0_0),
    TRef.unary (TRef.of (T := ⟨S16x256x256x16, .f32⟩) main_arg0) (TRef.of (T := ⟨S16x0x256x16, .f32⟩) main_call3_v1) (extractStridedSlice S16x0x256x16 ![0, 0, 0, 0] · slices_S16x256x256x16_S16x0x256x16_0_0_0_0),
    TRef.binary (TRef.of (T := ⟨S16x256x256x16, .f32⟩) main_call3_v0) (TRef.of (T := ⟨S16x0x256x16, .f32⟩) main_call3_v1) (TRef.of (T := ⟨S16x256x256x16, .f32⟩) main_call3_v2) (fun a b => concatenate S16x256x256x16 1 [⟨S16x256x256x16, a⟩, ⟨S16x0x256x16, b⟩] concatenates_S16x256x256x16_S16x0x256x16_S16x256x256x16_d1),
    TRef.unary (TRef.of (T := ⟨S16x256x256x16, .f32⟩) main_call3_v2) (TRef.of (T := ⟨S16x256x1x16, .f32⟩) main_call3_v3) (extractStridedSlice S16x256x1x16 ![0, 0, 255, 0] · slices_S16x256x256x16_S16x256x1x16_0_0_255_0),
    TRef.unary (TRef.of (T := ⟨S16x256x256x16, .f32⟩) main_call3_v2) (TRef.of (T := ⟨S16x256x255x16, .f32⟩) main_call3_v4) (extractStridedSlice S16x256x255x16 ![0, 0, 0, 0] · slices_S16x256x256x16_S16x256x255x16_0_0_0_0),
    TRef.binary (TRef.of (T := ⟨S16x256x1x16, .f32⟩) main_call3_v3) (TRef.of (T := ⟨S16x256x255x16, .f32⟩) main_call3_v4) (TRef.of (T := ⟨S16x256x256x16, .f32⟩) main_v4) (fun a b => concatenate S16x256x256x16 2 [⟨S16x256x1x16, a⟩, ⟨S16x256x255x16, b⟩] concatenates_S16x256x1x16_S16x256x255x16_S16x256x256x16_d2),
    binary main_v3 main_v4 main_v5 (subf : (⟨S16x256x256x16, .f32⟩ : BufTy).Contents (Elt F) → (⟨S16x256x256x16, .f32⟩ : BufTy).Contents (Elt F) → (⟨S16x256x256x16, .f32⟩ : BufTy).Contents (Elt F)),
    nullary main_cst (constant S_ .f32 0x40000000#32),
    unary main_cst main_v6 (broadcastInDim S16x256x256x16 ![] bcast_S_S16x256x256x16 : (⟨S_, .f32⟩ : BufTy).Contents (Elt F) → (⟨S16x256x256x16, .f32⟩ : BufTy).Contents (Elt F)),
    binary main_v6 main_v5 main_v7 (mulf : (⟨S16x256x256x16, .f32⟩ : BufTy).Contents (Elt F) → (⟨S16x256x256x16, .f32⟩ : BufTy).Contents (Elt F) → (⟨S16x256x256x16, .f32⟩ : BufTy).Contents (Elt F)),
    binary main_v2 main_v7 main_v8 (addf : (⟨S16x256x256x16, .f32⟩ : BufTy).Contents (Elt F) → (⟨S16x256x256x16, .f32⟩ : BufTy).Contents (Elt F) → (⟨S16x256x256x16, .f32⟩ : BufTy).Contents (Elt F)) ]

theorem opsB_sub : (opsB : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., binary_bufs_sub ..⟩

theorem opsB_fresh : ∀ op ∈ (opsB : List (HloOp τ sig (Elt F))), op.fresh = ∅ := by
  intro _ h; (repeat (cases h with | head => rfl | tail _ h => ?_)); exact nomatch h

set_option maxHeartbeats 1000000 in
abbrev opsC : List (HloOp τ sig (Elt F)) :=
  [ TRef.unary (TRef.of (T := ⟨S16x256x256x16, .f32⟩) main_arg0) (TRef.of (T := ⟨S16x255x256x16, .f32⟩) main_call4_v0) (extractStridedSlice S16x255x256x16 ![0, 1, 0, 0] · slices_S16x256x256x16_S16x255x256x16_0_1_0_0),
    TRef.unary (TRef.of (T := ⟨S16x256x256x16, .f32⟩) main_arg0) (TRef.of (T := ⟨S16x1x256x16, .f32⟩) main_call4_v1) (extractStridedSlice S16x1x256x16 ![0, 0, 0, 0] · slices_S16x256x256x16_S16x1x256x16_0_0_0_0),
    TRef.binary (TRef.of (T := ⟨S16x255x256x16, .f32⟩) main_call4_v0) (TRef.of (T := ⟨S16x1x256x16, .f32⟩) main_call4_v1) (TRef.of (T := ⟨S16x256x256x16, .f32⟩) main_call4_v2) (fun a b => concatenate S16x256x256x16 1 [⟨S16x255x256x16, a⟩, ⟨S16x1x256x16, b⟩] concatenates_S16x255x256x16_S16x1x256x16_S16x256x256x16_d1),
    TRef.unary (TRef.of (T := ⟨S16x256x256x16, .f32⟩) main_call4_v2) (TRef.of (T := ⟨S16x256x255x16, .f32⟩) main_call4_v3) (extractStridedSlice S16x256x255x16 ![0, 0, 1, 0] · slices_S16x256x256x16_S16x256x255x16_0_0_1_0),
    TRef.unary (TRef.of (T := ⟨S16x256x256x16, .f32⟩) main_call4_v2) (TRef.of (T := ⟨S16x256x1x16, .f32⟩) main_call4_v4) (extractStridedSlice S16x256x1x16 ![0, 0, 0, 0] · slices_S16x256x256x16_S16x256x1x16_0_0_0_0),
    TRef.binary (TRef.of (T := ⟨S16x256x255x16, .f32⟩) main_call4_v3) (TRef.of (T := ⟨S16x256x1x16, .f32⟩) main_call4_v4) (TRef.of (T := ⟨S16x256x256x16, .f32⟩) main_v9) (fun a b => concatenate S16x256x256x16 2 [⟨S16x256x255x16, a⟩, ⟨S16x256x1x16, b⟩] concatenates_S16x256x255x16_S16x256x1x16_S16x256x256x16_d2),
    TRef.unary (TRef.of (T := ⟨S16x256x256x16, .f32⟩) main_arg0) (TRef.of (T := ⟨S16x255x256x16, .f32⟩) main_call5_v0) (extractStridedSlice S16x255x256x16 ![0, 1, 0, 0] · slices_S16x256x256x16_S16x255x256x16_0_1_0_0),
    TRef.unary (TRef.of (T := ⟨S16x256x256x16, .f32⟩) main_arg0) (TRef.of (T := ⟨S16x1x256x16, .f32⟩) main_call5_v1) (extractStridedSlice S16x1x256x16 ![0, 0, 0, 0] · slices_S16x256x256x16_S16x1x256x16_0_0_0_0),
    TRef.binary (TRef.of (T := ⟨S16x255x256x16, .f32⟩) main_call5_v0) (TRef.of (T := ⟨S16x1x256x16, .f32⟩) main_call5_v1) (TRef.of (T := ⟨S16x256x256x16, .f32⟩) main_call5_v2) (fun a b => concatenate S16x256x256x16 1 [⟨S16x255x256x16, a⟩, ⟨S16x1x256x16, b⟩] concatenates_S16x255x256x16_S16x1x256x16_S16x256x256x16_d1),
    TRef.unary (TRef.of (T := ⟨S16x256x256x16, .f32⟩) main_call5_v2) (TRef.of (T := ⟨S16x256x1x16, .f32⟩) main_call5_v3) (extractStridedSlice S16x256x1x16 ![0, 0, 255, 0] · slices_S16x256x256x16_S16x256x1x16_0_0_255_0),
    TRef.unary (TRef.of (T := ⟨S16x256x256x16, .f32⟩) main_call5_v2) (TRef.of (T := ⟨S16x256x255x16, .f32⟩) main_call5_v4) (extractStridedSlice S16x256x255x16 ![0, 0, 0, 0] · slices_S16x256x256x16_S16x256x255x16_0_0_0_0),
    TRef.binary (TRef.of (T := ⟨S16x256x1x16, .f32⟩) main_call5_v3) (TRef.of (T := ⟨S16x256x255x16, .f32⟩) main_call5_v4) (TRef.of (T := ⟨S16x256x256x16, .f32⟩) main_v10) (fun a b => concatenate S16x256x256x16 2 [⟨S16x256x1x16, a⟩, ⟨S16x256x255x16, b⟩] concatenates_S16x256x1x16_S16x256x255x16_S16x256x256x16_d2),
    binary main_v9 main_v10 main_v11 (subf : (⟨S16x256x256x16, .f32⟩ : BufTy).Contents (Elt F) → (⟨S16x256x256x16, .f32⟩ : BufTy).Contents (Elt F) → (⟨S16x256x256x16, .f32⟩ : BufTy).Contents (Elt F)),
    binary main_v8 main_v11 main_v12 (addf : (⟨S16x256x256x16, .f32⟩ : BufTy).Contents (Elt F) → (⟨S16x256x256x16, .f32⟩ : BufTy).Contents (Elt F) → (⟨S16x256x256x16, .f32⟩ : BufTy).Contents (Elt F)) ]

theorem opsC_sub : (opsC : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., binary_bufs_sub ..⟩

theorem opsC_fresh : ∀ op ∈ (opsC : List (HloOp τ sig (Elt F))), op.fresh = ∅ := by
  intro _ h; (repeat (cases h with | head => rfl | tail _ h => ?_)); exact nomatch h

set_option maxHeartbeats 1000000 in
abbrev opsD : List (HloOp τ sig (Elt F)) :=
  [ TRef.unary (TRef.of (T := ⟨S16x256x256x16, .f32⟩) main_arg0) (TRef.of (T := ⟨S16x255x256x16, .f32⟩) main_call6_v0) (extractStridedSlice S16x255x256x16 ![0, 1, 0, 0] · slices_S16x256x256x16_S16x255x256x16_0_1_0_0),
    TRef.unary (TRef.of (T := ⟨S16x256x256x16, .f32⟩) main_arg0) (TRef.of (T := ⟨S16x1x256x16, .f32⟩) main_call6_v1) (extractStridedSlice S16x1x256x16 ![0, 0, 0, 0] · slices_S16x256x256x16_S16x1x256x16_0_0_0_0),
    TRef.binary (TRef.of (T := ⟨S16x255x256x16, .f32⟩) main_call6_v0) (TRef.of (T := ⟨S16x1x256x16, .f32⟩) main_call6_v1) (TRef.of (T := ⟨S16x256x256x16, .f32⟩) main_call6_v2) (fun a b => concatenate S16x256x256x16 1 [⟨S16x255x256x16, a⟩, ⟨S16x1x256x16, b⟩] concatenates_S16x255x256x16_S16x1x256x16_S16x256x256x16_d1),
    TRef.unary (TRef.of (T := ⟨S16x256x256x16, .f32⟩) main_call6_v2) (TRef.of (T := ⟨S16x256x1x16, .f32⟩) main_call6_v3) (extractStridedSlice S16x256x1x16 ![0, 0, 255, 0] · slices_S16x256x256x16_S16x256x1x16_0_0_255_0),
    TRef.unary (TRef.of (T := ⟨S16x256x256x16, .f32⟩) main_call6_v2) (TRef.of (T := ⟨S16x256x255x16, .f32⟩) main_call6_v4) (extractStridedSlice S16x256x255x16 ![0, 0, 0, 0] · slices_S16x256x256x16_S16x256x255x16_0_0_0_0),
    TRef.binary (TRef.of (T := ⟨S16x256x1x16, .f32⟩) main_call6_v3) (TRef.of (T := ⟨S16x256x255x16, .f32⟩) main_call6_v4) (TRef.of (T := ⟨S16x256x256x16, .f32⟩) main_v13) (fun a b => concatenate S16x256x256x16 2 [⟨S16x256x1x16, a⟩, ⟨S16x256x255x16, b⟩] concatenates_S16x256x1x16_S16x256x255x16_S16x256x256x16_d2),
    TRef.unary (TRef.of (T := ⟨S16x256x256x16, .f32⟩) main_arg0) (TRef.of (T := ⟨S16x1x256x16, .f32⟩) main_call7_v0) (extractStridedSlice S16x1x256x16 ![0, 255, 0, 0] · slices_S16x256x256x16_S16x1x256x16_0_255_0_0),
    TRef.unary (TRef.of (T := ⟨S16x256x256x16, .f32⟩) main_arg0) (TRef.of (T := ⟨S16x255x256x16, .f32⟩) main_call7_v1) (extractStridedSlice S16x255x256x16 ![0, 0, 0, 0] · slices_S16x256x256x16_S16x255x256x16_0_0_0_0),
    TRef.binary (TRef.of (T := ⟨S16x1x256x16, .f32⟩) main_call7_v0) (TRef.of (T := ⟨S16x255x256x16, .f32⟩) main_call7_v1) (TRef.of (T := ⟨S16x256x256x16, .f32⟩) main_call7_v2) (fun a b => concatenate S16x256x256x16 1 [⟨S16x1x256x16, a⟩, ⟨S16x255x256x16, b⟩] concatenates_S16x1x256x16_S16x255x256x16_S16x256x256x16_d1),
    TRef.unary (TRef.of (T := ⟨S16x256x256x16, .f32⟩) main_call7_v2) (TRef.of (T := ⟨S16x256x1x16, .f32⟩) main_call7_v3) (extractStridedSlice S16x256x1x16 ![0, 0, 255, 0] · slices_S16x256x256x16_S16x256x1x16_0_0_255_0),
    TRef.unary (TRef.of (T := ⟨S16x256x256x16, .f32⟩) main_call7_v2) (TRef.of (T := ⟨S16x256x255x16, .f32⟩) main_call7_v4) (extractStridedSlice S16x256x255x16 ![0, 0, 0, 0] · slices_S16x256x256x16_S16x256x255x16_0_0_0_0),
    TRef.binary (TRef.of (T := ⟨S16x256x1x16, .f32⟩) main_call7_v3) (TRef.of (T := ⟨S16x256x255x16, .f32⟩) main_call7_v4) (TRef.of (T := ⟨S16x256x256x16, .f32⟩) main_v14) (fun a b => concatenate S16x256x256x16 2 [⟨S16x256x1x16, a⟩, ⟨S16x256x255x16, b⟩] concatenates_S16x256x1x16_S16x256x255x16_S16x256x256x16_d2),
    binary main_v13 main_v14 main_v15 (subf : (⟨S16x256x256x16, .f32⟩ : BufTy).Contents (Elt F) → (⟨S16x256x256x16, .f32⟩ : BufTy).Contents (Elt F) → (⟨S16x256x256x16, .f32⟩ : BufTy).Contents (Elt F)) ]

theorem opsD_sub : (opsD : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub ..⟩

theorem opsD_fresh : ∀ op ∈ (opsD : List (HloOp τ sig (Elt F))), op.fresh = ∅ := by
  intro _ h; (repeat (cases h with | head => rfl | tail _ h => ?_)); exact nomatch h

set_option maxHeartbeats 1000000 in
abbrev opsE : List (HloOp τ sig (Elt F)) :=
  [ TRef.unary (TRef.of (T := ⟨S16x256x256x16, .f32⟩) main_arg0) (TRef.of (T := ⟨S16x255x256x16, .f32⟩) main_call8_v0) (extractStridedSlice S16x255x256x16 ![0, 1, 0, 0] · slices_S16x256x256x16_S16x255x256x16_0_1_0_0),
    TRef.unary (TRef.of (T := ⟨S16x256x256x16, .f32⟩) main_arg0) (TRef.of (T := ⟨S16x1x256x16, .f32⟩) main_call8_v1) (extractStridedSlice S16x1x256x16 ![0, 0, 0, 0] · slices_S16x256x256x16_S16x1x256x16_0_0_0_0),
    TRef.binary (TRef.of (T := ⟨S16x255x256x16, .f32⟩) main_call8_v0) (TRef.of (T := ⟨S16x1x256x16, .f32⟩) main_call8_v1) (TRef.of (T := ⟨S16x256x256x16, .f32⟩) main_call8_v2) (fun a b => concatenate S16x256x256x16 1 [⟨S16x255x256x16, a⟩, ⟨S16x1x256x16, b⟩] concatenates_S16x255x256x16_S16x1x256x16_S16x256x256x16_d1),
    TRef.unary (TRef.of (T := ⟨S16x256x256x16, .f32⟩) main_call8_v2) (TRef.of (T := ⟨S16x256x256x16, .f32⟩) main_call8_v3) (extractStridedSlice S16x256x256x16 ![0, 0, 0, 0] · slices_S16x256x256x16_S16x256x256x16_0_0_0_0),
    TRef.unary (TRef.of (T := ⟨S16x256x256x16, .f32⟩) main_call8_v2) (TRef.of (T := ⟨S16x256x0x16, .f32⟩) main_call8_v4) (extractStridedSlice S16x256x0x16 ![0, 0, 0, 0] · slices_S16x256x256x16_S16x256x0x16_0_0_0_0),
    TRef.binary (TRef.of (T := ⟨S16x256x256x16, .f32⟩) main_call8_v3) (TRef.of (T := ⟨S16x256x0x16, .f32⟩) main_call8_v4) (TRef.of (T := ⟨S16x256x256x16, .f32⟩) main_v16) (fun a b => concatenate S16x256x256x16 2 [⟨S16x256x256x16, a⟩, ⟨S16x256x0x16, b⟩] concatenates_S16x256x256x16_S16x256x0x16_S16x256x256x16_d2),
    TRef.unary (TRef.of (T := ⟨S16x256x256x16, .f32⟩) main_arg0) (TRef.of (T := ⟨S16x1x256x16, .f32⟩) main_call9_v0) (extractStridedSlice S16x1x256x16 ![0, 255, 0, 0] · slices_S16x256x256x16_S16x1x256x16_0_255_0_0),
    TRef.unary (TRef.of (T := ⟨S16x256x256x16, .f32⟩) main_arg0) (TRef.of (T := ⟨S16x255x256x16, .f32⟩) main_call9_v1) (extractStridedSlice S16x255x256x16 ![0, 0, 0, 0] · slices_S16x256x256x16_S16x255x256x16_0_0_0_0),
    TRef.binary (TRef.of (T := ⟨S16x1x256x16, .f32⟩) main_call9_v0) (TRef.of (T := ⟨S16x255x256x16, .f32⟩) main_call9_v1) (TRef.of (T := ⟨S16x256x256x16, .f32⟩) main_call9_v2) (fun a b => concatenate S16x256x256x16 1 [⟨S16x1x256x16, a⟩, ⟨S16x255x256x16, b⟩] concatenates_S16x1x256x16_S16x255x256x16_S16x256x256x16_d1),
    TRef.unary (TRef.of (T := ⟨S16x256x256x16, .f32⟩) main_call9_v2) (TRef.of (T := ⟨S16x256x256x16, .f32⟩) main_call9_v3) (extractStridedSlice S16x256x256x16 ![0, 0, 0, 0] · slices_S16x256x256x16_S16x256x256x16_0_0_0_0),
    TRef.unary (TRef.of (T := ⟨S16x256x256x16, .f32⟩) main_call9_v2) (TRef.of (T := ⟨S16x256x0x16, .f32⟩) main_call9_v4) (extractStridedSlice S16x256x0x16 ![0, 0, 0, 0] · slices_S16x256x256x16_S16x256x0x16_0_0_0_0),
    TRef.binary (TRef.of (T := ⟨S16x256x256x16, .f32⟩) main_call9_v3) (TRef.of (T := ⟨S16x256x0x16, .f32⟩) main_call9_v4) (TRef.of (T := ⟨S16x256x256x16, .f32⟩) main_v17) (fun a b => concatenate S16x256x256x16 2 [⟨S16x256x256x16, a⟩, ⟨S16x256x0x16, b⟩] concatenates_S16x256x256x16_S16x256x0x16_S16x256x256x16_d2),
    binary main_v16 main_v17 main_v18 (subf : (⟨S16x256x256x16, .f32⟩ : BufTy).Contents (Elt F) → (⟨S16x256x256x16, .f32⟩ : BufTy).Contents (Elt F) → (⟨S16x256x256x16, .f32⟩ : BufTy).Contents (Elt F)),
    nullary main_cst_0 (constant S_ .f32 0x40000000#32),
    unary main_cst_0 main_v19 (broadcastInDim S16x256x256x16 ![] bcast_S_S16x256x256x16 : (⟨S_, .f32⟩ : BufTy).Contents (Elt F) → (⟨S16x256x256x16, .f32⟩ : BufTy).Contents (Elt F)),
    binary main_v19 main_v18 main_v20 (mulf : (⟨S16x256x256x16, .f32⟩ : BufTy).Contents (Elt F) → (⟨S16x256x256x16, .f32⟩ : BufTy).Contents (Elt F) → (⟨S16x256x256x16, .f32⟩ : BufTy).Contents (Elt F)),
    binary main_v15 main_v20 main_v21 (addf : (⟨S16x256x256x16, .f32⟩ : BufTy).Contents (Elt F) → (⟨S16x256x256x16, .f32⟩ : BufTy).Contents (Elt F) → (⟨S16x256x256x16, .f32⟩ : BufTy).Contents (Elt F)) ]

theorem opsE_sub : (opsE : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., binary_bufs_sub ..⟩

theorem opsE_fresh : ∀ op ∈ (opsE : List (HloOp τ sig (Elt F))), op.fresh = ∅ := by
  intro _ h; (repeat (cases h with | head => rfl | tail _ h => ?_)); exact nomatch h

set_option maxHeartbeats 1000000 in
abbrev opsF : List (HloOp τ sig (Elt F)) :=
  [ TRef.unary (TRef.of (T := ⟨S16x256x256x16, .f32⟩) main_arg0) (TRef.of (T := ⟨S16x255x256x16, .f32⟩) main_call10_v0) (extractStridedSlice S16x255x256x16 ![0, 1, 0, 0] · slices_S16x256x256x16_S16x255x256x16_0_1_0_0),
    TRef.unary (TRef.of (T := ⟨S16x256x256x16, .f32⟩) main_arg0) (TRef.of (T := ⟨S16x1x256x16, .f32⟩) main_call10_v1) (extractStridedSlice S16x1x256x16 ![0, 0, 0, 0] · slices_S16x256x256x16_S16x1x256x16_0_0_0_0),
    TRef.binary (TRef.of (T := ⟨S16x255x256x16, .f32⟩) main_call10_v0) (TRef.of (T := ⟨S16x1x256x16, .f32⟩) main_call10_v1) (TRef.of (T := ⟨S16x256x256x16, .f32⟩) main_call10_v2) (fun a b => concatenate S16x256x256x16 1 [⟨S16x255x256x16, a⟩, ⟨S16x1x256x16, b⟩] concatenates_S16x255x256x16_S16x1x256x16_S16x256x256x16_d1),
    TRef.unary (TRef.of (T := ⟨S16x256x256x16, .f32⟩) main_call10_v2) (TRef.of (T := ⟨S16x256x255x16, .f32⟩) main_call10_v3) (extractStridedSlice S16x256x255x16 ![0, 0, 1, 0] · slices_S16x256x256x16_S16x256x255x16_0_0_1_0),
    TRef.unary (TRef.of (T := ⟨S16x256x256x16, .f32⟩) main_call10_v2) (TRef.of (T := ⟨S16x256x1x16, .f32⟩) main_call10_v4) (extractStridedSlice S16x256x1x16 ![0, 0, 0, 0] · slices_S16x256x256x16_S16x256x1x16_0_0_0_0),
    TRef.binary (TRef.of (T := ⟨S16x256x255x16, .f32⟩) main_call10_v3) (TRef.of (T := ⟨S16x256x1x16, .f32⟩) main_call10_v4) (TRef.of (T := ⟨S16x256x256x16, .f32⟩) main_v22) (fun a b => concatenate S16x256x256x16 2 [⟨S16x256x255x16, a⟩, ⟨S16x256x1x16, b⟩] concatenates_S16x256x255x16_S16x256x1x16_S16x256x256x16_d2),
    TRef.unary (TRef.of (T := ⟨S16x256x256x16, .f32⟩) main_arg0) (TRef.of (T := ⟨S16x1x256x16, .f32⟩) main_call11_v0) (extractStridedSlice S16x1x256x16 ![0, 255, 0, 0] · slices_S16x256x256x16_S16x1x256x16_0_255_0_0),
    TRef.unary (TRef.of (T := ⟨S16x256x256x16, .f32⟩) main_arg0) (TRef.of (T := ⟨S16x255x256x16, .f32⟩) main_call11_v1) (extractStridedSlice S16x255x256x16 ![0, 0, 0, 0] · slices_S16x256x256x16_S16x255x256x16_0_0_0_0),
    TRef.binary (TRef.of (T := ⟨S16x1x256x16, .f32⟩) main_call11_v0) (TRef.of (T := ⟨S16x255x256x16, .f32⟩) main_call11_v1) (TRef.of (T := ⟨S16x256x256x16, .f32⟩) main_call11_v2) (fun a b => concatenate S16x256x256x16 1 [⟨S16x1x256x16, a⟩, ⟨S16x255x256x16, b⟩] concatenates_S16x1x256x16_S16x255x256x16_S16x256x256x16_d1),
    TRef.unary (TRef.of (T := ⟨S16x256x256x16, .f32⟩) main_call11_v2) (TRef.of (T := ⟨S16x256x255x16, .f32⟩) main_call11_v3) (extractStridedSlice S16x256x255x16 ![0, 0, 1, 0] · slices_S16x256x256x16_S16x256x255x16_0_0_1_0),
    TRef.unary (TRef.of (T := ⟨S16x256x256x16, .f32⟩) main_call11_v2) (TRef.of (T := ⟨S16x256x1x16, .f32⟩) main_call11_v4) (extractStridedSlice S16x256x1x16 ![0, 0, 0, 0] · slices_S16x256x256x16_S16x256x1x16_0_0_0_0),
    TRef.binary (TRef.of (T := ⟨S16x256x255x16, .f32⟩) main_call11_v3) (TRef.of (T := ⟨S16x256x1x16, .f32⟩) main_call11_v4) (TRef.of (T := ⟨S16x256x256x16, .f32⟩) main_v23) (fun a b => concatenate S16x256x256x16 2 [⟨S16x256x255x16, a⟩, ⟨S16x256x1x16, b⟩] concatenates_S16x256x255x16_S16x256x1x16_S16x256x256x16_d2),
    binary main_v22 main_v23 main_v24 (subf : (⟨S16x256x256x16, .f32⟩ : BufTy).Contents (Elt F) → (⟨S16x256x256x16, .f32⟩ : BufTy).Contents (Elt F) → (⟨S16x256x256x16, .f32⟩ : BufTy).Contents (Elt F)),
    binary main_v21 main_v24 main_v25 (addf : (⟨S16x256x256x16, .f32⟩ : BufTy).Contents (Elt F) → (⟨S16x256x256x16, .f32⟩ : BufTy).Contents (Elt F) → (⟨S16x256x256x16, .f32⟩ : BufTy).Contents (Elt F)) ]

theorem opsF_sub : (opsF : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., binary_bufs_sub ..⟩

theorem opsF_fresh : ∀ op ∈ (opsF : List (HloOp τ sig (Elt F))), op.fresh = ∅ := by
  intro _ h; (repeat (cases h with | head => rfl | tail _ h => ?_)); exact nomatch h

set_option maxHeartbeats 1000000 in
abbrev opsG : List (HloOp τ sig (Elt F)) :=
  [ nary ![main_v12, main_v25, main_arg0] main_v26 (fun u => concatenate S16x256x256x48 3 [⟨S16x256x256x16, u 0⟩, ⟨S16x256x256x16, u 1⟩, ⟨S16x256x256x16, u 2⟩] concatenates_S16x256x256x16_S16x256x256x16_S16x256x256x16_S16x256x256x48_d3),
    binary main_v26 main_arg1 main_v27 ((fun l r => Host.dotGeneral dot_S16x256x256x48_S128x48_S16x256x256x128_3_1_012_0_n_n none l r) : (⟨S16x256x256x48, .f32⟩ : BufTy).Contents (Elt F) → (⟨S128x48, .f32⟩ : BufTy).Contents (Elt F) → (⟨S16x256x256x128, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S16x256x256x128, .f32⟩) main_call12_v0) (broadcastInDim S16x256x256x128 ![] bcast_S_S16x256x256x128),
    TRef.binary (TRef.of (T := ⟨S16x256x256x128, .f32⟩) main_v27) (TRef.of (T := ⟨S16x256x256x128, .f32⟩) main_call12_v0) (TRef.of (T := ⟨S16x256x256x128, .f32⟩) main_v28) maximumf,
    binary main_v28 main_arg2 main_v29 ((fun l r => Host.dotGeneral dot_S16x256x256x128_S16x128_S16x256x256x16_3_1_012_0_n_n none l r) : (⟨S16x256x256x128, .f32⟩ : BufTy).Contents (Elt F) → (⟨S16x128, .f32⟩ : BufTy).Contents (Elt F) → (⟨S16x256x256x16, .f32⟩ : BufTy).Contents (Elt F)) ]

theorem opsG_sub : (opsG : List (HloOp τ sig (Elt F))).Forall fun op => op.bufs ⊆ tcRefs τ sig :=
  ⟨nary_bufs_sub .., binary_bufs_sub .., nullary_bufs_sub .., unary_bufs_sub .., binary_bufs_sub .., binary_bufs_sub ..⟩

theorem opsG_fresh : ∀ op ∈ (opsG : List (HloOp τ sig (Elt F))), op.fresh = ∅ := by
  intro _ h; (repeat (cases h with | head => rfl | tail _ h => ?_)); exact nomatch h

/-- A join of three operands given as a literal family of three references: the operation's result with each operand's
    contents at its own reference (the family `fun k => V (xs k)` read at `k = 0, 1, 2`). -/
private theorem nary3_result {τ' : Topo} {sig' : RefSig} {Val : EltTy → Type} {x a b y : Ref sig' .tc}
    (f : ((k : Fin 3) → ((![x, a, b] : Fin 3 → Ref sig' .tc) k).ty.Contents Val) → y.ty.Contents Val) (hxs hy)
    (V : Valuation τ' sig' Val) :
    (nary (τ := τ') ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- The results of a line of operations one of which joins three references: each operation's result at its own
    buffer is its function's value, at any other buffer what was there. -/
local macro "after_results3" : tactic =>
  `(tactic| (simp only [after_cons, after_nil]
             repeat (first
               | rw [nullary_result] | rw [unary_result] | rw [binary_result] | rw [nary3_result]
               | (rw [nullary_result_ne]; rotate_left; decide)
               | (rw [unary_result_ne]; rotate_left; decide)
               | (rw [binary_result_ne]; rotate_left; decide)
               | (rw [nary_result_ne]; rotate_left; decide))))

/-! ## The stretches

For a valuation `W` of the buffers that holds the argument `x0` at the first argument's buffer (and the stages a
stretch reads at their buffers), the stretch leaves its last stage at that stage's buffer; the argument buffers, and
the first joined feature until it is read, are written by no operation of the stretch. -/

/-- The first stretch: two shifted copies of the grid and their difference. -/
theorem stA (W : Valuation τ sig (Elt F)) (x0 : (⟨S16x256x256x16, .f32⟩ : BufTy).Contents (Elt F)) (h0 : W (Proc.devRef .tc main_arg0) = x0) :
    after opsA W (Proc.devRef .tc main_v2) = val_main_v2 (F := F) x0 := by
  subst h0
  after_results
  rfl

theorem keepA_arg0 (W : Valuation τ sig (Elt F)) :
    after opsA W (Proc.devRef .tc main_arg0) = W (Proc.devRef .tc main_arg0) := by
  after_results_simp

theorem keepA_arg1 (W : Valuation τ sig (Elt F)) :
    after opsA W (Proc.devRef .tc main_arg1) = W (Proc.devRef .tc main_arg1) := by
  after_results_simp

theorem keepA_arg2 (W : Valuation τ sig (Elt F)) :
    after opsA W (Proc.devRef .tc main_arg2) = W (Proc.devRef .tc main_arg2) := by
  after_results_simp

/-- The second stretch: two more copies, their difference doubled and added to the first difference. -/
theorem stB (W : Valuation τ sig (Elt F)) (x0 : (⟨S16x256x256x16, .f32⟩ : BufTy).Contents (Elt F)) (h0 : W (Proc.devRef .tc main_arg0) = x0)
    (h2 : W (Proc.devRef .tc main_v2) = val_main_v2 (F := F) x0) :
    after opsB W (Proc.devRef .tc main_v8) = val_main_v8 (F := F) x0 := by
  subst h0
  after_results
  rw [h2]
  rfl

theorem keepB_arg0 (W : Valuation τ sig (Elt F)) :
    after opsB W (Proc.devRef .tc main_arg0) = W (Proc.devRef .tc main_arg0) := by
  after_results_simp

theorem keepB_arg1 (W : Valuation τ sig (Elt F)) :
    after opsB W (Proc.devRef .tc main_arg1) = W (Proc.devRef .tc main_arg1) := by
  after_results_simp

theorem keepB_arg2 (W : Valuation τ sig (Elt F)) :
    after opsB W (Proc.devRef .tc main_arg2) = W (Proc.devRef .tc main_arg2) := by
  after_results_simp

/-- The third stretch: the last two copies of the first response, whose difference completes it. -/
theorem stC (W : Valuation τ sig (Elt F)) (x0 : (⟨S16x256x256x16, .f32⟩ : BufTy).Contents (Elt F)) (h0 : W (Proc.devRef .tc main_arg0) = x0)
    (h8 : W (Proc.devRef .tc main_v8) = val_main_v8 (F := F) x0) :
    after opsC W (Proc.devRef .tc main_v12) = val_main_v12 (F := F) x0 := by
  subst h0
  after_results
  rw [h8]
  rfl

theorem keepC_arg0 (W : Valuation τ sig (Elt F)) :
    after opsC W (Proc.devRef .tc main_arg0) = W (Proc.devRef .tc main_arg0) := by
  after_results_simp

theorem keepC_arg1 (W : Valuation τ sig (Elt F)) :
    after opsC W (Proc.devRef .tc main_arg1) = W (Proc.devRef .tc main_arg1) := by
  after_results_simp

theorem keepC_arg2 (W : Valuation τ sig (Elt F)) :
    after opsC W (Proc.devRef .tc main_arg2) = W (Proc.devRef .tc main_arg2) := by
  after_results_simp

/-- The fourth stretch: the second response's first two copies and their difference. -/
theorem stD (W : Valuation τ sig (Elt F)) (x0 : (⟨S16x256x256x16, .f32⟩ : BufTy).Contents (Elt F)) (h0 : W (Proc.devRef .tc main_arg0) = x0) :
    after opsD W (Proc.devRef .tc main_v15) = val_main_v15 (F := F) x0 := by
  subst h0
  after_results
  rfl

theorem keepD_arg0 (W : Valuation τ sig (Elt F)) :
    after opsD W (Proc.devRef .tc main_arg0) = W (Proc.devRef .tc main_arg0) := by
  after_results_simp

theorem keepD_arg1 (W : Valuation τ sig (Elt F)) :
    after opsD W (Proc.devRef .tc main_arg1) = W (Proc.devRef .tc main_arg1) := by
  after_results_simp

theorem keepD_arg2 (W : Valuation τ sig (Elt F)) :
    after opsD W (Proc.devRef .tc main_arg2) = W (Proc.devRef .tc main_arg2) := by
  after_results_simp

theorem keepD_v12 (W : Valuation τ sig (Elt F)) :
    after opsD W (Proc.devRef .tc main_v12) = W (Proc.devRef .tc main_v12) := by
  after_results_simp

/-- The fifth stretch: two more copies, their difference doubled and added. -/
theorem stE (W : Valuation τ sig (Elt F)) (x0 : (⟨S16x256x256x16, .f32⟩ : BufTy).Contents (Elt F)) (h0 : W (Proc.devRef .tc main_arg0) = x0)
    (h15 : W (Proc.devRef .tc main_v15) = val_main_v15 (F := F) x0) :
    after opsE W (Proc.devRef .tc main_v21) = val_main_v21 (F := F) x0 := by
  subst h0
  after_results
  rw [h15]
  rfl

theorem keepE_arg0 (W : Valuation τ sig (Elt F)) :
    after opsE W (Proc.devRef .tc main_arg0) = W (Proc.devRef .tc main_arg0) := by
  after_results_simp

theorem keepE_arg1 (W : Valuation τ sig (Elt F)) :
    after opsE W (Proc.devRef .tc main_arg1) = W (Proc.devRef .tc main_arg1) := by
  after_results_simp

theorem keepE_arg2 (W : Valuation τ sig (Elt F)) :
    after opsE W (Proc.devRef .tc main_arg2) = W (Proc.devRef .tc main_arg2) := by
  after_results_simp

theorem keepE_v12 (W : Valuation τ sig (Elt F)) :
    after opsE W (Proc.devRef .tc main_v12) = W (Proc.devRef .tc main_v12) := by
  after_results_simp

/-- The sixth stretch: the last two copies, whose difference completes the second response. -/
theorem stF (W : Valuation τ sig (Elt F)) (x0 : (⟨S16x256x256x16, .f32⟩ : BufTy).Contents (Elt F)) (h0 : W (Proc.devRef .tc main_arg0) = x0)
    (h21 : W (Proc.devRef .tc main_v21) = val_main_v21 (F := F) x0) :
    after opsF W (Proc.devRef .tc main_v25) = val_main_v25 (F := F) x0 := by
  subst h0
  after_results
  rw [h21]
  rfl

theorem keepF_arg0 (W : Valuation τ sig (Elt F)) :
    after opsF W (Proc.devRef .tc main_arg0) = W (Proc.devRef .tc main_arg0) := by
  after_results_simp

theorem keepF_arg1 (W : Valuation τ sig (Elt F)) :
    after opsF W (Proc.devRef .tc main_arg1) = W (Proc.devRef .tc main_arg1) := by
  after_results_simp

theorem keepF_arg2 (W : Valuation τ sig (Elt F)) :
    after opsF W (Proc.devRef .tc main_arg2) = W (Proc.devRef .tc main_arg2) := by
  after_results_simp

theorem keepF_v12 (W : Valuation τ sig (Elt F)) :
    after opsF W (Proc.devRef .tc main_v12) = W (Proc.devRef .tc main_v12) := by
  after_results_simp

/-- The last stretch: the two responses and the grid joined along the feature axis, contracted with the first
    weight, the maximum with zero, contracted with the second weight. -/
theorem stG (W : Valuation τ sig (Elt F)) (x0 : (⟨S16x256x256x16, .f32⟩ : BufTy).Contents (Elt F)) (x1 : (⟨S128x48, .f32⟩ : BufTy).Contents (Elt F)) (x2 : (⟨S16x128, .f32⟩ : BufTy).Contents (Elt F))
    (h0 : W (Proc.devRef .tc main_arg0) = x0) (h1 : W (Proc.devRef .tc main_arg1) = x1) (h2 : W (Proc.devRef .tc main_arg2) = x2)
    (h12 : W (Proc.devRef .tc main_v12) = val_main_v12 (F := F) x0) (h25 : W (Proc.devRef .tc main_v25) = val_main_v25 (F := F) x0) :
    after opsG W (Proc.devRef .tc main_v29) = val_main_v29 (F := F) x0 x1 x2 := by
  subst h0 h1 h2
  after_results3
  rw [h12, h25]
  rfl

theorem keepG_arg0 (W : Valuation τ sig (Elt F)) :
    after opsG W (Proc.devRef .tc main_arg0) = W (Proc.devRef .tc main_arg0) := by
  after_results_simp

theorem keepG_arg1 (W : Valuation τ sig (Elt F)) :
    after opsG W (Proc.devRef .tc main_arg1) = W (Proc.devRef .tc main_arg1) := by
  after_results_simp

theorem keepG_arg2 (W : Valuation τ sig (Elt F)) :
    after opsG W (Proc.devRef .tc main_arg2) = W (Proc.devRef .tc main_arg2) := by
  after_results_simp

/-! ## The whole line -/

/-- @main's 94 operations: the seven stretches in order. -/
abbrev opsAll : List (HloOp τ sig (Elt F)) := opsA ++ (opsB ++ (opsC ++ (opsD ++ (opsE ++ (opsF ++ opsG)))))

set_option maxRecDepth 8192 in
set_option maxHeartbeats 4000000 in
/-- @main is the straight line of the seven stretches (each call's body unfolded in its place). -/
theorem main_eq (c : Dev nD) : main (F := F) c = seq opsAll := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem opsAll_sub : (opsAll : List (HloOp τ sig (Elt F))).Forall fun op => op.bufs ⊆ tcRefs τ sig :=
  List.forall_append.2 ⟨opsA_sub, List.forall_append.2 ⟨opsB_sub, List.forall_append.2 ⟨opsC_sub,
    List.forall_append.2 ⟨opsD_sub, List.forall_append.2 ⟨opsE_sub, List.forall_append.2 ⟨opsF_sub, opsG_sub⟩⟩⟩⟩⟩⟩

/-- Every operation determines its results. -/
theorem opsAll_fresh : ∀ op ∈ (opsAll : List (HloOp τ sig (Elt F))), op.fresh = ∅ := by
  intro op h
  rcases List.mem_append.1 h with h | h
  · exact opsA_fresh op h
  rcases List.mem_append.1 h with h | h
  · exact opsB_fresh op h
  rcases List.mem_append.1 h with h | h
  · exact opsC_fresh op h
  rcases List.mem_append.1 h with h | h
  · exact opsD_fresh op h
  rcases List.mem_append.1 h with h | h
  · exact opsE_fresh op h
  rcases List.mem_append.1 h with h | h
  · exact opsF_fresh op h
  · exact opsG_fresh op h

/-- The contents after the whole line are the contents after the seven stretches, one after the other. -/
theorem after_all_eq (V : Valuation τ sig (Elt F)) :
    after opsAll V = after opsG (after opsF (after opsE (after opsD (after opsC (after opsB (after opsA V)))))) := by
  show after (opsA ++ (opsB ++ (opsC ++ (opsD ++ (opsE ++ (opsF ++ opsG)))))) V = _
  rw [after_append, after_append, after_append, after_append, after_append, after_append]

/-- After the whole line the result buffer holds the last stage of the three argument arrays, and the argument buffers
    are as they were: each stretch leaves its stage from the stages the earlier stretches left, and writes no argument. -/
theorem after_all (V : Valuation τ sig (Elt F)) :
    after opsAll V (Proc.devRef .tc main_v29)
        = val_main_v29 (F := F) (V (Proc.devRef .tc main_arg0)) (V (Proc.devRef .tc main_arg1)) (V (Proc.devRef .tc main_arg2))
      ∧ after opsAll V (Proc.devRef .tc main_arg0) = V (Proc.devRef .tc main_arg0)
      ∧ after opsAll V (Proc.devRef .tc main_arg1) = V (Proc.devRef .tc main_arg1)
      ∧ after opsAll V (Proc.devRef .tc main_arg2) = V (Proc.devRef .tc main_arg2) := by
  rw [after_all_eq]
  -- the arguments, stretch by stretch
  have a0 := keepA_arg0 V
  have a1 := keepA_arg1 V
  have a2 := keepA_arg2 V
  have b0 := (keepB_arg0 (after opsA V)).trans a0
  have b1 := (keepB_arg1 (after opsA V)).trans a1
  have b2 := (keepB_arg2 (after opsA V)).trans a2
  have c0 := (keepC_arg0 (after opsB (after opsA V))).trans b0
  have c1 := (keepC_arg1 (after opsB (after opsA V))).trans b1
  have c2 := (keepC_arg2 (after opsB (after opsA V))).trans b2
  have d0 := (keepD_arg0 (after opsC (after opsB (after opsA V)))).trans c0
  have d1 := (keepD_arg1 (after opsC (after opsB (after opsA V)))).trans c1
  have d2 := (keepD_arg2 (after opsC (after opsB (after opsA V)))).trans c2
  have e0 := (keepE_arg0 (after opsD (after opsC (after opsB (after opsA V))))).trans d0
  have e1 := (keepE_arg1 (after opsD (after opsC (after opsB (after opsA V))))).trans d1
  have e2 := (keepE_arg2 (after opsD (after opsC (after opsB (after opsA V))))).trans d2
  have f0 := (keepF_arg0 (after opsE (after opsD (after opsC (after opsB (after opsA V)))))).trans e0
  have f1 := (keepF_arg1 (after opsE (after opsD (after opsC (after opsB (after opsA V)))))).trans e1
  have f2 := (keepF_arg2 (after opsE (after opsD (after opsC (after opsB (after opsA V)))))).trans e2
  -- the stages
  have sA := stA V _ rfl
  have sB := stB (after opsA V) _ a0 sA
  have sC := stC (after opsB (after opsA V)) _ b0 sB
  have sD := stD (after opsC (after opsB (after opsA V))) _ c0
  have sE := stE (after opsD (after opsC (after opsB (after opsA V)))) _ d0 sD
  have sF := stF (after opsE (after opsD (after opsC (after opsB (after opsA V))))) _ e0 sE
  -- the first response stays where the third stretch left it until the join reads it
  have k12 := ((keepF_v12 (after opsE (after opsD (after opsC (after opsB (after opsA V)))))).trans ((keepE_v12 (after opsD (after opsC (after opsB (after opsA V))))).trans (keepD_v12 (after opsC (after opsB (after opsA V)))))).trans sC
  exact ⟨stG (after opsF (after opsE (after opsD (after opsC (after opsB (after opsA V)))))) _ _ _ f0 f1 f2 k12 sF,
    (keepG_arg0 (after opsF (after opsE (after opsD (after opsC (after opsB (after opsA V))))))).trans f0, (keepG_arg1 (after opsF (after opsE (after opsD (after opsC (after opsB (after opsA V))))))).trans f1, (keepG_arg2 (after opsF (after opsE (after opsD (after opsC (after opsB (after opsA V))))))).trans f2⟩

/-- Every weakly fair execution of the reference's @main terminates, faulting nowhere, with its result at the last
    stage of the argument arrays and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29)
        = val_main_v29 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
      obtain ⟨e29, e0, e1, e2⟩ := after_all (F := F) (launchContents m c)
      exact ⟨(h c main_v29).trans e29, (h c main_arg0).trans e0, (h c main_arg1).trans e1, (h c main_arg2).trans e2⟩)
    (run_seq scopedRefs_eq scopedSems_eq defs main (fun _ => opsAll) main_eq (fun _ => opsAll_sub) m ρ (fun _ => opsAll_fresh))

end Cert.RefRun

end
-- ==== Proof.RefRoll.lean ====
/-
  The reference's twelve shifted copies of the state grid, read at an index. jnp.roll by (±1 or 0) rows and
  (±1 or 0) columns is printed as two slices joined along the row axis, then two slices of that joined along the
  column axis; entry (b, h, w, c) of the result is the state grid's entry at the neighbouring row and column,
  around the circle of 256.
-/
import proofs.«110376_j15324443312135_1_alg».proof.Proof.RefRead
import proofs.«110376_j15324443312135_1_alg».proof.Proof.Spec
import Idealize.ShloMosaic.Lib.ValueIdx
import Idealize.ShloMosaic.Lib.ValueLayout
import Idealize.ShloMosaic.Lib.Pipeline.Value

set_option maxRecDepth 16384

noncomputable section

namespace Cert.RefValue

open Idealize.ShloMosaic Idealize.ShloMosaic.ValueIdx
open Cert.ReferenceIdeal Cert.ReferenceIdeal.Gen Cert.ReferenceIdeal.ReadP Cert.Spec

section Generic
variable {α : Type}

/-- A slice of a rank-4 array with offsets (o₀, o₁, o₂, o₃), read at a point: the array's entry whose every
    coordinate is the offset plus the point's coordinate. -/
private theorem slice_at {A B C D A' B' C' D' o₀ o₁ o₂ o₃ : Nat}
    (x : (⟨4, ![A, B, C, D]⟩ : Shape).Idx → α)
    (hS : (⟨4, ![A, B, C, D]⟩ : Shape).Slices ![o₀, o₁, o₂, o₃] ⟨4, ![A', B', C', D']⟩)
    (b : Fin A') (h : Fin B') (w : Fin C') (c : Fin D')
    (b' : Fin A) (h' : Fin B) (w' : Fin C) (c' : Fin D)
    (hb : b'.val = o₀ + b.val) (hh : h'.val = o₁ + h.val) (hw : w'.val = o₂ + w.val) (hcc : c'.val = o₃ + c.val) :
    extractStridedSlice (⟨4, ![A', B', C', D']⟩ : Shape) ![o₀, o₁, o₂, o₃] x hS (ix4 b h w c) = x (ix4 b' h' w' c') := by
  refine extractStridedSlice_apply ![o₀, o₁, o₂, o₃] x hS (ix4 b h w c) (ix4 b' h' w' c') (fun a => ?_)
  match a with
  | ⟨0, _⟩ => exact hb
  | ⟨1, _⟩ => exact hh
  | ⟨2, _⟩ => exact hw
  | ⟨3, _⟩ => exact hcc

/-- Two rank-4 arrays joined along the row axis, read at a point: below the first piece's extent n₁ the first
    piece at the same point, from n₁ on the second piece n₁ rows earlier. -/
private theorem cat_rows {A n₁ n₂ n C D : Nat}
    (y₁ : (⟨4, ![A, n₁, C, D]⟩ : Shape).Idx → α) (y₂ : (⟨4, ![A, n₂, C, D]⟩ : Shape).Idx → α)
    (hc : Shape.Concatenates [(⟨4, ![A, n₁, C, D]⟩ : Shape), ⟨4, ![A, n₂, C, D]⟩] ⟨4, ![A, n, C, D]⟩ 1)
    (hn : n = n₁ + n₂) (b : Fin A) (h : Fin n) (w : Fin C) (c : Fin D) :
    concatenate (⟨4, ![A, n, C, D]⟩ : Shape) 1 [⟨_, y₁⟩, ⟨_, y₂⟩] hc (ix4 b h w c)
      = if hlt : h.val < n₁ then y₁ (ix4 b ⟨h.val, hlt⟩ w c)
        else y₂ (ix4 b ⟨h.val - n₁, by have := h.isLt; omega⟩ w c) := by
  split
  · next hlt =>
    refine concatenate_pair_apply_left _ y₁ y₂ hc (ix4 b h w c) rfl (ix4 b ⟨h.val, hlt⟩ w c) (fun a => ?_)
    match a with
    | ⟨0, _⟩ => rfl
    | ⟨1, _⟩ => rfl
    | ⟨2, _⟩ => rfl
    | ⟨3, _⟩ => rfl
  · next hge =>
    refine concatenate_pair_apply_right _ y₁ y₂ hc (ix4 b h w c) rfl rfl
      (ix4 b ⟨h.val - n₁, by have := h.isLt; omega⟩ w c) (fun a ha => ?_) ?_
    · match a with
      | ⟨0, _⟩ => rfl
      | ⟨1, _⟩ => exact absurd rfl ha
      | ⟨2, _⟩ => rfl
      | ⟨3, _⟩ => rfl
    · show (h.val - n₁) + n₁ = h.val
      omega

/-- Two rank-4 arrays joined along the column axis, read at a point. -/
private theorem cat_cols {A B n₁ n₂ n D : Nat}
    (y₁ : (⟨4, ![A, B, n₁, D]⟩ : Shape).Idx → α) (y₂ : (⟨4, ![A, B, n₂, D]⟩ : Shape).Idx → α)
    (hc : Shape.Concatenates [(⟨4, ![A, B, n₁, D]⟩ : Shape), ⟨4, ![A, B, n₂, D]⟩] ⟨4, ![A, B, n, D]⟩ 2)
    (hn : n = n₁ + n₂) (b : Fin A) (h : Fin B) (w : Fin n) (c : Fin D) :
    concatenate (⟨4, ![A, B, n, D]⟩ : Shape) 2 [⟨_, y₁⟩, ⟨_, y₂⟩] hc (ix4 b h w c)
      = if hlt : w.val < n₁ then y₁ (ix4 b h ⟨w.val, hlt⟩ c)
        else y₂ (ix4 b h ⟨w.val - n₁, by have := w.isLt; omega⟩ c) := by
  split
  · next hlt =>
    refine concatenate_pair_apply_left _ y₁ y₂ hc (ix4 b h w c) rfl (ix4 b h ⟨w.val, hlt⟩ c) (fun a => ?_)
    match a with
    | ⟨0, _⟩ => rfl
    | ⟨1, _⟩ => rfl
    | ⟨2, _⟩ => rfl
    | ⟨3, _⟩ => rfl
  · next hge =>
    refine concatenate_pair_apply_right _ y₁ y₂ hc (ix4 b h w c) rfl rfl
      (ix4 b h ⟨w.val - n₁, by have := w.isLt; omega⟩ c) (fun a ha => ?_) ?_
    · match a with
      | ⟨0, _⟩ => rfl
      | ⟨1, _⟩ => rfl
      | ⟨2, _⟩ => exact absurd rfl ha
      | ⟨3, _⟩ => rfl
    · show (w.val - n₁) + n₁ = w.val
      omega

end Generic

section Patterns
variable {α : Type}

/-- Rows rolled forward by one: the last row put in front of the first 255. Entry h is the array's row before h,
    around the circle: row 255 at h = 0 (0 + 255 = 255 mod 256), row h - 1 from h = 1 on. -/
private theorem rowPrev (x : S16x256x256x16.Idx → α)
    (hS₁ : S16x256x256x16.Slices ![0, 255, 0, 0] S16x1x256x16) (hS₂ : S16x256x256x16.Slices ![0, 0, 0, 0] S16x255x256x16)
    (hc : Shape.Concatenates [S16x1x256x16, S16x255x256x16] S16x256x256x16 1)
    (b : Fin 16) (h w : Fin 256) (c : Fin 16) :
    concatenate S16x256x256x16 1 [⟨S16x1x256x16, extractStridedSlice S16x1x256x16 ![0, 255, 0, 0] x hS₁⟩,
      ⟨S16x255x256x16, extractStridedSlice S16x255x256x16 ![0, 0, 0, 0] x hS₂⟩] hc (ix4 b h w c)
      = x (ix4 b (prev h) w c) := by
  have hh := h.isLt
  refine (cat_rows _ _ hc rfl b h w c).trans ?_
  by_cases hlt : h.val < 1
  · rw [dif_pos hlt]
    exact slice_at x hS₁ b ⟨h.val, hlt⟩ w c b (prev h) w c (by omega)
      (by show (h.val + 255) % 256 = 255 + h.val; omega) (by omega) (by omega)
  · rw [dif_neg hlt]
    exact slice_at x hS₂ b ⟨h.val - 1, _⟩ w c b (prev h) w c (by omega)
      (by show (h.val + 255) % 256 = 0 + (h.val - 1); omega) (by omega) (by omega)

/-- Rows rolled back by one: rows 1 to 255 put in front of row 0. Entry h is the array's row after h, around the
    circle: row h + 1 up to h = 254, row 0 at h = 255 (255 + 1 = 0 mod 256). -/
private theorem rowNext (x : S16x256x256x16.Idx → α)
    (hS₁ : S16x256x256x16.Slices ![0, 1, 0, 0] S16x255x256x16) (hS₂ : S16x256x256x16.Slices ![0, 0, 0, 0] S16x1x256x16)
    (hc : Shape.Concatenates [S16x255x256x16, S16x1x256x16] S16x256x256x16 1)
    (b : Fin 16) (h w : Fin 256) (c : Fin 16) :
    concatenate S16x256x256x16 1 [⟨S16x255x256x16, extractStridedSlice S16x255x256x16 ![0, 1, 0, 0] x hS₁⟩,
      ⟨S16x1x256x16, extractStridedSlice S16x1x256x16 ![0, 0, 0, 0] x hS₂⟩] hc (ix4 b h w c)
      = x (ix4 b (next h) w c) := by
  have hh := h.isLt
  refine (cat_rows _ _ hc rfl b h w c).trans ?_
  by_cases hlt : h.val < 255
  · rw [dif_pos hlt]
    exact slice_at x hS₁ b ⟨h.val, hlt⟩ w c b (next h) w c (by omega)
      (by show (h.val + 1) % 256 = 1 + h.val; omega) (by omega) (by omega)
  · rw [dif_neg hlt]
    exact slice_at x hS₂ b ⟨h.val - 255, _⟩ w c b (next h) w c (by omega)
      (by show (h.val + 1) % 256 = 0 + (h.val - 255); omega) (by omega) (by omega)

/-- Rows not rolled: the whole array joined with an empty piece. Every row lies in the first piece. -/
private theorem rowId (x : S16x256x256x16.Idx → α)
    (hS₁ : S16x256x256x16.Slices ![0, 0, 0, 0] S16x256x256x16) (hS₂ : S16x256x256x16.Slices ![0, 0, 0, 0] S16x0x256x16)
    (hc : Shape.Concatenates [S16x256x256x16, S16x0x256x16] S16x256x256x16 1)
    (b : Fin 16) (h w : Fin 256) (c : Fin 16) :
    concatenate S16x256x256x16 1 [⟨S16x256x256x16, extractStridedSlice S16x256x256x16 ![0, 0, 0, 0] x hS₁⟩,
      ⟨S16x0x256x16, extractStridedSlice S16x0x256x16 ![0, 0, 0, 0] x hS₂⟩] hc (ix4 b h w c)
      = x (ix4 b h w c) := by
  have hh := h.isLt
  refine (cat_rows _ _ hc rfl b h w c).trans ?_
  rw [dif_pos (show h.val < 256 from hh)]
  exact slice_at x hS₁ b ⟨h.val, hh⟩ w c b h w c (by omega) (by show h.val = 0 + h.val; omega) (by omega) (by omega)

/-- Columns rolled back by one: entry w is the array's column after w, around the circle. -/
private theorem colNext (y : S16x256x256x16.Idx → α)
    (hS₁ : S16x256x256x16.Slices ![0, 0, 1, 0] S16x256x255x16) (hS₂ : S16x256x256x16.Slices ![0, 0, 0, 0] S16x256x1x16)
    (hc : Shape.Concatenates [S16x256x255x16, S16x256x1x16] S16x256x256x16 2)
    (b : Fin 16) (h w : Fin 256) (c : Fin 16) :
    concatenate S16x256x256x16 2 [⟨S16x256x255x16, extractStridedSlice S16x256x255x16 ![0, 0, 1, 0] y hS₁⟩,
      ⟨S16x256x1x16, extractStridedSlice S16x256x1x16 ![0, 0, 0, 0] y hS₂⟩] hc (ix4 b h w c)
      = y (ix4 b h (next w) c) := by
  have hw := w.isLt
  refine (cat_cols _ _ hc rfl b h w c).trans ?_
  by_cases hlt : w.val < 255
  · rw [dif_pos hlt]
    exact slice_at y hS₁ b h ⟨w.val, hlt⟩ c b h (next w) c (by omega) (by omega)
      (by show (w.val + 1) % 256 = 1 + w.val; omega) (by omega)
  · rw [dif_neg hlt]
    exact slice_at y hS₂ b h ⟨w.val - 255, _⟩ c b h (next w) c (by omega) (by omega)
      (by show (w.val + 1) % 256 = 0 + (w.val - 255); omega) (by omega)

/-- Columns rolled forward by one: entry w is the array's column before w, around the circle. -/
private theorem colPrev (y : S16x256x256x16.Idx → α)
    (hS₁ : S16x256x256x16.Slices ![0, 0, 255, 0] S16x256x1x16) (hS₂ : S16x256x256x16.Slices ![0, 0, 0, 0] S16x256x255x16)
    (hc : Shape.Concatenates [S16x256x1x16, S16x256x255x16] S16x256x256x16 2)
    (b : Fin 16) (h w : Fin 256) (c : Fin 16) :
    concatenate S16x256x256x16 2 [⟨S16x256x1x16, extractStridedSlice S16x256x1x16 ![0, 0, 255, 0] y hS₁⟩,
      ⟨S16x256x255x16, extractStridedSlice S16x256x255x16 ![0, 0, 0, 0] y hS₂⟩] hc (ix4 b h w c)
      = y (ix4 b h (prev w) c) := by
  have hw := w.isLt
  refine (cat_cols _ _ hc rfl b h w c).trans ?_
  by_cases hlt : w.val < 1
  · rw [dif_pos hlt]
    exact slice_at y hS₁ b h ⟨w.val, hlt⟩ c b h (prev w) c (by omega) (by omega)
      (by show (w.val + 255) % 256 = 255 + w.val; omega) (by omega)
  · rw [dif_neg hlt]
    exact slice_at y hS₂ b h ⟨w.val - 1, _⟩ c b h (prev w) c (by omega) (by omega)
      (by show (w.val + 255) % 256 = 0 + (w.val - 1); omega) (by omega)

/-- Columns not rolled: the whole array joined with an empty piece. -/
private theorem colId (y : S16x256x256x16.Idx → α)
    (hS₁ : S16x256x256x16.Slices ![0, 0, 0, 0] S16x256x256x16) (hS₂ : S16x256x256x16.Slices ![0, 0, 0, 0] S16x256x0x16)
    (hc : Shape.Concatenates [S16x256x256x16, S16x256x0x16] S16x256x256x16 2)
    (b : Fin 16) (h w : Fin 256) (c : Fin 16) :
    concatenate S16x256x256x16 2 [⟨S16x256x256x16, extractStridedSlice S16x256x256x16 ![0, 0, 0, 0] y hS₁⟩,
      ⟨S16x256x0x16, extractStridedSlice S16x256x0x16 ![0, 0, 0, 0] y hS₂⟩] hc (ix4 b h w c)
      = y (ix4 b h w c) := by
  have hw := w.isLt
  refine (cat_cols _ _ hc rfl b h w c).trans ?_
  rw [dif_pos (show w.val < 256 from hw)]
  exact slice_at y hS₁ b h ⟨w.val, hw⟩ c b h w c (by omega) (by omega) (by show w.val = 0 + w.val; omega) (by omega)

end Patterns

variable (x : (⟨S16x256x256x16, .f32⟩ : BufTy).Contents (Elt Ideal))

/- Each shifted copy is a column roll of a row roll of the state grid: the column pattern reads the row-rolled array
   at the neighbouring column, the row pattern reads the state grid at the neighbouring row. -/

theorem roll_v0 (b : Fin 16) (h w : Fin 256) (c : Fin 16) : val_main_v0 (F := Ideal) x (ix4 b h w c) = x (ix4 b (prev h) (next w) c) :=
  (colNext (val_main_call0_v2 (F := Ideal) x) _ _ _ b h w c).trans (rowPrev x _ _ _ b h (next w) c)
theorem roll_v1 (b : Fin 16) (h w : Fin 256) (c : Fin 16) : val_main_v1 (F := Ideal) x (ix4 b h w c) = x (ix4 b (prev h) (prev w) c) :=
  (colPrev (val_main_call1_v2 (F := Ideal) x) _ _ _ b h w c).trans (rowPrev x _ _ _ b h (prev w) c)
theorem roll_v3 (b : Fin 16) (h w : Fin 256) (c : Fin 16) : val_main_v3 (F := Ideal) x (ix4 b h w c) = x (ix4 b h (next w) c) :=
  (colNext (val_main_call2_v2 (F := Ideal) x) _ _ _ b h w c).trans (rowId x _ _ _ b h (next w) c)
theorem roll_v4 (b : Fin 16) (h w : Fin 256) (c : Fin 16) : val_main_v4 (F := Ideal) x (ix4 b h w c) = x (ix4 b h (prev w) c) :=
  (colPrev (val_main_call3_v2 (F := Ideal) x) _ _ _ b h w c).trans (rowId x _ _ _ b h (prev w) c)
theorem roll_v9 (b : Fin 16) (h w : Fin 256) (c : Fin 16) : val_main_v9 (F := Ideal) x (ix4 b h w c) = x (ix4 b (next h) (next w) c) :=
  (colNext (val_main_call4_v2 (F := Ideal) x) _ _ _ b h w c).trans (rowNext x _ _ _ b h (next w) c)
theorem roll_v10 (b : Fin 16) (h w : Fin 256) (c : Fin 16) : val_main_v10 (F := Ideal) x (ix4 b h w c) = x (ix4 b (next h) (prev w) c) :=
  (colPrev (val_main_call5_v2 (F := Ideal) x) _ _ _ b h w c).trans (rowNext x _ _ _ b h (prev w) c)
theorem roll_v13 (b : Fin 16) (h w : Fin 256) (c : Fin 16) : val_main_v13 (F := Ideal) x (ix4 b h w c) = x (ix4 b (next h) (prev w) c) :=
  (colPrev (val_main_call6_v2 (F := Ideal) x) _ _ _ b h w c).trans (rowNext x _ _ _ b h (prev w) c)
theorem roll_v14 (b : Fin 16) (h w : Fin 256) (c : Fin 16) : val_main_v14 (F := Ideal) x (ix4 b h w c) = x (ix4 b (prev h) (prev w) c) :=
  (colPrev (val_main_call7_v2 (F := Ideal) x) _ _ _ b h w c).trans (rowPrev x _ _ _ b h (prev w) c)
theorem roll_v16 (b : Fin 16) (h w : Fin 256) (c : Fin 16) : val_main_v16 (F := Ideal) x (ix4 b h w c) = x (ix4 b (next h) w c) :=
  (colId (val_main_call8_v2 (F := Ideal) x) _ _ _ b h w c).trans (rowNext x _ _ _ b h w c)
theorem roll_v17 (b : Fin 16) (h w : Fin 256) (c : Fin 16) : val_main_v17 (F := Ideal) x (ix4 b h w c) = x (ix4 b (prev h) w c) :=
  (colId (val_main_call9_v2 (F := Ideal) x) _ _ _ b h w c).trans (rowPrev x _ _ _ b h w c)
theorem roll_v22 (b : Fin 16) (h w : Fin 256) (c : Fin 16) : val_main_v22 (F := Ideal) x (ix4 b h w c) = x (ix4 b (next h) (next w) c) :=
  (colNext (val_main_call10_v2 (F := Ideal) x) _ _ _ b h w c).trans (rowNext x _ _ _ b h (next w) c)
theorem roll_v23 (b : Fin 16) (h w : Fin 256) (c : Fin 16) : val_main_v23 (F := Ideal) x (ix4 b h w c) = x (ix4 b (prev h) (next w) c) :=
  (colNext (val_main_call11_v2 (F := Ideal) x) _ _ _ b h w c).trans (rowPrev x _ _ _ b h (next w) c)

end Cert.RefValue

end
-- ==== Proof.RefValue.lean ====
/-
  The reference's result is the function `G` of `Spec.lean`: the twelve shifted copies combine, entry by entry,
  into the two Sobel responses exactly as written there; the three 16-channel arrays joined along the channel axis
  are the 48 features; the two contractions over the last axis are the two sums; relu is the maximum with zero.
-/
import proofs.«110376_j15324443312135_1_alg».proof.Proof.RefRoll

set_option maxRecDepth 16384

noncomputable section

namespace Cert.RefValue

open Idealize.ShloMosaic Idealize.ShloMosaic.ValueIdx
open Cert.ReferenceIdeal Cert.ReferenceIdeal.Gen Cert.ReferenceIdeal.ReadP Cert.Spec

section Pieces

variable (x : (⟨S16x256x256x16, .f32⟩ : BufTy).Contents (Elt Ideal))

/-! ### The indices the two contractions read

At output entry (b, h, w, c) the second contraction reads the hidden array at (b, h, w, k) and the output weights at
(c, k); at hidden entry (b, h, w, k) the first reads the feature array at (b, h, w, j) and the hidden weights at
(k, j). Each equation holds coordinate by coordinate. -/

private theorem lidx29_eq (b : Fin 16) (h w : Fin 256) (c : Fin 16) (k : Fin 128) :
    lidx_main_v29 (ix4 b h w c) k = ix4 b h w k := by
  funext a
  match a with
  | ⟨0, _⟩ => rfl
  | ⟨1, _⟩ => rfl
  | ⟨2, _⟩ => rfl
  | ⟨3, _⟩ => rfl

private theorem ridx29_eq (b : Fin 16) (h w : Fin 256) (c : Fin 16) (k : Fin 128) :
    ridx_main_v29 (ix4 b h w c) k = ix2 c k := by
  funext a
  match a with
  | ⟨0, _⟩ => rfl
  | ⟨1, _⟩ => rfl

private theorem lidx27_eq (b : Fin 16) (h w : Fin 256) (k : Fin 128) (j : Fin 48) :
    lidx_main_v27 (ix4 b h w k) j = ix4 b h w j := by
  funext a
  match a with
  | ⟨0, _⟩ => rfl
  | ⟨1, _⟩ => rfl
  | ⟨2, _⟩ => rfl
  | ⟨3, _⟩ => rfl

private theorem ridx27_eq (b : Fin 16) (h w : Fin 256) (k : Fin 128) (j : Fin 48) :
    ridx_main_v27 (ix4 b h w k) j = ix2 k j := by
  funext a
  match a with
  | ⟨0, _⟩ => rfl
  | ⟨1, _⟩ => rfl

/-! ### The two Sobel responses

Entry (b, h, w, c) of the horizontal response is
(x[h-1, w+1] - x[h-1, w-1]) + 2 (x[h, w+1] - x[h, w-1]) + (x[h+1, w+1] - x[h+1, w-1]): each shifted copy is the
state grid at the neighbouring row and column, and the differences, the product by the literal 2 and the two sums
are the extended reals' own, grouped as in `sx`. The vertical response likewise, grouped as in `sy`. -/

private theorem sx_eq (b : Fin 16) (h w : Fin 256) (c : Fin 16) :
    val_main_v12 (F := Ideal) x (ix4 b h w c) = sx x b h w c := by
  rw [val_main_v12_apply, val_main_v8_apply, val_main_v2_apply, val_main_v7_apply, val_main_v5_apply,
    val_main_v11_apply, val_main_v6_apply, val_main_cst_apply,
    roll_v0, roll_v1, roll_v3, roll_v4, roll_v9, roll_v10]
  simp only [Ideal.addf_def, Ideal.subf_def, Ideal.mulf_def, Ideal.ofBits_def, Cert.Spec.sx]

private theorem sy_eq (b : Fin 16) (h w : Fin 256) (c : Fin 16) :
    val_main_v25 (F := Ideal) x (ix4 b h w c) = sy x b h w c := by
  rw [val_main_v25_apply, val_main_v21_apply, val_main_v15_apply, val_main_v20_apply, val_main_v18_apply,
    val_main_v24_apply, val_main_v19_apply, val_main_cst_0_apply,
    roll_v13, roll_v14, roll_v16, roll_v17, roll_v22, roll_v23]
  simp only [Ideal.addf_def, Ideal.subf_def, Ideal.mulf_def, Ideal.ofBits_def, Cert.Spec.sy]

/-! ### The 48 features

The feature array joins three arrays of 16 channels along the channel axis, so position j = 16 k + c of the join
(k = 0, 1, 2 and c < 16) is channel c of piece k, at the same image, row and column. -/

/-- The joined array read at a feature position: the piece whose span of 16 holds the position. -/
private theorem v26_piece (b : Fin 16) (h w : Fin 256) (j : Fin 48)
    (k : Nat) (hk : k < 3) (y : S16x256x256x16.Idx → EReal)
    (hxk : [(⟨S16x256x256x16, val_main_v12 (F := Ideal) x⟩ : (s : Shape) × (s.Idx → EReal)),
        ⟨S16x256x256x16, val_main_v25 (F := Ideal) x⟩, ⟨S16x256x256x16, x⟩][k]'hk = ⟨S16x256x256x16, y⟩)
    (c : Fin 16) (hc : 16 * k + c.val = j.val) :
    val_main_v26 (F := Ideal) x (ix4 b h w j) = y (ix4 b h w c) := by
  unfold val_main_v26
  refine concatenate_apply_piece (t := S16x256x256x48) (3 : Fin 4)
    [(⟨S16x256x256x16, val_main_v12 (F := Ideal) x⟩ : (s : Shape) × (s.Idx → EReal)),
      ⟨S16x256x256x16, val_main_v25 (F := Ideal) x⟩, ⟨S16x256x256x16, x⟩]
    concatenates_S16x256x256x16_S16x256x256x16_S16x256x256x16_S16x256x256x48_d3 (ix4 b h w j) k hk S16x256x256x16 y hxk rfl (16 * k) ?_
    (ix4 b h w c) ?_ ?_
  · -- the k pieces before piece k span 16 k channels
    match k, hk with
    | 0, _ => rfl
    | 1, _ => rfl
    | 2, _ => rfl
  · -- off the channel axis the coordinates are the same
    intro a ha
    match a with
    | ⟨0, _⟩ => rfl
    | ⟨1, _⟩ => rfl
    | ⟨2, _⟩ => rfl
    | ⟨3, _⟩ => exact absurd rfl ha
  · exact hc

/-- Feature j of a pixel: below 16 the horizontal response, below 32 the vertical one, else the channel itself. -/
private theorem feature_eq (b : Fin 16) (h w : Fin 256) (j : Fin 48) :
    val_main_v26 (F := Ideal) x (ix4 b h w j) = feature x b h w j := by
  unfold Cert.Spec.feature
  by_cases h0 : j.val < 16
  · rw [dif_pos h0]
    refine (v26_piece x b h w j 0 (by decide) _ rfl ⟨j.val, h0⟩ (by simp)).trans ?_
    exact sx_eq x b h w _
  · rw [dif_neg h0]
    by_cases h1 : j.val < 32
    · rw [dif_pos h1]
      refine (v26_piece x b h w j 1 (by decide) _ rfl ⟨j.val - 16, by omega⟩ (by simp; omega)).trans ?_
      exact sy_eq x b h w _
    · rw [dif_neg h1]
      exact v26_piece x b h w j 2 (by decide) _ rfl ⟨j.val - 32, by omega⟩ (by simp; omega)

end Pieces

/-- Entry (b, h, w, c) of the result is Σₖ max (Σⱼ featureⱼ · W_hidden[k, j], 0) · W_out[c, k]: the sums, the products
    and the maximum stand in the same order and grouping on both sides, so the two agree term by term. -/
theorem ref_is_G (x : (⟨S16x256x256x16, .f32⟩ : BufTy).Contents (Elt Ideal)) (wh : (⟨S128x48, .f32⟩ : BufTy).Contents (Elt Ideal))
    (wo : (⟨S16x128, .f32⟩ : BufTy).Contents (Elt Ideal)) :
    val_main_v29 (F := Ideal) x wh wo = Cert.Spec.G x wh wo := by
  funext i
  obtain ⟨b, h, w, c, rfl⟩ : ∃ (b : Fin 16) (h w : Fin 256) (c : Fin 16), i = ix4 b h w c :=
    ⟨i 0, i 1, i 2, i 3, eq_ix4 i⟩
  rw [val_main_v29_apply, G_apply]
  unfold Cert.Spec.outAt
  refine Finset.sum_congr rfl fun k _ => ?_
  rw [lidx29_eq, ridx29_eq, val_main_v28_apply, val_main_call12_v0_apply, val_main_call12_cst_apply,
    val_main_v27_apply]
  unfold Cert.Spec.hidden
  simp only [Ideal.maximumf_def, Ideal.ofBits_def]
  congr 2
  refine Finset.sum_congr rfl fun j _ => ?_
  rw [lidx27_eq, ridx27_eq, feature_eq]

end Cert.RefValue

end
-- ==== Proof.lean ====
/-
  The certificate's five claims.

  The kernel computes, tile by tile, two Sobel responses of the state grid (rows and columns wrapping around),
  joins them with the grid's own channels into 48 features per pixel, and applies a rectified hidden layer and an
  output layer; the reference computes the same with whole-array shifts and two contractions. Over the extended
  reals both are the one function `G` of `Proof/Spec.lean` of the three argument arrays: no sum or product is
  regrouped, the changes of float format are identities, so the precondition is never opened.

  * The two kernel programs' frames: `Proof/K/Launch.lean` and `Proof/KI/Launch.lean` (the state grid is lent to
    its three windows in three parts of its share; the body's triple is the symbolic run of the printed body).
  * The reference's frame and value: its run (`Proof/RefRun.lean`) ends at the last stage of the arguments, which is
    `G` (`Proof/RefValue.lean`).
  * The idealized kernel's value: every tile written back is `G` on its rows and the tiles cover the result
    (`Proof/KI/Final.lean`).
  * The ideal pass rewrote nothing: `preserves` is `True`.
-/
import proofs.«110376_j15324443312135_1_alg».proof.Defs
import proofs.«110376_j15324443312135_1_alg».proof.Proof.Gen.Kernel
import proofs.«110376_j15324443312135_1_alg».proof.Proof.Gen.KernelIdeal
import proofs.«110376_j15324443312135_1_alg».proof.Proof.Gen.ReferenceIdeal
import proofs.«110376_j15324443312135_1_alg».proof.Proof.Gen.Pre_finite_inputs
import proofs.«110376_j15324443312135_1_alg».proof.Proof.K.Launch
import proofs.«110376_j15324443312135_1_alg».proof.Proof.KI.Final
import proofs.«110376_j15324443312135_1_alg».proof.Proof.RefRun
import proofs.«110376_j15324443312135_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_reference : Cert.frame_ReferenceIdeal := fun m ρ _ =>
  (θ_run Cert.ReferenceIdeal.defs _ _).mono (fun _ h c => (h c).2) (Cert.RefRun.run (F := Ideal) m ρ)

/-- From memories agreeing on the arguments both programs end with the result at `G` of the arguments. -/
theorem algebraic : Cert.algebraic_KernelIdeal_ReferenceIdeal := by
  intro m ρ m' ρ' _ hagree
  refine ⟨fun c => Cert.KernelIdeal.Hand.resultOf m c, Cert.KernelIdeal.Hand.run_value m ρ, ?_⟩
  refine (θ_run Cert.ReferenceIdeal.defs _ _).mono (fun _ h c => ⟨(h c).1.trans ?_, (h c).2⟩)
    (Cert.RefRun.run (F := Ideal) m' ρ')
  rw [(hagree c).1, (hagree c).2.1, (hagree c).2.2]
  exact Cert.RefValue.ref_is_G _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
